-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S8x2048x2048 : Shape := ⟨3, ![8, 2048, 2048]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S8x2048x3 .f32) (main_arg1 : FVec F S8x2048x3 .f32) (main_arg2 : FVec F S8x2048x2048 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  main_v13
-- ==== Kernel.lean ====
abbrev S8x2048x3 : Shape := ⟨3, ![8, 2048, 3]⟩
abbrev S8x2048x2048 : Shape := ⟨3, ![8, 2048, 2048]⟩
abbrev S8x1x128 : Shape := ⟨3, ![8, 1, 128]⟩
abbrev S1x512x3 : Shape := ⟨3, ![1, 512, 3]⟩
abbrev S1x512x512 : Shape := ⟨3, ![1, 512, 512]⟩
abbrev S1x1x128 : Shape := ⟨3, ![1, 1, 128]⟩
abbrev S1x128 : Shape := ⟨2, ![1, 128]⟩
abbrev S512x3 : Shape := ⟨2, ![512, 3]⟩
abbrev S512x512 : Shape := ⟨2, ![512, 512]⟩
abbrev S3x512 : Shape := ⟨2, ![3, 512]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S8x1x1 : Shape := ⟨3, ![8, 1, 1]⟩
abbrev S8 : Shape := ⟨1, ![8]⟩
abbrev S_ : Shape := ⟨0, ![]⟩

abbrev nBuf : Space → Nat
  | .hbm => 14
  | .vmem => 16
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048x2048, .f32⟩
  | .hbm, ⟨3, _⟩ => ⟨S8x1x128, .f32⟩
  | .hbm, ⟨4, _⟩ => ⟨S8x1x128, .f32⟩
  | .hbm, ⟨5, _⟩ => ⟨S8x1x1, .f32⟩
  | .hbm, ⟨6, _⟩ => ⟨S8, .f32⟩
  | .hbm, ⟨7, _⟩ => ⟨S_, .f32⟩
  | .hbm, ⟨8, _⟩ => ⟨S_, .f32⟩
  | .hbm, ⟨9, _⟩ => ⟨S8x1x1, .f32⟩
  | .hbm, ⟨10, _⟩ => ⟨S8, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x512x3, .f32⟩
  | .local _ .vmem, ⟨3, _⟩ => ⟨S1x512x3, .f32⟩
  | .local _ .vmem, ⟨4, _⟩ => ⟨S1x512x3, .f32⟩
  | .local _ .vmem, ⟨5, _⟩ => ⟨S1x512x3, .f32⟩
  | .local _ .vmem, ⟨6, _⟩ => ⟨S1x512x3, .f32⟩
  | .local _ .vmem, ⟨7, _⟩ => ⟨S1x512x3, .f32⟩
  | .local _ .vmem, ⟨8, _⟩ => ⟨S1x512x512, .f32⟩
  | .local _ .vmem, ⟨9, _⟩ => ⟨S1x512x512, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x128, .f32⟩
  | .local _ .vmem, ⟨15, _⟩ => ⟨S1x128, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg1 : BitVec 32 := BitVec.ofNat 32 (i 1).val
  let c3_i32 : BitVec 32 := 3#32
  let v122 : BitVec 1 := Scalar.cmpi .eq arg1 c3_i32
  let arg2 : BitVec 32 := BitVec.ofNat 32 (i 2).val
  let c3_i32_43 : BitVec 32 := 3#32
  let v123 : BitVec 1 := Scalar.cmpi .eq arg2 c3_i32_43
  let v124 : BitVec 1 := Scalar.andi v122 v123
  let v125 : BitVec 32 := Scalar.extui v124
  let c0_i32_44 : BitVec 32 := 0#32
  let v126 : BitVec 1 := Scalar.cmpi .ne v125 c0_i32_44
  v126

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x3_p1_0_S3x512 : S512x3.Transposes [1, 0] S3x512
  reduces_S512x3_S512 : S512x3.Reduces [1] S512
  shapeCasts_S512_S512x1 : S512.ShapeCasts S512x1
  reduces_S3x512_S512 : S3x512.Reduces [0] S512
  shapeCasts_S512_S1x512 : S512.ShapeCasts S1x512
  slices_S512x3_o0_0_S512x1 : S512x3.Slices ![0, 0] S512x1
  slices_S3x512_o0_0_S1x512 : S3x512.Slices ![0, 0] S1x512
  broadcasts_S512x1_S512x512 : S512x1.Broadcasts S512x512
  broadcasts_S1x512_S512x512 : S1x512.Broadcasts S512x512
  slices_S512x3_o0_1_S512x1 : S512x3.Slices ![0, 1] S512x1
  slices_S3x512_o1_0_S1x512 : S3x512.Slices ![1, 0] S1x512
  slices_S512x3_o0_2_S512x1 : S512x3.Slices ![0, 2] S512x1
  slices_S3x512_o2_0_S1x512 : S3x512.Slices ![2, 0] S1x512
  reduces_S512x512_S512 : S512x512.Reduces [1] S512
  reduces_S512x1_S1 : S512x1.Reduces [0] S1
  shapeCasts_S1_S1x1 : S1.ShapeCasts S1x1
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x2048x3.size a
  hwx0_0 : ∀ i : grid0.Coords, EltTy.bits .f32 = 32 ∨ (Rect.block (s := S8x2048x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S8x2048x3.size a
  hwx0_1 : ∀ i : grid0.Coords, EltTy.bits .f32 = 32 ∨ (Rect.block (s := S8x2048x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x3.size a ≤ S8x2048x3.size a
  hwx0_2 : ∀ i : grid0.Coords, EltTy.bits .f32 = 32 ∨ (Rect.block (s := S8x2048x3) S1x512x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x3.size a ≤ S8x2048x3.size a
  hwx0_3 : ∀ i : grid0.Coords, EltTy.bits .f32 = 32 ∨ (Rect.block (s := S8x2048x3) S1x512x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S8x2048x2048.size a
  hwx0_4 : ∀ i : grid0.Coords, EltTy.bits .f32 = 32 ∨ (Rect.block (s := S8x2048x2048) S1x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S8x1x128.size a
  hwx0_5 : ∀ i : grid0.Coords, EltTy.bits .f32 = 32 ∨ (Rect.block (s := S8x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S8x1x128.size a
  hwx0_6 : ∀ i : grid0.Coords, EltTy.bits .f32 = 32 ∨ (Rect.block (s := S8x1x128) S1x1x128.size (cc0_transform_6 i) (hinb0_6 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x512x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x2048x3 : Shape := ⟨3, ![8, 2048, 3]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048x2048, .f32⟩
  | .hbm, ⟨3, _⟩ => ⟨S8x2048x3, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S8x1x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .i1⟩
  | .hbm, ⟨22, _⟩ => ⟨S_, .f32⟩
  | .hbm, ⟨23, _⟩ => ⟨S8x2048x2048, .f32⟩
  | .hbm, ⟨24, _⟩ => ⟨S8x2048x2048, .i1⟩
  | .hbm, ⟨25, _⟩ => ⟨S_, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S_, .f32⟩
  | .hbm, ⟨32, _⟩ => ⟨S8x2048x2048, .f32⟩
  | .hbm, ⟨33, _⟩ => ⟨S8x2048x2048, .f32⟩
  | .hbm, ⟨34, _⟩ => ⟨S8x2048x3, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x1x2048, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S8x2048x2048, .f32⟩
  | .hbm, ⟨52, _⟩ => ⟨S8x2048x2048, .i1⟩
  | .hbm, ⟨53, _⟩ => ⟨S_, .f32⟩
  | .hbm, ⟨54, _⟩ => ⟨S8x2048x2048, .f32⟩
  | .hbm, ⟨55, _⟩ => ⟨S8x2048x2048, .i1⟩
  | .hbm, ⟨56, _⟩ => ⟨S_, .f32⟩
  | .hbm, ⟨57, _⟩ => ⟨S_, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S_, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_call2_v0 : Ref sig .tc := ⟨.hbm, 57, rfl⟩
abbrev main_call2_v1 : Ref sig .tc := ⟨.hbm, 58, rfl⟩
abbrev main_v37 : Ref sig .tc := ⟨.hbm, 59, rfl⟩
abbrev main_v38 : Ref sig .tc := ⟨.hbm, 60, rfl⟩
abbrev main_cst_12 : Ref sig .tc := ⟨.hbm, 61, rfl⟩
abbrev main_call3_v0 : Ref sig .tc := ⟨.hbm, 62, rfl⟩
abbrev main_call3_v1 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_13 : Ref sig .tc := ⟨.hbm, 68, rfl⟩
abbrev main_v43 : Ref sig .tc := ⟨.hbm, 69, rfl⟩
abbrev main_cst_14 : Ref sig .tc := ⟨.hbm, 70, rfl⟩
abbrev main_v44 : Ref sig .tc := ⟨.hbm, 71, rfl⟩
abbrev main_v45 : Ref sig .tc := ⟨.hbm, 72, rfl⟩

abbrev nD : Nat := 1
abbrev τ : Topo := Topo.v7x

variable {F : FTy → Type} [FloatOps F]

class Facts₀ : Prop where
  reducesTo_S8x2048x3_S8x2048_d2 : S8x2048x3.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S_d0_1_2 : S8x2048x2048.ReducesTo [0, 1, 2] S_
  dot_S8x2048x3_S8x2048x3_S8x2048x2048_2_2_1_1_0_0_wf : DotDims.WF S8x2048x3 S8x2048x3 S8x2048x2048 [2] [2] [1] [1] [0] [0]

variable [Facts₀]

def dot_S8x2048x3_S8x2048x3_S8x2048x2048_2_2_1_1_0_0 : DotDims S8x2048x3 S8x2048x3 S8x2048x2048 where
  lhsContracting := [2]
  rhsContracting := [2]
  lhsNonContracting := [1]
  rhsNonContracting := [1]
  lhsBatch := [0]
  rhsBatch := [0]
  wf := dot_S8x2048x3_S8x2048x3_S8x2048x2048_2_2_1_1_0_0_wf

class Facts : Prop extends Facts₀ where

variable [Facts]
-- ==== Proof.KBits.Blocks.lean ====
/-
  The kernel region's setting, for any float instance. The grid has 128 points: point `t` is batch `t / 16`, row
  tile `(t / 4) % 4`, column tile `t % 4`. Two branches of the body depend on the point alone: the accumulators are
  cleared at a batch's first tile (`t % 16 = 0`) and written out at its last (`t % 16 = 15`); between those the two
  result windows are left untouched. Every input window holds, at every point, the block of its array that the
  point's index map names, whether or not the pipeline fetched it at that very point.
-/
import proofs.«168659_j5179730559712_1_alg».proof.Proof.Gen.Kernel.Launch
import proofs.«168659_j5179730559712_1_alg».proof.Proof.Gen.Kernel.Skeleton
import proofs.«168659_j5179730559712_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: the launch memory (no host operation runs before the region). -/
abbrev V0 (c : Dev nD) : Valuation τ sig (Elt F) := fun b => m (c, b)
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where the pipeline
    does not fetch, the window's index has not moved since the last fetch and the body left the block in place. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t) (t : Fin cfg0.N) (d) :
    dat.before w t d = dat.fetched w t d :=
  dat.before_in_eq_fetched w hw hlive hclip (fun t => by rw [hafter]; unfold Dat.blockOf iblk; rw [hA]) t d

/-- The share of its array each window holds. The two windows on the first point cloud each hold half of it, likewise
    the two on the second; every other window holds its array whole. -/
def inShare : Fin cfg0.W → PosShare TreeShare
  | ⟨0, _⟩ => fullShare.left
  | ⟨1, _⟩ => fullShare.right
  | ⟨2, _⟩ => fullShare.left
  | ⟨3, _⟩ => fullShare.right
  | ⟨4, _⟩ => fullShare
  | ⟨5, _⟩ => fullShare
  | ⟨6, _⟩ => fullShare

/-! ## The body's two conditions on the grid point -/

/-- The point is a batch's first tile: row tile 0 and column tile 0. -/
abbrev isFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- Decided over the grid: the points divisible by 16. -/
theorem isFirst_iff : ∀ t : Fin cfg0.N, isFirst (grid0.coords t) ↔ t.val % 16 = 0 :=
  (by decide +kernel : ∀ t : Fin grid0.N, isFirst (grid0.coords t) ↔ t.val % 16 = 0)

/-- The point is a batch's last tile: row tile 3 and column tile 3. -/
abbrev isLast (i : grid0.Coords) : Prop := k0_cond2 i = 1#1
/-- Decided over the grid: the points that are 15 modulo 16. -/
theorem isLast_iff : ∀ t : Fin cfg0.N, isLast (grid0.coords t) ↔ t.val % 16 = 15 :=
  (by decide +kernel : ∀ t : Fin grid0.N, isLast (grid0.coords t) ↔ t.val % 16 = 15)

/-! ## Where the windows are idle, and where the results are written back -/

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
theorem live_in3 : ∀ t : Fin cfg0.N, cfg0.idle 3 (grid0.coords t) = false := by decide +kernel
theorem live_in4 : ∀ t : Fin cfg0.N, cfg0.idle 4 (grid0.coords t) = false := by decide +kernel
/-- Away from a batch's last tile the result windows are idle and not written back. -/
theorem idle_out5 : ∀ t : Fin cfg0.N, ¬isLast (grid0.coords t) → cfg0.idle 5 (grid0.coords t) = true := by decide +kernel
theorem idle_out6 : ∀ t : Fin cfg0.N, ¬isLast (grid0.coords t) → cfg0.idle 6 (grid0.coords t) = true := by decide +kernel
theorem noflush_out5 : ∀ t : Fin cfg0.N, ¬isLast (grid0.coords t) → (cfg0.win 5).flush t = false := by decide +kernel
theorem noflush_out6 : ∀ t : Fin cfg0.N, ¬isLast (grid0.coords t) → (cfg0.win 6).flush t = false := by decide +kernel
/-- At a batch's last tile they are live. -/
theorem live_out5 : ∀ t : Fin cfg0.N, isLast (grid0.coords t) → cfg0.idle 5 (grid0.coords t) = false := by decide +kernel
theorem live_out6 : ∀ t : Fin cfg0.N, isLast (grid0.coords t) → cfg0.idle 6 (grid0.coords t) = false := by decide +kernel

/-! ## The memrefs the body is called with -/

abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x3 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x3 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x128 .f32 := win0_6.stage (cfg0.slots t 6)
abbrev hs6 (t : Fin cfg0.N) : (ms6 t).IsWhole := hstage0_6 ((cfg0.slots t 6).cast nbuf0_6)
/-- The two accumulators: whole scoped buffers of the kernel's own. -/
abbrev acc0 : Memref sig .tc .vmem S1x128 .f32 := Memref.whole cc0_scratch0
abbrev acc1 : Memref sig .tc .vmem S1x128 .f32 := Memref.whole cc0_scratch1
/-- One staging buffer of each result window, through which its contents are stated (any would do). -/
abbrev VO5 : View sig .tc .vmem S1x1x128 .f32 := (Memref.whole cc0_stg5_0 : Memref sig .tc .vmem S1x1x128 .f32).view
abbrev VO6 : View sig .tc .vmem S1x1x128 .f32 := (Memref.whole cc0_stg6_0 : Memref sig .tc .vmem S1x1x128 .f32).view
abbrev VA0 : View sig .tc .vmem S1x128 .f32 := (acc0 : Memref sig .tc .vmem S1x128 .f32).view
abbrev VA1 : View sig .tc .vmem S1x128 .f32 := (acc1 : Memref sig .tc .vmem S1x128 .f32).view

/-- The region's plain invariant (the scoped buffers no window stages, each at some contents, and the generator
    register at some state) with the two accumulators as memrefs owned at some contents. -/
theorem PhiA_eq (c : Dev nD) :
    (Pipeline.ΦA spec0 c : sProp 𝕄)
      = iprop(iprop((∃ d, owns (c : Thread nD τ) acc0 fullShare d) ∗ (∃ d, owns (c : Thread nD τ) acc1 fullShare d)) ∗ (∃ r, prngReg c r)) := by
  unfold Pipeline.ΦA; rw [scopedRest0_eq]; simp only [acc0, acc1, owns_whole]; try rfl

end Cert.Kernel.Frame

end
-- ==== Proof.KBits.BodyMid.lean ====
/-
  The kernel body at a tile that is neither the first nor the last of its batch: nothing is cleared and nothing is
  written out. The body reads the five input blocks and the two accumulators, and stores into each accumulator its
  old contents plus the tile's partial sum; the result windows are handed back as they were found.
-/
import proofs.«168659_j5179730559712_1_alg».proof.Proof.KBits.Blocks

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulators at a middle tile, with the proof that from the inputs'
    staging buffers at `x0 … x4`, the result windows' at `xi5`, `xi6` and the accumulators at `s0`, `s1` the body runs
    to a state holding the inputs and the result windows as they were and each accumulator with its pieces written. -/
noncomputable def runMid (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : ¬isLast i)
    (x0 x1 x2 x3 : Vec F S1x512x3 .f32) (x4 : Vec F S1x512x512 .f32) (s0 s1 : Vec F S1x128 .f32) :
    Σ' (LA0 : List (View.Piece (Elt F) S1x128 .f32)), { LA1 : List (View.Piece (Elt F) S1x128 .f32) //
      ∀ (xi5 xi6 : Vec F S1x1x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi5 ∗ owns (c : Thread nD τ) arg9 fullShare xi6
            ∗ owns (c : Thread nD τ) arg10 fullShare s0 ∗ owns (c : Thread nD τ) arg11 fullShare s1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5 ∗ owns (c : Thread nD τ) arg9 fullShare xi6
                ∗ (∃ f, arg10.view.loc (c : Thread nD τ) ↦[arg10.view.set]{fullShare} arg10.view.writes (Elt F) f LA0)
                ∗ (∃ f, arg11.view.loc (c : Thread nD τ) ↦[arg11.view.set]{fullShare} arg11.view.writes (Elt F) f LA1)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, fun xi5 xi6 E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5; obtain rfl := harg9.eq_unread hf6; obtain rfl := harg10.eq_unread hfs0; obtain rfl := harg11.eq_unread hfs1
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.Kernel.Frame

end
-- ==== Proof.KBits.BodyFirst.lean ====
/-
  The kernel body at the first tile of a batch: both accumulators are cleared before anything is added, so what they
  held on entry does not matter; the tile's partial sums are then added to the cleared accumulators. Nothing is written
  out, and the result windows are handed back as they were found.
-/
import proofs.«168659_j5179730559712_1_alg».proof.Proof.KBits.BodyMid

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulators at a batch's first tile (the clearing store, then the
    accumulating store), with the proof that from the inputs' staging buffers at `x0 … x4`, the result windows' at
    `xi5`, `xi6` and the accumulators at anything the body runs to a state holding the inputs and the result windows
    as they were and each accumulator with its pieces written. -/
noncomputable def runFirst (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : isFirst i) (hl : ¬isLast i)
    (x0 x1 x2 x3 : Vec F S1x512x3 .f32) (x4 : Vec F S1x512x512 .f32) :
    Σ' (LA0 : List (View.Piece (Elt F) S1x128 .f32)), { LA1 : List (View.Piece (Elt F) S1x128 .f32) //
      ∀ (xi5 xi6 : Vec F S1x1x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi5 ∗ owns (c : Thread nD τ) arg9 fullShare xi6
            ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5 ∗ owns (c : Thread nD τ) arg9 fullShare xi6
                ∗ (∃ f, arg10.view.loc (c : Thread nD τ) ↦[arg10.view.set]{fullShare} arg10.view.writes (Elt F) f LA0)
                ∗ (∃ f, arg11.view.loc (c : Thread nD τ) ↦[arg11.view.set]{fullShare} arg11.view.writes (Elt F) f LA1)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, fun xi5 xi6 E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5; obtain rfl := harg9.eq_unread hf6
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.Kernel.Frame

end
-- ==== Proof.KBits.BodyLast.lean ====
/-
  The kernel body at the last tile of a batch: the tile's partial sums are added to the accumulators as at any later
  tile, and then each accumulator's contents are stored into its result window, whose previous contents do not
  matter.
-/
import proofs.«168659_j5179730559712_1_alg».proof.Proof.KBits.BodyFirst

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two result windows and the two accumulators at a batch's last tile,
    with the proof that from the inputs' staging buffers at `x0 … x4`, the result windows' at anything and the
    accumulators at `s0`, `s1` the body runs to a state holding the inputs as they were and each result window and
    each accumulator with its pieces written. -/
noncomputable def runLast (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i)
    (x0 x1 x2 x3 : Vec F S1x512x3 .f32) (x4 : Vec F S1x512x512 .f32) (s0 s1 : Vec F S1x128 .f32) :
    Σ' (L5 L6 : List (View.Piece (Elt F) S1x1x128 .f32)) (LA0 : List (View.Piece (Elt F) S1x128 .f32)), { LA1 : List (View.Piece (Elt F) S1x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ (∃ d, owns (c : Thread nD τ) arg8 fullShare d) ∗ (∃ d, owns (c : Thread nD τ) arg9 fullShare d)
            ∗ owns (c : Thread nD τ) arg10 fullShare s0 ∗ owns (c : Thread nD τ) arg11 fullShare s1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f LA0)
                ∗ (∃ f, arg11.view.loc (c : Thread nD τ) ↦[arg11.view.set]{fullShare} arg11.view.writes (Elt F) f LA1)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg10.eq_unread hfs0; obtain rfl := harg11.eq_unread hfs1
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [HS0]; · iexists _; iexact HS0
    iexists _; iexact HS1

end Cert.Kernel.Frame

end
-- ==== Proof.KBits.Carried.lean ====
/-
  What the kernel keeps from one grid point to the next, for any float instance. The two accumulators are scratch
  buffers of the kernel's own: cleared at a batch's first tile, added to at every tile, copied into the result windows
  at the batch's last tile. After point `t` each accumulator holds what the point's case of the body leaves in it,
  given what the point before left (`outsAt0`, by recursion on the point); the region's invariant between points is the
  two accumulators at those contents.
-/
import proofs.«168659_j5179730559712_1_alg».proof.Proof.KBits.BodyLast

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: its pieces read back -/

/-- A result window's contents where nothing names them (the window idle and not written back). -/
def unnamed5 : Vec F S1x1x128 .f32 := VO5.read (Elt F) VO5.junk
def unnamed6 : Vec F S1x1x128 .f32 := VO6.read (Elt F) VO6.junk

/-- First tile: the accumulators' pieces tile them. -/
theorem coverFirst0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : isFirst i) (hl : ¬isLast i) (x0 x1 x2 x3 : Vec F S1x512x3 .f32) (x4 : Vec F S1x512x512 .f32) (y : S1x128.Idx) :
    ∃ pc ∈ (runFirst c i arg3 harg3 arg4 harg4 arg5 harg5 arg6 harg6 arg7 harg7 arg8 harg8 arg9 harg9 arg10 harg10 arg11 harg11 hf hl x0 x1 x2 x3 x4).1, y ∈ pc.1.set :=
  View.cover_of_tiledL (runFirst c i arg3 harg3 arg4 harg4 arg5 harg5 arg6 harg6 arg7 harg7 arg8 harg8 arg9 harg9 arg10 harg10 arg11 harg11 hf hl x0 x1 x2 x3 x4).1 S1x128.size (by sl_kernel_rfl) y
theorem coverFirst1 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : isFirst i) (hl : ¬isLast i) (x0 x1 x2 x3 : Vec F S1x512x3 .f32) (x4 : Vec F S1x512x512 .f32) (y : S1x128.Idx) :
    ∃ pc ∈ (runFirst c i arg3 harg3 arg4 harg4 arg5 harg5 arg6 harg6 arg7 harg7 arg8 harg8 arg9 harg9 arg10 harg10 arg11 harg11 hf hl x0 x1 x2 x3 x4).2.1, y ∈ pc.1.set :=
  View.cover_of_tiledL (runFirst c i arg3 harg3 arg4 harg4 arg5 harg5 arg6 harg6 arg7 harg7 arg8 harg8 arg9 harg9 arg10 harg10 arg11 harg11 hf hl x0 x1 x2 x3 x4).2.1 S1x128.size (by sl_kernel_rfl) y
/-- What the first tile leaves in each accumulator. -/
def accFirst0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : isFirst i) (hl : ¬isLast i) (x0 x1 x2 x3 : Vec F S1x512x3 .f32) (x4 : Vec F S1x512x512 .f32) : Vec F S1x128 .f32 :=
  VA0.read (Elt F) (VA0.writes (Elt F) VA0.junk (runFirst c i arg3 harg3 arg4 harg4 arg5 harg5 arg6 harg6 arg7 harg7 arg8 harg8 arg9 harg9 arg10 harg10 arg11 harg11 hf hl x0 x1 x2 x3 x4).1)
def accFirst1 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : isFirst i) (hl : ¬isLast i) (x0 x1 x2 x3 : Vec F S1x512x3 .f32) (x4 : Vec F S1x512x512 .f32) : Vec F S1x128 .f32 :=
  VA1.read (Elt F) (VA1.writes (Elt F) VA1.junk (runFirst c i arg3 harg3 arg4 harg4 arg5 harg5 arg6 harg6 arg7 harg7 arg8 harg8 arg9 harg9 arg10 harg10 arg11 harg11 hf hl x0 x1 x2 x3 x4).2.1)

/-- Middle tile. -/
theorem coverMid0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : ¬isLast i) (x0 x1 x2 x3 : Vec F S1x512x3 .f32) (x4 : Vec F S1x512x512 .f32) (s0 s1 : Vec F S1x128 .f32) (y : S1x128.Idx) :
    ∃ pc ∈ (runMid c i arg3 harg3 arg4 harg4 arg5 harg5 arg6 harg6 arg7 harg7 arg8 harg8 arg9 harg9 arg10 harg10 arg11 harg11 hf hl x0 x1 x2 x3 x4 s0 s1).1, y ∈ pc.1.set :=
  View.cover_of_tiledL (runMid c i arg3 harg3 arg4 harg4 arg5 harg5 arg6 harg6 arg7 harg7 arg8 harg8 arg9 harg9 arg10 harg10 arg11 harg11 hf hl x0 x1 x2 x3 x4 s0 s1).1 S1x128.size (by sl_kernel_rfl) y
theorem coverMid1 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : ¬isLast i) (x0 x1 x2 x3 : Vec F S1x512x3 .f32) (x4 : Vec F S1x512x512 .f32) (s0 s1 : Vec F S1x128 .f32) (y : S1x128.Idx) :
    ∃ pc ∈ (runMid c i arg3 harg3 arg4 harg4 arg5 harg5 arg6 harg6 arg7 harg7 arg8 harg8 arg9 harg9 arg10 harg10 arg11 harg11 hf hl x0 x1 x2 x3 x4 s0 s1).2.1, y ∈ pc.1.set :=
  View.cover_of_tiledL (runMid c i arg3 harg3 arg4 harg4 arg5 harg5 arg6 harg6 arg7 harg7 arg8 harg8 arg9 harg9 arg10 harg10 arg11 harg11 hf hl x0 x1 x2 x3 x4 s0 s1).2.1 S1x128.size (by sl_kernel_rfl) y
def accMid0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : ¬isLast i) (x0 x1 x2 x3 : Vec F S1x512x3 .f32) (x4 : Vec F S1x512x512 .f32) (s0 s1 : Vec F S1x128 .f32) : Vec F S1x128 .f32 :=
  VA0.read (Elt F) (VA0.writes (Elt F) VA0.junk (runMid c i arg3 harg3 arg4 harg4 arg5 harg5 arg6 harg6 arg7 harg7 arg8 harg8 arg9 harg9 arg10 harg10 arg11 harg11 hf hl x0 x1 x2 x3 x4 s0 s1).1)
def accMid1 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : ¬isLast i) (x0 x1 x2 x3 : Vec F S1x512x3 .f32) (x4 : Vec F S1x512x512 .f32) (s0 s1 : Vec F S1x128 .f32) : Vec F S1x128 .f32 :=
  VA1.read (Elt F) (VA1.writes (Elt F) VA1.junk (runMid c i arg3 harg3 arg4 harg4 arg5 harg5 arg6 harg6 arg7 harg7 arg8 harg8 arg9 harg9 arg10 harg10 arg11 harg11 hf hl x0 x1 x2 x3 x4 s0 s1).2.1)

/-- Last tile: the result windows' pieces tile them too. -/
theorem coverLast5 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) (y : S1x1x128.Idx) :
    ∃ pc ∈ (runLast c i arg3 harg3 arg4 harg4 arg5 harg5 arg6 harg6 arg7 harg7 arg8 harg8 arg9 harg9 arg10 harg10 arg11 harg11 hf hl x0 x1 x2 x3 x4 s0 s1).1, y ∈ pc.1.set :=
  View.cover_of_tiledL (runLast c i arg3 harg3 arg4 harg4 arg5 harg5 arg6 harg6 arg7 harg7 arg8 harg8 arg9 harg9 arg10 harg10 arg11 harg11 hf hl x0 x1 x2 x3 x4 s0 s1).1 S1x1x128.size (by sl_kernel_rfl) y
theorem coverLast6 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) (y : S1x1x128.Idx) :
    ∃ pc ∈ (runLast c i arg3 harg3 arg4 harg4 arg5 harg5 arg6 harg6 arg7 harg7 arg8 harg8 arg9 harg9 arg10 harg10 arg11 harg11 hf hl x0 x1 x2 x3 x4 s0 s1).2.1, y ∈ pc.1.set :=
  View.cover_of_tiledL (runLast c i arg3 harg3 arg4 harg4 arg5 harg5 arg6 harg6 arg7 harg7 arg8 harg8 arg9 harg9 arg10 harg10 arg11 harg11 hf hl x0 x1 x2 x3 x4 s0 s1).2.1 S1x1x128.size (by sl_kernel_rfl) y
theorem coverLastA0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) (y : S1x128.Idx) :
    ∃ pc ∈ (runLast c i arg3 harg3 arg4 harg4 arg5 harg5 arg6 harg6 arg7 harg7 arg8 harg8 arg9 harg9 arg10 harg10 arg11 harg11 hf hl x0 x1 x2 x3 x4 s0 s1).2.2.1, y ∈ pc.1.set :=
  View.cover_of_tiledL (runLast c i arg3 harg3 arg4 harg4 arg5 harg5 arg6 harg6 arg7 harg7 arg8 harg8 arg9 harg9 arg10 harg10 arg11 harg11 hf hl x0 x1 x2 x3 x4 s0 s1).2.2.1 S1x128.size (by sl_kernel_rfl) y
theorem coverLastA1 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) (y : S1x128.Idx) :
    ∃ pc ∈ (runLast c i arg3 harg3 arg4 harg4 arg5 harg5 arg6 harg6 arg7 harg7 arg8 harg8 arg9 harg9 arg10 harg10 arg11 harg11 hf hl x0 x1 x2 x3 x4 s0 s1).2.2.2.1, y ∈ pc.1.set :=
  View.cover_of_tiledL (runLast c i arg3 harg3 arg4 harg4 arg5 harg5 arg6 harg6 arg7 harg7 arg8 harg8 arg9 harg9 arg10 harg10 arg11 harg11 hf hl x0 x1 x2 x3 x4 s0 s1).2.2.2.1 S1x128.size (by sl_kernel_rfl) y
def outLast5 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) : Vec F S1x1x128 .f32 :=
  VO5.read (Elt F) (VO5.writes (Elt F) VO5.junk (runLast c i arg3 harg3 arg4 harg4 arg5 harg5 arg6 harg6 arg7 harg7 arg8 harg8 arg9 harg9 arg10 harg10 arg11 harg11 hf hl x0 x1 x2 x3 x4 s0 s1).1)
def outLast6 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) : Vec F S1x1x128 .f32 :=
  VO6.read (Elt F) (VO6.writes (Elt F) VO6.junk (runLast c i arg3 harg3 arg4 harg4 arg5 harg5 arg6 harg6 arg7 harg7 arg8 harg8 arg9 harg9 arg10 harg10 arg11 harg11 hf hl x0 x1 x2 x3 x4 s0 s1).2.1)
def accLast0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) : Vec F S1x128 .f32 :=
  VA0.read (Elt F) (VA0.writes (Elt F) VA0.junk (runLast c i arg3 harg3 arg4 harg4 arg5 harg5 arg6 harg6 arg7 harg7 arg8 harg8 arg9 harg9 arg10 harg10 arg11 harg11 hf hl x0 x1 x2 x3 x4 s0 s1).2.2.1)
def accLast1 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) : Vec F S1x128 .f32 :=
  VA1.read (Elt F) (VA1.writes (Elt F) VA1.junk (runLast c i arg3 harg3 arg4 harg4 arg5 harg5 arg6 harg6 arg7 harg7 arg8 harg8 arg9 harg9 arg10 harg10 arg11 harg11 hf hl x0 x1 x2 x3 x4 s0 s1).2.2.2.1)

/-! ## Point by point -/

/-- The contents kept after a point: the two result windows' staging buffers, then the two accumulators. -/
abbrev Kept (F : FTy → Type) [FloatOps F] : Type := Vec F S1x1x128 .f32 × Vec F S1x1x128 .f32 × Vec F S1x128 .f32 × Vec F S1x128 .f32

/-- What is kept after the body at position `n`: the case the position selects (first tile of a batch, last tile, or
    neither), run at the point's input blocks and, but at a first tile, at the accumulators the point before left.
    A position cannot be both a first and a last tile. -/
def outsAt0 (c : Dev nD) : (n : ℕ) → n < cfg0.N → Kept F
  | 0, hn => (unnamed5, unnamed6,
      accFirst0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) acc0 (Memref.isWhole_whole _) acc1 (Memref.isWhole_whole _) ((isFirst_iff ⟨0, hn⟩).mpr (Nat.zero_mod _)) (fun h => (fun h' => by (try dsimp only at h'); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩),
      accFirst1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) acc0 (Memref.isWhole_whole _) acc1 (Memref.isWhole_whole _) ((isFirst_iff ⟨0, hn⟩).mpr (Nat.zero_mod _)) (fun h => (fun h' => by (try dsimp only at h'); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 16 = 0 then
      if h1 : (n + 1) % 16 = 15 then False.elim (by omega)
      else (unnamed5, unnamed6,
        accFirst0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩),
        accFirst1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 16 = 15 then
        (outLast5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2,
         outLast6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2,
         accLast0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2,
         accLast1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
      else
        (unnamed5, unnamed6,
         accMid0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2,
         accMid1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)

/-- The point before `t`, as a position. -/
abbrev prevLt (t : Fin cfg0.N) : t.val - 1 < cfg0.N := Nat.lt_of_le_of_lt (Nat.sub_le _ _) t.isLt

/-- `outsAt0` at a batch's first tile. -/
theorem outsAt0_first (c : Dev nD) (t : Fin cfg0.N) (h0 : t.val % 16 = 0) (h1 : ¬t.val % 16 = 15) :
    outsAt0 m c t.val t.isLt = (unnamed5, unnamed6,
      accFirst0 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) ((isFirst_iff t).mpr h0) (fun h => h1 ((isLast_iff t).mp h)) (iblk m c 0 t) (iblk m c 1 t) (iblk m c 2 t) (iblk m c 3 t) (iblk m c 4 t),
      accFirst1 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) ((isFirst_iff t).mpr h0) (fun h => h1 ((isLast_iff t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a tile that is neither first nor last: over what the point before left. -/
theorem outsAt0_mid (c : Dev nD) (t : Fin cfg0.N) (h0 : ¬t.val % 16 = 0) (h1 : ¬t.val % 16 = 15) :
    outsAt0 m c t.val t.isLt = (unnamed5, unnamed6,
      accMid0 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) (fun h => h0 ((isFirst_iff t).mp h)) (fun h => h1 ((isLast_iff t).mp h)) (iblk m c 0 t) (iblk m c 1 t) (iblk m c 2 t) (iblk m c 3 t) (iblk m c 4 t) (outsAt0 m c (t.val - 1) (prevLt t)).2.2.1 (outsAt0 m c (t.val - 1) (prevLt t)).2.2.2,
      accMid1 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) (fun h => h0 ((isFirst_iff t).mp h)) (fun h => h1 ((isLast_iff t).mp h)) (iblk m c 0 t) (iblk m c 1 t) (iblk m c 2 t) (iblk m c 3 t) (iblk m c 4 t) (outsAt0 m c (t.val - 1) (prevLt t)).2.2.1 (outsAt0 m c (t.val - 1) (prevLt t)).2.2.2) := by
  obtain ⟨n, hn⟩ := t
  cases n with
  | zero => exact absurd (Nat.zero_mod _) h0
  | succ n => exact (dif_neg h0).trans ((dif_neg h1).trans rfl)

/-- `outsAt0` at a batch's last tile: over what the point before left. -/
theorem outsAt0_last (c : Dev nD) (t : Fin cfg0.N) (h0 : ¬t.val % 16 = 0) (h1 : t.val % 16 = 15) :
    outsAt0 m c t.val t.isLt =
      (outLast5 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) (fun h => h0 ((isFirst_iff t).mp h)) ((isLast_iff t).mpr h1) (iblk m c 0 t) (iblk m c 1 t) (iblk m c 2 t) (iblk m c 3 t) (iblk m c 4 t) (outsAt0 m c (t.val - 1) (prevLt t)).2.2.1 (outsAt0 m c (t.val - 1) (prevLt t)).2.2.2,
       outLast6 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) (fun h => h0 ((isFirst_iff t).mp h)) ((isLast_iff t).mpr h1) (iblk m c 0 t) (iblk m c 1 t) (iblk m c 2 t) (iblk m c 3 t) (iblk m c 4 t) (outsAt0 m c (t.val - 1) (prevLt t)).2.2.1 (outsAt0 m c (t.val - 1) (prevLt t)).2.2.2,
       accLast0 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) (fun h => h0 ((isFirst_iff t).mp h)) ((isLast_iff t).mpr h1) (iblk m c 0 t) (iblk m c 1 t) (iblk m c 2 t) (iblk m c 3 t) (iblk m c 4 t) (outsAt0 m c (t.val - 1) (prevLt t)).2.2.1 (outsAt0 m c (t.val - 1) (prevLt t)).2.2.2,
       accLast1 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) (fun h => h0 ((isFirst_iff t).mp h)) ((isLast_iff t).mpr h1) (iblk m c 0 t) (iblk m c 1 t) (iblk m c 2 t) (iblk m c 3 t) (iblk m c 4 t) (outsAt0 m c (t.val - 1) (prevLt t)).2.2.1 (outsAt0 m c (t.val - 1) (prevLt t)).2.2.2) := by
  obtain ⟨n, hn⟩ := t
  cases n with
  | zero => exact absurd (Nat.zero_mod _) h0
  | succ n => exact (dif_neg h0).trans ((dif_pos h1).trans rfl)

/-! ## The invariant between points -/

/-- Before the first point the region's plain invariant (the accumulators at anything); afterwards the two
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) acc0 fullShare ((outsAt0 m c n hn).2.2.1) ∗ owns (c : Thread nD τ) acc1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) acc0 fullShare ((outsAt0 m c n hn).2.2.1) ∗ owns (c : Thread nD τ) acc1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) acc0 fullShare ((outsAt0 m c (n - 1) (by omega)).2.2.1) ∗ owns (c : Thread nD τ) acc1 fullShare ((outsAt0 m c (n - 1) (by omega)).2.2.2)) ∗ (∃ r, prngReg c r)) := by
  cases n with
  | zero => exact absurd rfl hz
  | succ n => rfl

/-! ## The pipeline's proof data -/

/-- The proof data on core `c`: the arrays as the region finds them; after the body at point `t` each input's buffer at
    its block and each result window's at `outsAt0`'s component; the invariant `PhiS`; nothing owed; each input window
    at its share of its array (the two windows on one point cloud hold half of it each). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q w := inShare w
  owed _ := 0

theorem A_eq (c : Dev nD) (w : Fin cfg0.W) : (dats m 0 c).A w = V m c (Pipeline.arrRef spec0 w) := by
  dsimp only [dats]
theorem q_eq (c : Dev nD) (w : Fin cfg0.W) : (dats m 0 c).q w = inShare w := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt0 m c t.val t.isLt).1 := by dsimp only [dats]
theorem after_6 (c : Dev nD) (t : Fin cfg0.N) : (dats m 0 c).after 6 t = (outsAt0 m c t.val t.isLt).2.1 := by dsimp only [dats]

end Cert.Kernel.Frame

end
-- ==== Proof.KBits.Obligation.lean ====
/-
  The body obligation of the pipeline at every grid point, for any float instance: handed the region's invariant (the
  accumulators at what the point before left, or at anything before the first point) and every window's staging buffer
  at what the pipeline left in it, the kernel body runs to the invariant at the next point and every buffer at what the
  proof data say it leaves — by the three cases of the point within its batch.
-/
import proofs.«168659_j5179730559712_1_alg».proof.Proof.KBits.Carried

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input's staging buffer holds its block at every point -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The obligation at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' buffers hold their blocks; the point is a batch's first tile, its last, or
    neither, and that case's run applies; the invariant hands over the accumulators at what the point before left and
    takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    · -- a batch's first tile
      rw [show (dats m 0 c).leavesExact 0 t = owns (c : Thread nD τ) (ms0 t) fullShare ((dats m 0 c).after 0 t) from by
        unfold Dat.leavesExact; rw [live_in0 t], after_0]
      rw [show (dats m 0 c).leavesExact 1 t = owns (c : Thread nD τ) (ms1 t) fullShare ((dats m 0 c).after 1 t) from by
        unfold Dat.leavesExact; rw [live_in1 t], after_1]
      rw [show (dats m 0 c).leavesExact 2 t = owns (c : Thread nD τ) (ms2 t) fullShare ((dats m 0 c).after 2 t) from by
        unfold Dat.leavesExact; rw [live_in2 t], after_2]
      rw [show (dats m 0 c).leavesExact 3 t = owns (c : Thread nD τ) (ms3 t) fullShare ((dats m 0 c).after 3 t) from by
        unfold Dat.leavesExact; rw [live_in3 t], after_3]
      rw [show (dats m 0 c).leavesExact 4 t = owns (c : Thread nD τ) (ms4 t) fullShare ((dats m 0 c).after 4 t) from by
        unfold Dat.leavesExact; rw [live_in4 t], after_4]
      rw [Dat.leavesExact_idle (dats m 0 c) 5 t (idle_out5 t (fun h => h1 ((isLast_iff t).mp h))) (noflush_out5 t (fun h => h1 ((isLast_iff t).mp h)))]
      rw [Dat.leavesExact_idle (dats m 0 c) 6 t (idle_out6 t (fun h => h1 ((isLast_iff t).mp h))) (noflush_out6 t (fun h => h1 ((isLast_iff t).mp h)))]
      rw [outsAt0_first m c t h0 h1]
      unfold accFirst0 accFirst1; (try dsimp only)
      by_cases hz : t.val = 0
      · rw [PhiS_castSucc m c t, PhiS_zero m c _ _ hz, PhiA_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((runFirst c (grid0.coords t) _ _ _ _ _ _ _ _ _ _ _ _ _ _ _ _ _ _ ((isFirst_iff t).mpr h0) (fun h => h1 ((isLast_iff t).mp h)) (iblk m c 0 t) (iblk m c 1 t) (iblk m c 2 t) (iblk m c 3 t) (iblk m c 4 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (fun y => coverFirst0 c _ _ _ _ _ _ _ _ _ _ _ _ _ _ _ _ _ _ _ _ _ _ _ _ _ _ y)
            · unfold owns; iexists _; isplitr
              swap; · iexact HS1
              ipureintro; exact View.read_writes_of_cover _ _ _ _ _ (fun y => coverFirst1 c _ _ _ _ _ _ _ _ _ _ _ _ _ _ _ _ _ _ _ _ _ _ _ _ _ _ y)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((runFirst c (grid0.coords t) _ _ _ _ _ _ _ _ _ _ _ _ _ _ _ _ _ _ ((isFirst_iff t).mpr h0) (fun h => h1 ((isLast_iff t).mp h)) (iblk m c 0 t) (iblk m c 1 t) (iblk m c 2 t) (iblk m c 3 t) (iblk m c 4 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (fun y => coverFirst0 c _ _ _ _ _ _ _ _ _ _ _ _ _ _ _ _ _ _ _ _ _ _ _ _ _ _ y)
            · unfold owns; iexists _; isplitr
              swap; · iexact HS1
              ipureintro; exact View.read_writes_of_cover _ _ _ _ _ (fun y => coverFirst1 c _ _ _ _ _ _ _ _ _ _ _ _ _ _ _ _ _ _ _ _ _ _ _ _ _ _ y)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · have hz : t.val ≠ 0 := fun h => h0 (by rw [h])
    by_cases h1 : t.val % 16 = 15
    · -- a batch's last tile
      rw [show (dats m 0 c).leavesExact 0 t = owns (c : Thread nD τ) (ms0 t) fullShare ((dats m 0 c).after 0 t) from by
        unfold Dat.leavesExact; rw [live_in0 t], after_0]
      rw [show (dats m 0 c).leavesExact 1 t = owns (c : Thread nD τ) (ms1 t) fullShare ((dats m 0 c).after 1 t) from by
        unfold Dat.leavesExact; rw [live_in1 t], after_1]
      rw [show (dats m 0 c).leavesExact 2 t = owns (c : Thread nD τ) (ms2 t) fullShare ((dats m 0 c).after 2 t) from by
        unfold Dat.leavesExact; rw [live_in2 t], after_2]
      rw [show (dats m 0 c).leavesExact 3 t = owns (c : Thread nD τ) (ms3 t) fullShare ((dats m 0 c).after 3 t) from by
        unfold Dat.leavesExact; rw [live_in3 t], after_3]
      rw [show (dats m 0 c).leavesExact 4 t = owns (c : Thread nD τ) (ms4 t) fullShare ((dats m 0 c).after 4 t) from by
        unfold Dat.leavesExact; rw [live_in4 t], after_4]
      rw [show (dats m 0 c).leavesExact 5 t = owns (c : Thread nD τ) (ms5 t) fullShare ((dats m 0 c).after 5 t) from by
        unfold Dat.leavesExact; rw [live_out5 t ((isLast_iff t).mpr h1)], after_5]
      rw [show (dats m 0 c).leavesExact 6 t = owns (c : Thread nD τ) (ms6 t) fullShare ((dats m 0 c).after 6 t) from by
        unfold Dat.leavesExact; rw [live_out6 t ((isLast_iff t).mpr h1)], after_6]
      rw [outsAt0_last m c t h0 h1]
      unfold outLast5 outLast6 accLast0 accLast1; (try dsimp only)
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((runLast c (grid0.coords t) _ _ _ _ _ _ _ _ _ _ _ _ _ _ _ _ _ _ (fun h => h0 ((isFirst_iff t).mp h)) ((isLast_iff t).mpr h1) (iblk m c 0 t) (iblk m c 1 t) (iblk m c 2 t) (iblk m c 3 t) (iblk m c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, ⟨%e5, H5⟩, ⟨%e6, H6⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (fun y => coverLastA0 c _ _ _ _ _ _ _ _ _ _ _ _ _ _ _ _ _ _ _ _ _ _ _ _ _ _ _ _ y)
            · unfold owns; iexists _; isplitr
              swap; · iexact HS1
              ipureintro; exact View.read_writes_of_cover _ _ _ _ _ (fun y => coverLastA1 c _ _ _ _ _ _ _ _ _ _ _ _ _ _ _ _ _ _ _ _ _ _ _ _ _ _ _ _ y)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (fun y => coverLast5 c _ _ _ _ _ _ _ _ _ _ _ _ _ _ _ _ _ _ _ _ _ _ _ _ _ _ _ _ y)
        · unfold owns; iexists _; isplitr
          swap; · iexact H6
          ipureintro; exact View.read_writes_of_cover _ _ _ _ _ (fun y => coverLast6 c _ _ _ _ _ _ _ _ _ _ _ _ _ _ _ _ _ _ _ _ _ _ _ _ _ _ _ _ y)
    · -- neither
      rw [show (dats m 0 c).leavesExact 0 t = owns (c : Thread nD τ) (ms0 t) fullShare ((dats m 0 c).after 0 t) from by
        unfold Dat.leavesExact; rw [live_in0 t], after_0]
      rw [show (dats m 0 c).leavesExact 1 t = owns (c : Thread nD τ) (ms1 t) fullShare ((dats m 0 c).after 1 t) from by
        unfold Dat.leavesExact; rw [live_in1 t], after_1]
      rw [show (dats m 0 c).leavesExact 2 t = owns (c : Thread nD τ) (ms2 t) fullShare ((dats m 0 c).after 2 t) from by
        unfold Dat.leavesExact; rw [live_in2 t], after_2]
      rw [show (dats m 0 c).leavesExact 3 t = owns (c : Thread nD τ) (ms3 t) fullShare ((dats m 0 c).after 3 t) from by
        unfold Dat.leavesExact; rw [live_in3 t], after_3]
      rw [show (dats m 0 c).leavesExact 4 t = owns (c : Thread nD τ) (ms4 t) fullShare ((dats m 0 c).after 4 t) from by
        unfold Dat.leavesExact; rw [live_in4 t], after_4]
      rw [Dat.leavesExact_idle (dats m 0 c) 5 t (idle_out5 t (fun h => h1 ((isLast_iff t).mp h))) (noflush_out5 t (fun h => h1 ((isLast_iff t).mp h)))]
      rw [Dat.leavesExact_idle (dats m 0 c) 6 t (idle_out6 t (fun h => h1 ((isLast_iff t).mp h))) (noflush_out6 t (fun h => h1 ((isLast_iff t).mp h)))]
      rw [outsAt0_mid m c t h0 h1]
      unfold accMid0 accMid1; (try dsimp only)
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((runMid c (grid0.coords t) _ _ _ _ _ _ _ _ _ _ _ _ _ _ _ _ _ _ (fun h => h0 ((isFirst_iff t).mp h)) (fun h => h1 ((isLast_iff t).mp h)) (iblk m c 0 t) (iblk m c 1 t) (iblk m c 2 t) (iblk m c 3 t) (iblk m c 4 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (fun y => coverMid0 c _ _ _ _ _ _ _ _ _ _ _ _ _ _ _ _ _ _ _ _ _ _ _ _ _ _ _ _ y)
            · unfold owns; iexists _; isplitr
              swap; · iexact HS1
              ipureintro; exact View.read_writes_of_cover _ _ _ _ _ (fun y => coverMid1 c _ _ _ _ _ _ _ _ _ _ _ _ _ _ _ _ _ _ _ _ _ _ _ _ _ _ _ _ y)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Frame

end
-- ==== Proof.KBits.Launch.lean ====
/-
  The run of @main on one device: one kernel region whose seven windows stand on five arrays, then nine host
  operations. The first argument is read through two windows, each holding half of it, and so is the second; the third
  argument and the two result arrays are held whole. At the region's entry each shared array's full share is cut into
  its two halves, one per window; at the exit the halves, which still hold what the region found (an input array is
  never written), are joined again. The two result arrays leave the region at what the write-backs have made of them,
  every other buffer as the launch left it; the host operations then take, of each result array, the elements
  `[b, 0, 0]` over the eight leading indices `b`, add them up from zero, and divide the first sum by the second.
-/
import proofs.«168659_j5179730559712_1_alg».proof.Proof.KBits.Blocks
import Idealize.ShloMosaic.Lib.Pipeline.RegionsLoop
import Idealize.ShloMosaic.Lib.StableHlo.Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-! ## The buffers at the region's exit and at the return -/

/-- Core `c`'s buffers when the region is left: the two result arrays at what the write-backs have made of them,
    every other buffer as launched. -/
def Wexit (c : Dev nD) : Valuation τ sig (Elt F) :=
  Function.update (Function.update (V0 m c) (Proc.devRef .tc main_v0_0) ((dats 0 c).arrAt 5 cfg0.N))
    (Proc.devRef .tc main_v0_1) ((dats 0 c).arrAt 6 cfg0.N)

theorem Wexit_v0_0 (c : Dev nD) : Wexit m dats c (Proc.devRef .tc main_v0_0) = (dats 0 c).arrAt 5 cfg0.N := by
  unfold Wexit
  rw [Function.update_of_ne (StableHlo.devRef_ne_of_ne (by decide)), Function.update_self]
theorem Wexit_v0_1 (c : Dev nD) : Wexit m dats c (Proc.devRef .tc main_v0_1) = (dats 0 c).arrAt 6 cfg0.N := by
  unfold Wexit
  rw [Function.update_self]
/-- Off the two result arrays the exit contents are the launch's. -/
theorem Wexit_of_ne (c : Dev nD) (b : Ref sig .tc) (h0 : b ≠ main_v0_0) (h1 : b ≠ main_v0_1) :
    Wexit m dats c (Proc.devRef .tc b) = V0 m c (Proc.devRef .tc b) := by
  unfold Wexit
  rw [Function.update_of_ne (StableHlo.devRef_ne_of_ne h1), Function.update_of_ne (StableHlo.devRef_ne_of_ne h0)]

/-- Core `c`'s buffers at the return: the nine host operations run from the exit contents. -/
def Wfin (c : Dev nD) : Valuation τ sig (Elt F) := StableHlo.after hostOps1 (Wexit m dats c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the nine host operations compute of the two result arrays: of each, the elements `[b, 0, 0]` over the eight
    leading indices `b`, added up from zero; the first sum divided by the second. -/
def tailOf (X5 X6 : (⟨S8x1x128, .f32⟩ : BufTy).Contents (Elt F)) : (⟨S_, .f32⟩ : BufTy).Contents (Elt F) :=
  Host.divf
    (Host.reduceAdd (shapeCast S8 (extractStridedSlice S8x1x1 ![0, 0, 0] X5 slices_S8x1x128_S8x1x1_0_0_0) shapeCasts_S8x1x1_S8)
      (constant S_ .f32 0x00000000#32) reducesTo_S8_S_d0 h_S_)
    (Host.reduceAdd (shapeCast S8 (extractStridedSlice S8x1x1 ![0, 0, 0] X6 slices_S8x1x128_S8x1x1_0_0_0) shapeCasts_S8x1x1_S8)
      (constant S_ .f32 0x00000000#32) reducesTo_S8_S_d0 h_S_)

/-! ## The windows' arrays as a chain, each at its share -/

/-- Each window holds its array at the share dealt to it: a result window whole, an input window its own. -/
theorem share_eq (c : Dev nD) (hq : ∀ w, (dats 0 c).q w = inShare w) : ∀ w : Fin cfg0.W, (dats 0 c).share w = inShare w
  | ⟨0, _⟩ => hq _
  | ⟨1, _⟩ => hq _
  | ⟨2, _⟩ => hq _
  | ⟨3, _⟩ => hq _
  | ⟨4, _⟩ => hq _
  | ⟨5, _⟩ => rfl
  | ⟨6, _⟩ => rfl

/-- The windowed arrays at contents `G`, window by window: the two halves of the first array, the two halves of the
    second, and the third array and the two result arrays whole. -/
theorem arrays_chain (c : Dev nD) (hq : ∀ w, (dats 0 c).q w = inShare w)
    (G : (w : Fin cfg0.W) → Buf (Elt F) ((cfg0.win w).arr.view.loc (c : Thread nD τ))) :
    ((dats 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_arg2) ↦{fullShare} G 4)
          ∗ (((c : Thread nD τ).loc main_v0_0) ↦{fullShare} G 5) ∗ (((c : Thread nD τ).loc main_v0_1) ↦{fullShare} G 6)) := by
  unfold Dat.arrays
  rw [bigSep_W0]
  rw [share_eq dats c hq 0, share_eq dats c hq 1, share_eq dats c hq 2, share_eq dats c hq 3,
    share_eq dats c hq 4, share_eq dats c hq 5, share_eq dats c hq 6]
  -- windows 0 and 1 stand on one array, as do 2 and 3: one rewriting serves each pair
  rw [(arr_whole0 0).set_eq_univ, (arr_whole0 2).set_eq_univ, (arr_whole0 4).set_eq_univ, (arr_whole0 5).set_eq_univ,
    (arr_whole0 6).set_eq_univ]
  rfl

/-- The five distinct buffers behind the seven windows, each whole at contents `V'`. -/
theorem arrBufs_chain (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1)
          ∗ (((c : Thread nD τ).loc main_arg2) ↦{fullShare} V' main_arg2)
          ∗ (((c : Thread nD τ).loc main_v0_0) ↦{fullShare} V' main_v0_0) ∗ (((c : Thread nD τ).loc main_v0_1) ↦{fullShare} V' main_v0_1)) := by
  unfold Pipeline.arrBufs
  exact bigSep_eq_bigSepL_of_eq [main_arg0, main_arg1, main_arg2, main_v0_0, main_v0_1] (by decide) (by decide) _

/-- ENTRY: every unscoped buffer at the launch contents is the windows' arrays at their entry contents — the first
    array's full share cut into the halves its two windows hold, the second's likewise — and the unscoped rest. -/
theorem entry_split (c : Dev nD) (hA : ∀ w, (dats 0 c).A w = V m c (Pipeline.arrRef spec0 w))
    (hq : ∀ w, (dats 0 c).q w = inShare w) :
    (StableHlo.held (c : Thread nD τ) (Pipeline.ucRefs τ sig) (V0 m c) : sProp 𝕄)
      ⊢ iprop((dats 0 c).arrays ((dats 0 c).arrAt · 0)
          ∗ Pipeline.unscopedRest (Ix := Unit) (Name := ℕ) (U := UR sig nD τ) (Lvl := ℕ) spec0 c (V m c)) := by
  rw [← Pipeline.unscopedBufs_held c (V0 m c),
    Pipeline.unscopedBufs_split₀ cfgs 0 winFacts₀0.arr_unscoped c (V m c), arrBufs_chain,
    show ((dats 0 c).arrAt · 0) = fun w => V m c (Pipeline.arrRef spec0 w) from funext fun w => hA w,
    arrays_chain dats c hq]
  iintro ⟨⟨H0, H1, H2, H5, H6⟩, Hrest⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitr [Hrest]
  · isplitl [H0l]; · iexact H0l
    isplitl [H0r]; · iexact H0r
    isplitl [H1l]; · iexact H1l
    isplitl [H1r]; · iexact H1r
    isplitl [H2]; · iexact H2
    isplitl [H5]; · iexact H5
    iexact H6
  iexact Hrest

/-- Off the windows' arrays the exit contents are the launch's. -/
theorem unscopedRest_Wexit (c : Dev nD) :
    (Pipeline.unscopedRest (Ix := Unit) (Name := ℕ) (U := UR sig nD τ) (Lvl := ℕ) spec0 c (fun b => Wexit m dats c b) : sProp 𝕄)
      = Pipeline.unscopedRest (Ix := Unit) (Name := ℕ) (U := UR sig nD τ) (Lvl := ℕ) spec0 c (V m c) := by
  unfold Pipeline.unscopedRest
  refine bigSep_congr fun b hb => ?_
  have hb' := (Finset.mem_sdiff.mp hb).2
  beta_reduce
  rw [show (Wexit m dats c (Proc.devRef .tc b)) = V m c b from Wexit_of_ne m dats c b
    (fun e => hb' (Finset.mem_image.mpr ⟨5, Finset.mem_univ _, e.symm⟩))
    (fun e => hb' (Finset.mem_image.mpr ⟨6, Finset.mem_univ _, e.symm⟩))]

/-- EXIT: the windows' arrays at their exit contents and the unscoped rest are every unscoped buffer at the exit
    contents — an input array is never written, so the two halves of the first array hold what the region found and
    join to its full share, the second's likewise. -/
theorem exit_join (c : Dev nD) (hA : ∀ w, (dats 0 c).A w = V m c (Pipeline.arrRef spec0 w))
    (hq : ∀ w, (dats 0 c).q w = inShare w) :
    iprop((dats 0 c).arrays ((dats 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (Wexit m dats c) : sProp 𝕄) := by
  rw [← Pipeline.unscopedBufs_held c (Wexit m dats c),
    Pipeline.unscopedBufs_split₀ cfgs 0 winFacts₀0.arr_unscoped c (fun b => Wexit m dats c b), arrBufs_chain,
    unscopedRest_Wexit, arrays_chain dats c hq]
  rw [show (Wexit m dats c (Proc.devRef .tc main_arg0)) = V m c main_arg0 from Wexit_of_ne m dats c main_arg0 (by decide) (by decide),
    show (Wexit m dats c (Proc.devRef .tc main_arg1)) = V m c main_arg1 from Wexit_of_ne m dats c main_arg1 (by decide) (by decide),
    show (Wexit m dats c (Proc.devRef .tc main_arg2)) = V m c main_arg2 from Wexit_of_ne m dats c main_arg2 (by decide) (by decide),
    Wexit_v0_0, Wexit_v0_1]
  rw [show (dats 0 c).arrAt 0 cfg0.N = V m c main_arg0 from ((dats 0 c).arrAt_in 0 rfl _).trans (hA 0),
    show (dats 0 c).arrAt 1 cfg0.N = V m c main_arg0 from ((dats 0 c).arrAt_in 1 rfl _).trans (hA 1),
    show (dats 0 c).arrAt 2 cfg0.N = V m c main_arg1 from ((dats 0 c).arrAt_in 2 rfl _).trans (hA 2),
    show (dats 0 c).arrAt 3 cfg0.N = V m c main_arg1 from ((dats 0 c).arrAt_in 3 rfl _).trans (hA 3),
    show (dats 0 c).arrAt 4 cfg0.N = V m c main_arg2 from ((dats 0 c).arrAt_in 4 rfl _).trans (hA 4)]
  iintro ⟨⟨H0l, H0r, H1l, H1r, H2, H5, H6⟩, Hrest⟩
  isplitr [Hrest]
  · isplitl [H0l H0r]
    · iapply (pointsTo_share (PosShare.mem_left_op_right fullShare)).2
      isplitl [H0l] <;> iassumption
    isplitl [H1l H1r]
    · iapply (pointsTo_share (PosShare.mem_left_op_right fullShare)).2
      isplitl [H1l] <;> iassumption
    isplitl [H2]; · iexact H2
    isplitl [H5]; · iexact H5
    iexact H6
  iexact Hrest

/-! ## @main as two segments: the region, then the host operations -/

/-- No table is prefetched. -/
abbrev runAdm : (p : Fin 1) → (pcfgs (F := F) p).Adm := fun p => (cfgs p).toPCfg_adm
/-- No core owes another anything: no level is assigned. -/
abbrev runL : GSem nD τ sig → Finset Unit := fun _ => ∅
abbrev runLv : GSem nD τ sig → Unit → ℕ := fun _ _ => 0
/-- What rides beside the buffers through both segments: the generator register at some state, and nothing owed. -/
abbrev runR (c : Dev nD) : sProp 𝕄 := iprop((∃ r, prngReg c r) ∗ ∃ W, owes (c : Thread nD τ) (0 : CellTallies nD τ sig Unit) W)

/-- No host operation allocates a buffer. -/
theorem hostOps1_fresh : (hostOps1 : List (HloOp τ sig (Elt F))).Forall fun op => op.fresh = ∅ := by
  simp only [List.Forall]; repeat' constructor

/-- The nine host operations as a segment: from every unscoped buffer at the exit contents to the same at the
    return contents. -/
abbrev runHost : Pipeline.HostSeg (Name := ℕ) (U := UR sig nD τ) (pcfgs (F := F)) defs₀ Variants.none runL runLv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (Wexit m dats) runR

set_option backward.isDefEq.respectTransparency.types false in
/-- The region as a segment: entered from every unscoped buffer at the launch contents, left at the exit contents. Its
    arrays are cut out of the unscoped buffers at their shares (`entry_split`) and put back (`exit_join`); the generator
    register passes through the invariant; nothing is owed; the kernel has no semaphore of its own. -/
def runReg
    (hA : ∀ c w, (dats 0 c).A w = V m c (Pipeline.arrRef spec0 w))
    (hq : ∀ c w, (dats 0 c).q w = inShare w)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    Pipeline.RegionSeg (pcfgs (F := F)) runAdm dats () defs₀ Variants.none runL runLv 0 where
  win := winFacts₀0
  block_pos := block_pos0
  stage_whole := stage_whole0
  K := PEmpty
  osem k := k.elim
  ho := Pipeline.OwnSemFacts.none _
  hbody c := hbody c
  hwaits := Pipeline.hwaits_of_owed_zero _ _ _ _ runL runLv 0 howed
  pre c := iprop(StableHlo.held (c : Thread nD τ) (Pipeline.ucRefs τ sig) (V0 m c) ∗ (∃ r, prngReg c r)
    ∗ owes (c : Thread nD τ) (0 : CellTallies nD τ sig Unit) ∅)
  post c := iprop(StableHlo.held (c : Thread nD τ) (Pipeline.ucRefs τ sig) (Wexit m dats c) ∗ runR c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    iintro ⟨⟨Hub, Hp, HO⟩, -, -⟩
    ihave H := entry_split m dats c (hA c) (hq c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      iexists ∅; isplitr; · ipureintro; rw [Finset.coe_empty]; exact Set.empty_subset _
      iexact HO
    isplitl [Hp]; · iexact Hp
    iexact Hrest
  hin c := by
    refine BIBase.Entails.trans ?_ (hin c); unfold Pipeline.ΦA
    iintro ⟨Hp, -, Hr⟩
    isplitl [Hr]; · iexact Hr
    iexact Hp
  hout c := by
    rw [Pipeline.ownSems0_none]
    refine (hout c).trans ?_; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply exit_join m dats c (hA c) (hq c); isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
/-- THE RUN: from any memory with zero counters every weakly fair execution of @main on the TensorCore terminates,
    and every final memory holds, at each unscoped buffer, the return contents. -/
theorem run_main
    (hA : ∀ c w, (dats 0 c).A w = V m c (Pipeline.arrRef spec0 w))
    (hq : ∀ c w, (dats 0 c).q w = inShare w)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩
      (fun r => ∀ c : Dev nD, ∀ b ∈ Pipeline.ucRefs τ sig, r.2.mem (((c : Thread nD τ)).1, b) = Wfin m dats c b) :=
  Pipeline.θ_run_regions_kit (pcfgs (F := F)) runAdm dats () cellOf_inj emb₁ defs₀ Variants.none runL runLv m ρ main
    [.region (runReg m dats hA hq howed hbody hin hout), .host (runHost m dats)]
    (fun c Q => by rw [main_segs runAdm dats () Variants.none runL runLv (runHost m dats) (runReg m dats hA hq howed hbody hin hout) rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ (∃ r, prngReg c r)
      ∗ owes (c : Thread nD τ) (0 : CellTallies nD τ sig Unit) ∅))
    (Tₙ := fun c => iprop(StableHlo.held (c : Thread nD τ) (Pipeline.ucRefs τ sig) (Wfin m dats c) ∗ ∃ r, prngReg c r))
    (hch := ⟨fun _ => .rfl, fun _ => .rfl, fun c => by
      show iprop(StableHlo.held (c : Thread nD τ) (Pipeline.ucRefs τ sig) (StableHlo.after hostOps1 (Wexit m dats c)) ∗ runR c)
        ⊢ iprop(iprop(StableHlo.held (c : Thread nD τ) (Pipeline.ucRefs τ sig) (Wfin m dats c) ∗ ∃ r, prngReg c r)
          ∗ ∃ W, owes (c : Thread nD τ) (0 : CellTallies nD τ sig Unit) W)
      unfold Wfin
      iintro ⟨Hh, Hp, HO⟩
      isplitr [HO]
      · isplitl [Hh]; · iexact Hh
        iexact Hp
      iexact HO⟩)
    (hinit := by
      refine Pipeline.initEach runL runLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = Wfin m dats c b)
    (hfin := fun c s' => by
      iintro ⟨⟨Hh, -⟩, HSI⟩
      unfold StableHlo.held
      imodintro
      iapply (pointsTo_read_all (Pipeline.ucRefs τ sig) (fun b => (((c : Thread nD τ)).1, b)) (Wfin m dats c) s')
      isplitl [Hh] <;> iassumption)
    (hQ := fun s h => h)

/-! ## The return contents read: the arguments as launched, the result the quotient -/

/-- No host operation writes a reference off `main_v1` … `main_v7` and the two constants. -/
theorem Wfin_of_not_written (c : Dev nD) (b : Ref sig .tc)
    (h : b ∉ [main_v1, main_v2, main_cst, main_v3, main_v4, main_v5, main_cst_0, main_v6, main_v7]) :
    Wfin m dats c (Proc.devRef .tc b) = Wexit m dats c (Proc.devRef .tc b) := by
  unfold Wfin
  refine StableHlo.after_of_writes_sub (W := [main_v1, main_v2, main_cst, main_v3, main_v4, main_v5, main_cst_0, main_v6, main_v7])
    _ _ ?_ h
  simp only [hostOps1, List.Forall, StableHlo.nullary_writes, StableHlo.unary_writes, StableHlo.binary_writes, StableHlo.reshape_writes]
  repeat' apply And.intro
  all_goals decide

theorem Wfin_arg0 (c : Dev nD) : Wfin m dats c (Proc.devRef .tc main_arg0) = m ((c : Thread nD τ).loc main_arg0) :=
  (Wfin_of_not_written m dats c main_arg0 (by decide)).trans (Wexit_of_ne m dats c main_arg0 (by decide) (by decide))
theorem Wfin_arg1 (c : Dev nD) : Wfin m dats c (Proc.devRef .tc main_arg1) = m ((c : Thread nD τ).loc main_arg1) :=
  (Wfin_of_not_written m dats c main_arg1 (by decide)).trans (Wexit_of_ne m dats c main_arg1 (by decide) (by decide))
theorem Wfin_arg2 (c : Dev nD) : Wfin m dats c (Proc.devRef .tc main_arg2) = m ((c : Thread nD τ).loc main_arg2) :=
  (Wfin_of_not_written m dats c main_arg2 (by decide)).trans (Wexit_of_ne m dats c main_arg2 (by decide) (by decide))

open StableHlo in
theorem Wfin_v7 (c : Dev nD) :
    Wfin m dats c (Proc.devRef .tc main_v7) = tailOf ((dats 0 c).arrAt 5 cfg0.N) ((dats 0 c).arrAt 6 cfg0.N) := by
  unfold Wfin hostOps1
  after_results
  rw [Wexit_v0_0, Wexit_v0_1]
  rfl

end Cert.Kernel.Frame

end
-- ==== Proof.KBits.Run.lean ====
/-
  The kernel program's run, for any float instance: from any memory with every semaphore at zero, every weakly fair
  execution of the whole program — the kernel region at its 128 grid points, then the nine host operations —
  terminates without a fault, and every unscoped buffer ends at what the host operations leave from the region's exit;
  in particular the three argument arrays end as they were launched.
-/
import proofs.«168659_j5179730559712_1_alg».proof.Proof.KBits.Obligation
import proofs.«168659_j5179730559712_1_alg».proof.Proof.KBits.Launch

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, with every unscoped buffer's final contents named. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Wfin m (dats m) c b) :=
  run_main m ρ (dats m) (A_eq m) (q_eq m) (fun _ _ => rfl) (fun c => (body_obligation m c).loose) (hin m) (hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (Wfin_arg0 m (dats m) c),
     (h c _ (mem_uc main_arg1 (by decide))).trans (Wfin_arg1 m (dats m) c),
     (h c _ (mem_uc main_arg2 (by decide))).trans (Wfin_arg2 m (dats m) c)⟩) (run_all m ρ)

/-- The result buffer ends at the host tail of the two result arrays the region leaves. -/
theorem run_result : θ_run defs (onTc (τ := τ) (main (F := F))) ⟨m, fun _ => 0, ρ⟩ (fun r => ∀ c : Dev nD,
      r.2.mem ((c.tc : Thread nD τ).loc main_v7) = tailOf ((dats m 0 c).arrAt 5 cfg0.N) ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v7 (by decide))).trans (Wfin_v7 m (dats m) c),
     (h c _ (mem_uc main_arg0 (by decide))).trans (Wfin_arg0 m (dats m) c),
     (h c _ (mem_uc main_arg1 (by decide))).trans (Wfin_arg1 m (dats m) c),
     (h c _ (mem_uc main_arg2 (by decide))).trans (Wfin_arg2 m (dats m) c)⟩) (run_all m ρ)

end Cert.Kernel.Frame

end
-- ==== Proof.KIdeal.Blocks.lean ====
/-
  The kernel region's setting, for any float instance. The grid has 128 points: point `t` is batch `t / 16`, row
  tile `(t / 4) % 4`, column tile `t % 4`. Two branches of the body depend on the point alone: the accumulators are
  cleared at a batch's first tile (`t % 16 = 0`) and written out at its last (`t % 16 = 15`); between those the two
  result windows are left untouched. Every input window holds, at every point, the block of its array that the
  point's index map names, whether or not the pipeline fetched it at that very point.
-/
import proofs.«168659_j5179730559712_1_alg».proof.Proof.Gen.KernelIdeal.Launch
import proofs.«168659_j5179730559712_1_alg».proof.Proof.Gen.KernelIdeal.Skeleton
import proofs.«168659_j5179730559712_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: the launch memory (no host operation runs before the region). -/
abbrev V0 (c : Dev nD) : Valuation τ sig (Elt F) := fun b => m (c, b)
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where the pipeline
    does not fetch, the window's index has not moved since the last fetch and the body left the block in place. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t) (t : Fin cfg0.N) (d) :
    dat.before w t d = dat.fetched w t d :=
  dat.before_in_eq_fetched w hw hlive hclip (fun t => by rw [hafter]; unfold Dat.blockOf iblk; rw [hA]) t d

/-- The share of its array each window holds. The two windows on the first point cloud each hold half of it, likewise
    the two on the second; every other window holds its array whole. -/
def inShare : Fin cfg0.W → PosShare TreeShare
  | ⟨0, _⟩ => fullShare.left
  | ⟨1, _⟩ => fullShare.right
  | ⟨2, _⟩ => fullShare.left
  | ⟨3, _⟩ => fullShare.right
  | ⟨4, _⟩ => fullShare
  | ⟨5, _⟩ => fullShare
  | ⟨6, _⟩ => fullShare

/-! ## The body's two conditions on the grid point -/

/-- The point is a batch's first tile: row tile 0 and column tile 0. -/
abbrev isFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- Decided over the grid: the points divisible by 16. -/
theorem isFirst_iff : ∀ t : Fin cfg0.N, isFirst (grid0.coords t) ↔ t.val % 16 = 0 :=
  (by decide +kernel : ∀ t : Fin grid0.N, isFirst (grid0.coords t) ↔ t.val % 16 = 0)

/-- The point is a batch's last tile: row tile 3 and column tile 3. -/
abbrev isLast (i : grid0.Coords) : Prop := k0_cond2 i = 1#1
/-- Decided over the grid: the points that are 15 modulo 16. -/
theorem isLast_iff : ∀ t : Fin cfg0.N, isLast (grid0.coords t) ↔ t.val % 16 = 15 :=
  (by decide +kernel : ∀ t : Fin grid0.N, isLast (grid0.coords t) ↔ t.val % 16 = 15)

/-! ## Where the windows are idle, and where the results are written back -/

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
theorem live_in3 : ∀ t : Fin cfg0.N, cfg0.idle 3 (grid0.coords t) = false := by decide +kernel
theorem live_in4 : ∀ t : Fin cfg0.N, cfg0.idle 4 (grid0.coords t) = false := by decide +kernel
/-- Away from a batch's last tile the result windows are idle and not written back. -/
theorem idle_out5 : ∀ t : Fin cfg0.N, ¬isLast (grid0.coords t) → cfg0.idle 5 (grid0.coords t) = true := by decide +kernel
theorem idle_out6 : ∀ t : Fin cfg0.N, ¬isLast (grid0.coords t) → cfg0.idle 6 (grid0.coords t) = true := by decide +kernel
theorem noflush_out5 : ∀ t : Fin cfg0.N, ¬isLast (grid0.coords t) → (cfg0.win 5).flush t = false := by decide +kernel
theorem noflush_out6 : ∀ t : Fin cfg0.N, ¬isLast (grid0.coords t) → (cfg0.win 6).flush t = false := by decide +kernel
/-- At a batch's last tile they are live. -/
theorem live_out5 : ∀ t : Fin cfg0.N, isLast (grid0.coords t) → cfg0.idle 5 (grid0.coords t) = false := by decide +kernel
theorem live_out6 : ∀ t : Fin cfg0.N, isLast (grid0.coords t) → cfg0.idle 6 (grid0.coords t) = false := by decide +kernel

/-! ## The memrefs the body is called with -/

abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x3 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x3 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x128 .f32 := win0_6.stage (cfg0.slots t 6)
abbrev hs6 (t : Fin cfg0.N) : (ms6 t).IsWhole := hstage0_6 ((cfg0.slots t 6).cast nbuf0_6)
/-- The two accumulators: whole scoped buffers of the kernel's own. -/
abbrev acc0 : Memref sig .tc .vmem S1x128 .f32 := Memref.whole cc0_scratch0
abbrev acc1 : Memref sig .tc .vmem S1x128 .f32 := Memref.whole cc0_scratch1
/-- One staging buffer of each result window, through which its contents are stated (any would do). -/
abbrev VO5 : View sig .tc .vmem S1x1x128 .f32 := (Memref.whole cc0_stg5_0 : Memref sig .tc .vmem S1x1x128 .f32).view
abbrev VO6 : View sig .tc .vmem S1x1x128 .f32 := (Memref.whole cc0_stg6_0 : Memref sig .tc .vmem S1x1x128 .f32).view
abbrev VA0 : View sig .tc .vmem S1x128 .f32 := (acc0 : Memref sig .tc .vmem S1x128 .f32).view
abbrev VA1 : View sig .tc .vmem S1x128 .f32 := (acc1 : Memref sig .tc .vmem S1x128 .f32).view

/-- The region's plain invariant (the scoped buffers no window stages, each at some contents, and the generator
    register at some state) with the two accumulators as memrefs owned at some contents. -/
theorem PhiA_eq (c : Dev nD) :
    (Pipeline.ΦA spec0 c : sProp 𝕄)
      = iprop(iprop((∃ d, owns (c : Thread nD τ) acc0 fullShare d) ∗ (∃ d, owns (c : Thread nD τ) acc1 fullShare d)) ∗ (∃ r, prngReg c r)) := by
  unfold Pipeline.ΦA; rw [scopedRest0_eq]; simp only [acc0, acc1, owns_whole]; try rfl

end Cert.KernelIdeal.Frame

end
-- ==== Proof.KIdeal.BodyMid.lean ====
/-
  The kernel body at a tile that is neither the first nor the last of its batch: nothing is cleared and nothing is
  written out. The body reads the five input blocks and the two accumulators, and stores into each accumulator its
  old contents plus the tile's partial sum; the result windows are handed back as they were found.
-/
import proofs.«168659_j5179730559712_1_alg».proof.Proof.KIdeal.Blocks

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulators at a middle tile, with the proof that from the inputs'
    staging buffers at `x0 … x4`, the result windows' at `xi5`, `xi6` and the accumulators at `s0`, `s1` the body runs
    to a state holding the inputs and the result windows as they were and each accumulator with its pieces written. -/
noncomputable def runMid (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : ¬isLast i)
    (x0 x1 x2 x3 : Vec F S1x512x3 .f32) (x4 : Vec F S1x512x512 .f32) (s0 s1 : Vec F S1x128 .f32) :
    Σ' (LA0 : List (View.Piece (Elt F) S1x128 .f32)), { LA1 : List (View.Piece (Elt F) S1x128 .f32) //
      ∀ (xi5 xi6 : Vec F S1x1x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi5 ∗ owns (c : Thread nD τ) arg9 fullShare xi6
            ∗ owns (c : Thread nD τ) arg10 fullShare s0 ∗ owns (c : Thread nD τ) arg11 fullShare s1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5 ∗ owns (c : Thread nD τ) arg9 fullShare xi6
                ∗ (∃ f, arg10.view.loc (c : Thread nD τ) ↦[arg10.view.set]{fullShare} arg10.view.writes (Elt F) f LA0)
                ∗ (∃ f, arg11.view.loc (c : Thread nD τ) ↦[arg11.view.set]{fullShare} arg11.view.writes (Elt F) f LA1)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, fun xi5 xi6 E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5; obtain rfl := harg9.eq_unread hf6; obtain rfl := harg10.eq_unread hfs0; obtain rfl := harg11.eq_unread hfs1
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.KernelIdeal.Frame

end
-- ==== Proof.KIdeal.BodyFirst.lean ====
/-
  The kernel body at the first tile of a batch: both accumulators are cleared before anything is added, so what they
  held on entry does not matter; the tile's partial sums are then added to the cleared accumulators. Nothing is written
  out, and the result windows are handed back as they were found.
-/
import proofs.«168659_j5179730559712_1_alg».proof.Proof.KIdeal.BodyMid

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulators at a batch's first tile (the clearing store, then the
    accumulating store), with the proof that from the inputs' staging buffers at `x0 … x4`, the result windows' at
    `xi5`, `xi6` and the accumulators at anything the body runs to a state holding the inputs and the result windows
    as they were and each accumulator with its pieces written. -/
noncomputable def runFirst (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : isFirst i) (hl : ¬isLast i)
    (x0 x1 x2 x3 : Vec F S1x512x3 .f32) (x4 : Vec F S1x512x512 .f32) :
    Σ' (LA0 : List (View.Piece (Elt F) S1x128 .f32)), { LA1 : List (View.Piece (Elt F) S1x128 .f32) //
      ∀ (xi5 xi6 : Vec F S1x1x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi5 ∗ owns (c : Thread nD τ) arg9 fullShare xi6
            ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5 ∗ owns (c : Thread nD τ) arg9 fullShare xi6
                ∗ (∃ f, arg10.view.loc (c : Thread nD τ) ↦[arg10.view.set]{fullShare} arg10.view.writes (Elt F) f LA0)
                ∗ (∃ f, arg11.view.loc (c : Thread nD τ) ↦[arg11.view.set]{fullShare} arg11.view.writes (Elt F) f LA1)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, fun xi5 xi6 E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5; obtain rfl := harg9.eq_unread hf6
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.KernelIdeal.Frame

end
-- ==== Proof.KIdeal.BodyLast.lean ====
/-
  The kernel body at the last tile of a batch: the tile's partial sums are added to the accumulators as at any later
  tile, and then each accumulator's contents are stored into its result window, whose previous contents do not
  matter.
-/
import proofs.«168659_j5179730559712_1_alg».proof.Proof.KIdeal.BodyFirst

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two result windows and the two accumulators at a batch's last tile,
    with the proof that from the inputs' staging buffers at `x0 … x4`, the result windows' at anything and the
    accumulators at `s0`, `s1` the body runs to a state holding the inputs as they were and each result window and
    each accumulator with its pieces written. -/
noncomputable def runLast (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i)
    (x0 x1 x2 x3 : Vec F S1x512x3 .f32) (x4 : Vec F S1x512x512 .f32) (s0 s1 : Vec F S1x128 .f32) :
    Σ' (L5 L6 : List (View.Piece (Elt F) S1x1x128 .f32)) (LA0 : List (View.Piece (Elt F) S1x128 .f32)), { LA1 : List (View.Piece (Elt F) S1x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ (∃ d, owns (c : Thread nD τ) arg8 fullShare d) ∗ (∃ d, owns (c : Thread nD τ) arg9 fullShare d)
            ∗ owns (c : Thread nD τ) arg10 fullShare s0 ∗ owns (c : Thread nD τ) arg11 fullShare s1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f LA0)
                ∗ (∃ f, arg11.view.loc (c : Thread nD τ) ↦[arg11.view.set]{fullShare} arg11.view.writes (Elt F) f LA1)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg10.eq_unread hfs0; obtain rfl := harg11.eq_unread hfs1
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [HS0]; · iexists _; iexact HS0
    iexists _; iexact HS1

end Cert.KernelIdeal.Frame

end
-- ==== Proof.KIdeal.Carried.lean ====
/-
  What the kernel keeps from one grid point to the next, for any float instance. The two accumulators are scratch
  buffers of the kernel's own: cleared at a batch's first tile, added to at every tile, copied into the result windows
  at the batch's last tile. After point `t` each accumulator holds what the point's case of the body leaves in it,
  given what the point before left (`outsAt0`, by recursion on the point); the region's invariant between points is the
  two accumulators at those contents.
-/
import proofs.«168659_j5179730559712_1_alg».proof.Proof.KIdeal.BodyLast

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: its pieces read back -/

/-- A result window's contents where nothing names them (the window idle and not written back). -/
def unnamed5 : Vec F S1x1x128 .f32 := VO5.read (Elt F) VO5.junk
def unnamed6 : Vec F S1x1x128 .f32 := VO6.read (Elt F) VO6.junk

/-- First tile: the accumulators' pieces tile them. -/
theorem coverFirst0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : isFirst i) (hl : ¬isLast i) (x0 x1 x2 x3 : Vec F S1x512x3 .f32) (x4 : Vec F S1x512x512 .f32) (y : S1x128.Idx) :
    ∃ pc ∈ (runFirst c i arg3 harg3 arg4 harg4 arg5 harg5 arg6 harg6 arg7 harg7 arg8 harg8 arg9 harg9 arg10 harg10 arg11 harg11 hf hl x0 x1 x2 x3 x4).1, y ∈ pc.1.set :=
  View.cover_of_tiledL (runFirst c i arg3 harg3 arg4 harg4 arg5 harg5 arg6 harg6 arg7 harg7 arg8 harg8 arg9 harg9 arg10 harg10 arg11 harg11 hf hl x0 x1 x2 x3 x4).1 S1x128.size (by sl_kernel_rfl) y
theorem coverFirst1 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : isFirst i) (hl : ¬isLast i) (x0 x1 x2 x3 : Vec F S1x512x3 .f32) (x4 : Vec F S1x512x512 .f32) (y : S1x128.Idx) :
    ∃ pc ∈ (runFirst c i arg3 harg3 arg4 harg4 arg5 harg5 arg6 harg6 arg7 harg7 arg8 harg8 arg9 harg9 arg10 harg10 arg11 harg11 hf hl x0 x1 x2 x3 x4).2.1, y ∈ pc.1.set :=
  View.cover_of_tiledL (runFirst c i arg3 harg3 arg4 harg4 arg5 harg5 arg6 harg6 arg7 harg7 arg8 harg8 arg9 harg9 arg10 harg10 arg11 harg11 hf hl x0 x1 x2 x3 x4).2.1 S1x128.size (by sl_kernel_rfl) y
/-- What the first tile leaves in each accumulator. -/
def accFirst0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : isFirst i) (hl : ¬isLast i) (x0 x1 x2 x3 : Vec F S1x512x3 .f32) (x4 : Vec F S1x512x512 .f32) : Vec F S1x128 .f32 :=
  VA0.read (Elt F) (VA0.writes (Elt F) VA0.junk (runFirst c i arg3 harg3 arg4 harg4 arg5 harg5 arg6 harg6 arg7 harg7 arg8 harg8 arg9 harg9 arg10 harg10 arg11 harg11 hf hl x0 x1 x2 x3 x4).1)
def accFirst1 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : isFirst i) (hl : ¬isLast i) (x0 x1 x2 x3 : Vec F S1x512x3 .f32) (x4 : Vec F S1x512x512 .f32) : Vec F S1x128 .f32 :=
  VA1.read (Elt F) (VA1.writes (Elt F) VA1.junk (runFirst c i arg3 harg3 arg4 harg4 arg5 harg5 arg6 harg6 arg7 harg7 arg8 harg8 arg9 harg9 arg10 harg10 arg11 harg11 hf hl x0 x1 x2 x3 x4).2.1)

/-- Middle tile. -/
theorem coverMid0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : ¬isLast i) (x0 x1 x2 x3 : Vec F S1x512x3 .f32) (x4 : Vec F S1x512x512 .f32) (s0 s1 : Vec F S1x128 .f32) (y : S1x128.Idx) :
    ∃ pc ∈ (runMid c i arg3 harg3 arg4 harg4 arg5 harg5 arg6 harg6 arg7 harg7 arg8 harg8 arg9 harg9 arg10 harg10 arg11 harg11 hf hl x0 x1 x2 x3 x4 s0 s1).1, y ∈ pc.1.set :=
  View.cover_of_tiledL (runMid c i arg3 harg3 arg4 harg4 arg5 harg5 arg6 harg6 arg7 harg7 arg8 harg8 arg9 harg9 arg10 harg10 arg11 harg11 hf hl x0 x1 x2 x3 x4 s0 s1).1 S1x128.size (by sl_kernel_rfl) y
theorem coverMid1 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : ¬isLast i) (x0 x1 x2 x3 : Vec F S1x512x3 .f32) (x4 : Vec F S1x512x512 .f32) (s0 s1 : Vec F S1x128 .f32) (y : S1x128.Idx) :
    ∃ pc ∈ (runMid c i arg3 harg3 arg4 harg4 arg5 harg5 arg6 harg6 arg7 harg7 arg8 harg8 arg9 harg9 arg10 harg10 arg11 harg11 hf hl x0 x1 x2 x3 x4 s0 s1).2.1, y ∈ pc.1.set :=
  View.cover_of_tiledL (runMid c i arg3 harg3 arg4 harg4 arg5 harg5 arg6 harg6 arg7 harg7 arg8 harg8 arg9 harg9 arg10 harg10 arg11 harg11 hf hl x0 x1 x2 x3 x4 s0 s1).2.1 S1x128.size (by sl_kernel_rfl) y
def accMid0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : ¬isLast i) (x0 x1 x2 x3 : Vec F S1x512x3 .f32) (x4 : Vec F S1x512x512 .f32) (s0 s1 : Vec F S1x128 .f32) : Vec F S1x128 .f32 :=
  VA0.read (Elt F) (VA0.writes (Elt F) VA0.junk (runMid c i arg3 harg3 arg4 harg4 arg5 harg5 arg6 harg6 arg7 harg7 arg8 harg8 arg9 harg9 arg10 harg10 arg11 harg11 hf hl x0 x1 x2 x3 x4 s0 s1).1)
def accMid1 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : ¬isLast i) (x0 x1 x2 x3 : Vec F S1x512x3 .f32) (x4 : Vec F S1x512x512 .f32) (s0 s1 : Vec F S1x128 .f32) : Vec F S1x128 .f32 :=
  VA1.read (Elt F) (VA1.writes (Elt F) VA1.junk (runMid c i arg3 harg3 arg4 harg4 arg5 harg5 arg6 harg6 arg7 harg7 arg8 harg8 arg9 harg9 arg10 harg10 arg11 harg11 hf hl x0 x1 x2 x3 x4 s0 s1).2.1)

/-- Last tile: the result windows' pieces tile them too. -/
theorem coverLast5 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) (y : S1x1x128.Idx) :
    ∃ pc ∈ (runLast c i arg3 harg3 arg4 harg4 arg5 harg5 arg6 harg6 arg7 harg7 arg8 harg8 arg9 harg9 arg10 harg10 arg11 harg11 hf hl x0 x1 x2 x3 x4 s0 s1).1, y ∈ pc.1.set :=
  View.cover_of_tiledL (runLast c i arg3 harg3 arg4 harg4 arg5 harg5 arg6 harg6 arg7 harg7 arg8 harg8 arg9 harg9 arg10 harg10 arg11 harg11 hf hl x0 x1 x2 x3 x4 s0 s1).1 S1x1x128.size (by sl_kernel_rfl) y
theorem coverLast6 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) (y : S1x1x128.Idx) :
    ∃ pc ∈ (runLast c i arg3 harg3 arg4 harg4 arg5 harg5 arg6 harg6 arg7 harg7 arg8 harg8 arg9 harg9 arg10 harg10 arg11 harg11 hf hl x0 x1 x2 x3 x4 s0 s1).2.1, y ∈ pc.1.set :=
  View.cover_of_tiledL (runLast c i arg3 harg3 arg4 harg4 arg5 harg5 arg6 harg6 arg7 harg7 arg8 harg8 arg9 harg9 arg10 harg10 arg11 harg11 hf hl x0 x1 x2 x3 x4 s0 s1).2.1 S1x1x128.size (by sl_kernel_rfl) y
theorem coverLastA0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) (y : S1x128.Idx) :
    ∃ pc ∈ (runLast c i arg3 harg3 arg4 harg4 arg5 harg5 arg6 harg6 arg7 harg7 arg8 harg8 arg9 harg9 arg10 harg10 arg11 harg11 hf hl x0 x1 x2 x3 x4 s0 s1).2.2.1, y ∈ pc.1.set :=
  View.cover_of_tiledL (runLast c i arg3 harg3 arg4 harg4 arg5 harg5 arg6 harg6 arg7 harg7 arg8 harg8 arg9 harg9 arg10 harg10 arg11 harg11 hf hl x0 x1 x2 x3 x4 s0 s1).2.2.1 S1x128.size (by sl_kernel_rfl) y
theorem coverLastA1 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) (y : S1x128.Idx) :
    ∃ pc ∈ (runLast c i arg3 harg3 arg4 harg4 arg5 harg5 arg6 harg6 arg7 harg7 arg8 harg8 arg9 harg9 arg10 harg10 arg11 harg11 hf hl x0 x1 x2 x3 x4 s0 s1).2.2.2.1, y ∈ pc.1.set :=
  View.cover_of_tiledL (runLast c i arg3 harg3 arg4 harg4 arg5 harg5 arg6 harg6 arg7 harg7 arg8 harg8 arg9 harg9 arg10 harg10 arg11 harg11 hf hl x0 x1 x2 x3 x4 s0 s1).2.2.2.1 S1x128.size (by sl_kernel_rfl) y
def outLast5 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) : Vec F S1x1x128 .f32 :=
  VO5.read (Elt F) (VO5.writes (Elt F) VO5.junk (runLast c i arg3 harg3 arg4 harg4 arg5 harg5 arg6 harg6 arg7 harg7 arg8 harg8 arg9 harg9 arg10 harg10 arg11 harg11 hf hl x0 x1 x2 x3 x4 s0 s1).1)
def outLast6 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) : Vec F S1x1x128 .f32 :=
  VO6.read (Elt F) (VO6.writes (Elt F) VO6.junk (runLast c i arg3 harg3 arg4 harg4 arg5 harg5 arg6 harg6 arg7 harg7 arg8 harg8 arg9 harg9 arg10 harg10 arg11 harg11 hf hl x0 x1 x2 x3 x4 s0 s1).2.1)
def accLast0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) : Vec F S1x128 .f32 :=
  VA0.read (Elt F) (VA0.writes (Elt F) VA0.junk (runLast c i arg3 harg3 arg4 harg4 arg5 harg5 arg6 harg6 arg7 harg7 arg8 harg8 arg9 harg9 arg10 harg10 arg11 harg11 hf hl x0 x1 x2 x3 x4 s0 s1).2.2.1)
def accLast1 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) : Vec F S1x128 .f32 :=
  VA1.read (Elt F) (VA1.writes (Elt F) VA1.junk (runLast c i arg3 harg3 arg4 harg4 arg5 harg5 arg6 harg6 arg7 harg7 arg8 harg8 arg9 harg9 arg10 harg10 arg11 harg11 hf hl x0 x1 x2 x3 x4 s0 s1).2.2.2.1)

/-! ## Point by point -/

/-- The contents kept after a point: the two result windows' staging buffers, then the two accumulators. -/
abbrev Kept (F : FTy → Type) [FloatOps F] : Type := Vec F S1x1x128 .f32 × Vec F S1x1x128 .f32 × Vec F S1x128 .f32 × Vec F S1x128 .f32

/-- What is kept after the body at position `n`: the case the position selects (first tile of a batch, last tile, or
    neither), run at the point's input blocks and, but at a first tile, at the accumulators the point before left.
    A position cannot be both a first and a last tile. -/
def outsAt0 (c : Dev nD) : (n : ℕ) → n < cfg0.N → Kept F
  | 0, hn => (unnamed5, unnamed6,
      accFirst0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) acc0 (Memref.isWhole_whole _) acc1 (Memref.isWhole_whole _) ((isFirst_iff ⟨0, hn⟩).mpr (Nat.zero_mod _)) (fun h => (fun h' => by (try dsimp only at h'); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩),
      accFirst1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) acc0 (Memref.isWhole_whole _) acc1 (Memref.isWhole_whole _) ((isFirst_iff ⟨0, hn⟩).mpr (Nat.zero_mod _)) (fun h => (fun h' => by (try dsimp only at h'); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 16 = 0 then
      if h1 : (n + 1) % 16 = 15 then False.elim (by omega)
      else (unnamed5, unnamed6,
        accFirst0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩),
        accFirst1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 16 = 15 then
        (outLast5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2,
         outLast6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2,
         accLast0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2,
         accLast1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
      else
        (unnamed5, unnamed6,
         accMid0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2,
         accMid1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc0 (Memref.isWhole_whole _) acc1 (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)

/-- The point before `t`, as a position. -/
abbrev prevLt (t : Fin cfg0.N) : t.val - 1 < cfg0.N := Nat.lt_of_le_of_lt (Nat.sub_le _ _) t.isLt

/-- `outsAt0` at a batch's first tile. -/
theorem outsAt0_first (c : Dev nD) (t : Fin cfg0.N) (h0 : t.val % 16 = 0) (h1 : ¬t.val % 16 = 15) :
    outsAt0 m c t.val t.isLt = (unnamed5, unnamed6,
      accFirst0 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) ((isFirst_iff t).mpr h0) (fun h => h1 ((isLast_iff t).mp h)) (iblk m c 0 t) (iblk m c 1 t) (iblk m c 2 t) (iblk m c 3 t) (iblk m c 4 t),
      accFirst1 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) ((isFirst_iff t).mpr h0) (fun h => h1 ((isLast_iff t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a tile that is neither first nor last: over what the point before left. -/
theorem outsAt0_mid (c : Dev nD) (t : Fin cfg0.N) (h0 : ¬t.val % 16 = 0) (h1 : ¬t.val % 16 = 15) :
    outsAt0 m c t.val t.isLt = (unnamed5, unnamed6,
      accMid0 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) (fun h => h0 ((isFirst_iff t).mp h)) (fun h => h1 ((isLast_iff t).mp h)) (iblk m c 0 t) (iblk m c 1 t) (iblk m c 2 t) (iblk m c 3 t) (iblk m c 4 t) (outsAt0 m c (t.val - 1) (prevLt t)).2.2.1 (outsAt0 m c (t.val - 1) (prevLt t)).2.2.2,
      accMid1 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) (fun h => h0 ((isFirst_iff t).mp h)) (fun h => h1 ((isLast_iff t).mp h)) (iblk m c 0 t) (iblk m c 1 t) (iblk m c 2 t) (iblk m c 3 t) (iblk m c 4 t) (outsAt0 m c (t.val - 1) (prevLt t)).2.2.1 (outsAt0 m c (t.val - 1) (prevLt t)).2.2.2) := by
  obtain ⟨n, hn⟩ := t
  cases n with
  | zero => exact absurd (Nat.zero_mod _) h0
  | succ n => exact (dif_neg h0).trans ((dif_neg h1).trans rfl)

/-- `outsAt0` at a batch's last tile: over what the point before left. -/
theorem outsAt0_last (c : Dev nD) (t : Fin cfg0.N) (h0 : ¬t.val % 16 = 0) (h1 : t.val % 16 = 15) :
    outsAt0 m c t.val t.isLt =
      (outLast5 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) (fun h => h0 ((isFirst_iff t).mp h)) ((isLast_iff t).mpr h1) (iblk m c 0 t) (iblk m c 1 t) (iblk m c 2 t) (iblk m c 3 t) (iblk m c 4 t) (outsAt0 m c (t.val - 1) (prevLt t)).2.2.1 (outsAt0 m c (t.val - 1) (prevLt t)).2.2.2,
       outLast6 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) (fun h => h0 ((isFirst_iff t).mp h)) ((isLast_iff t).mpr h1) (iblk m c 0 t) (iblk m c 1 t) (iblk m c 2 t) (iblk m c 3 t) (iblk m c 4 t) (outsAt0 m c (t.val - 1) (prevLt t)).2.2.1 (outsAt0 m c (t.val - 1) (prevLt t)).2.2.2,
       accLast0 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) (fun h => h0 ((isFirst_iff t).mp h)) ((isLast_iff t).mpr h1) (iblk m c 0 t) (iblk m c 1 t) (iblk m c 2 t) (iblk m c 3 t) (iblk m c 4 t) (outsAt0 m c (t.val - 1) (prevLt t)).2.2.1 (outsAt0 m c (t.val - 1) (prevLt t)).2.2.2,
       accLast1 c (grid0.coords t) (ms0 t) (hs0 t) (ms1 t) (hs1 t) (ms2 t) (hs2 t) (ms3 t) (hs3 t) (ms4 t) (hs4 t) (ms5 t) (hs5 t) (ms6 t) (hs6 t) acc0 (Memref.isWhole_whole _) acc1 (Memref.isWhole_whole _) (fun h => h0 ((isFirst_iff t).mp h)) ((isLast_iff t).mpr h1) (iblk m c 0 t) (iblk m c 1 t) (iblk m c 2 t) (iblk m c 3 t) (iblk m c 4 t) (outsAt0 m c (t.val - 1) (prevLt t)).2.2.1 (outsAt0 m c (t.val - 1) (prevLt t)).2.2.2) := by
  obtain ⟨n, hn⟩ := t
  cases n with
  | zero => exact absurd (Nat.zero_mod _) h0
  | succ n => exact (dif_neg h0).trans ((dif_pos h1).trans rfl)

/-! ## The invariant between points -/

/-- Before the first point the region's plain invariant (the accumulators at anything); afterwards the two
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) acc0 fullShare ((outsAt0 m c n hn).2.2.1) ∗ owns (c : Thread nD τ) acc1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) acc0 fullShare ((outsAt0 m c n hn).2.2.1) ∗ owns (c : Thread nD τ) acc1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) acc0 fullShare ((outsAt0 m c (n - 1) (by omega)).2.2.1) ∗ owns (c : Thread nD τ) acc1 fullShare ((outsAt0 m c (n - 1) (by omega)).2.2.2)) ∗ (∃ r, prngReg c r)) := by
  cases n with
  | zero => exact absurd rfl hz
  | succ n => rfl

/-! ## The pipeline's proof data -/

/-- The proof data on core `c`: the arrays as the region finds them; after the body at point `t` each input's buffer at
    its block and each result window's at `outsAt0`'s component; the invariant `PhiS`; nothing owed; each input window
    at its share of its array (the two windows on one point cloud hold half of it each). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q w := inShare w
  owed _ := 0

theorem A_eq (c : Dev nD) (w : Fin cfg0.W) : (dats m 0 c).A w = V m c (Pipeline.arrRef spec0 w) := by
  dsimp only [dats]
theorem q_eq (c : Dev nD) (w : Fin cfg0.W) : (dats m 0 c).q w = inShare w := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt0 m c t.val t.isLt).1 := by dsimp only [dats]
theorem after_6 (c : Dev nD) (t : Fin cfg0.N) : (dats m 0 c).after 6 t = (outsAt0 m c t.val t.isLt).2.1 := by dsimp only [dats]

end Cert.KernelIdeal.Frame

end
-- ==== Proof.KIdeal.Obligation.lean ====
/-
  The body obligation of the pipeline at every grid point, for any float instance: handed the region's invariant (the
  accumulators at what the point before left, or at anything before the first point) and every window's staging buffer
  at what the pipeline left in it, the kernel body runs to the invariant at the next point and every buffer at what the
  proof data say it leaves — by the three cases of the point within its batch.
-/
import proofs.«168659_j5179730559712_1_alg».proof.Proof.KIdeal.Carried

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input's staging buffer holds its block at every point -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The obligation at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' buffers hold their blocks; the point is a batch's first tile, its last, or
    neither, and that case's run applies; the invariant hands over the accumulators at what the point before left and
    takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    · -- a batch's first tile
      rw [show (dats m 0 c).leavesExact 0 t = owns (c : Thread nD τ) (ms0 t) fullShare ((dats m 0 c).after 0 t) from by
        unfold Dat.leavesExact; rw [live_in0 t], after_0]
      rw [show (dats m 0 c).leavesExact 1 t = owns (c : Thread nD τ) (ms1 t) fullShare ((dats m 0 c).after 1 t) from by
        unfold Dat.leavesExact; rw [live_in1 t], after_1]
      rw [show (dats m 0 c).leavesExact 2 t = owns (c : Thread nD τ) (ms2 t) fullShare ((dats m 0 c).after 2 t) from by
        unfold Dat.leavesExact; rw [live_in2 t], after_2]
      rw [show (dats m 0 c).leavesExact 3 t = owns (c : Thread nD τ) (ms3 t) fullShare ((dats m 0 c).after 3 t) from by
        unfold Dat.leavesExact; rw [live_in3 t], after_3]
      rw [show (dats m 0 c).leavesExact 4 t = owns (c : Thread nD τ) (ms4 t) fullShare ((dats m 0 c).after 4 t) from by
        unfold Dat.leavesExact; rw [live_in4 t], after_4]
      rw [Dat.leavesExact_idle (dats m 0 c) 5 t (idle_out5 t (fun h => h1 ((isLast_iff t).mp h))) (noflush_out5 t (fun h => h1 ((isLast_iff t).mp h)))]
      rw [Dat.leavesExact_idle (dats m 0 c) 6 t (idle_out6 t (fun h => h1 ((isLast_iff t).mp h))) (noflush_out6 t (fun h => h1 ((isLast_iff t).mp h)))]
      rw [outsAt0_first m c t h0 h1]
      unfold accFirst0 accFirst1; (try dsimp only)
      by_cases hz : t.val = 0
      · rw [PhiS_castSucc m c t, PhiS_zero m c _ _ hz, PhiA_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((runFirst c (grid0.coords t) _ _ _ _ _ _ _ _ _ _ _ _ _ _ _ _ _ _ ((isFirst_iff t).mpr h0) (fun h => h1 ((isLast_iff t).mp h)) (iblk m c 0 t) (iblk m c 1 t) (iblk m c 2 t) (iblk m c 3 t) (iblk m c 4 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (fun y => coverFirst0 c _ _ _ _ _ _ _ _ _ _ _ _ _ _ _ _ _ _ _ _ _ _ _ _ _ _ y)
            · unfold owns; iexists _; isplitr
              swap; · iexact HS1
              ipureintro; exact View.read_writes_of_cover _ _ _ _ _ (fun y => coverFirst1 c _ _ _ _ _ _ _ _ _ _ _ _ _ _ _ _ _ _ _ _ _ _ _ _ _ _ y)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((runFirst c (grid0.coords t) _ _ _ _ _ _ _ _ _ _ _ _ _ _ _ _ _ _ ((isFirst_iff t).mpr h0) (fun h => h1 ((isLast_iff t).mp h)) (iblk m c 0 t) (iblk m c 1 t) (iblk m c 2 t) (iblk m c 3 t) (iblk m c 4 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (fun y => coverFirst0 c _ _ _ _ _ _ _ _ _ _ _ _ _ _ _ _ _ _ _ _ _ _ _ _ _ _ y)
            · unfold owns; iexists _; isplitr
              swap; · iexact HS1
              ipureintro; exact View.read_writes_of_cover _ _ _ _ _ (fun y => coverFirst1 c _ _ _ _ _ _ _ _ _ _ _ _ _ _ _ _ _ _ _ _ _ _ _ _ _ _ y)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · have hz : t.val ≠ 0 := fun h => h0 (by rw [h])
    by_cases h1 : t.val % 16 = 15
    · -- a batch's last tile
      rw [show (dats m 0 c).leavesExact 0 t = owns (c : Thread nD τ) (ms0 t) fullShare ((dats m 0 c).after 0 t) from by
        unfold Dat.leavesExact; rw [live_in0 t], after_0]
      rw [show (dats m 0 c).leavesExact 1 t = owns (c : Thread nD τ) (ms1 t) fullShare ((dats m 0 c).after 1 t) from by
        unfold Dat.leavesExact; rw [live_in1 t], after_1]
      rw [show (dats m 0 c).leavesExact 2 t = owns (c : Thread nD τ) (ms2 t) fullShare ((dats m 0 c).after 2 t) from by
        unfold Dat.leavesExact; rw [live_in2 t], after_2]
      rw [show (dats m 0 c).leavesExact 3 t = owns (c : Thread nD τ) (ms3 t) fullShare ((dats m 0 c).after 3 t) from by
        unfold Dat.leavesExact; rw [live_in3 t], after_3]
      rw [show (dats m 0 c).leavesExact 4 t = owns (c : Thread nD τ) (ms4 t) fullShare ((dats m 0 c).after 4 t) from by
        unfold Dat.leavesExact; rw [live_in4 t], after_4]
      rw [show (dats m 0 c).leavesExact 5 t = owns (c : Thread nD τ) (ms5 t) fullShare ((dats m 0 c).after 5 t) from by
        unfold Dat.leavesExact; rw [live_out5 t ((isLast_iff t).mpr h1)], after_5]
      rw [show (dats m 0 c).leavesExact 6 t = owns (c : Thread nD τ) (ms6 t) fullShare ((dats m 0 c).after 6 t) from by
        unfold Dat.leavesExact; rw [live_out6 t ((isLast_iff t).mpr h1)], after_6]
      rw [outsAt0_last m c t h0 h1]
      unfold outLast5 outLast6 accLast0 accLast1; (try dsimp only)
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((runLast c (grid0.coords t) _ _ _ _ _ _ _ _ _ _ _ _ _ _ _ _ _ _ (fun h => h0 ((isFirst_iff t).mp h)) ((isLast_iff t).mpr h1) (iblk m c 0 t) (iblk m c 1 t) (iblk m c 2 t) (iblk m c 3 t) (iblk m c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, ⟨%e5, H5⟩, ⟨%e6, H6⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (fun y => coverLastA0 c _ _ _ _ _ _ _ _ _ _ _ _ _ _ _ _ _ _ _ _ _ _ _ _ _ _ _ _ y)
            · unfold owns; iexists _; isplitr
              swap; · iexact HS1
              ipureintro; exact View.read_writes_of_cover _ _ _ _ _ (fun y => coverLastA1 c _ _ _ _ _ _ _ _ _ _ _ _ _ _ _ _ _ _ _ _ _ _ _ _ _ _ _ _ y)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (fun y => coverLast5 c _ _ _ _ _ _ _ _ _ _ _ _ _ _ _ _ _ _ _ _ _ _ _ _ _ _ _ _ y)
        · unfold owns; iexists _; isplitr
          swap; · iexact H6
          ipureintro; exact View.read_writes_of_cover _ _ _ _ _ (fun y => coverLast6 c _ _ _ _ _ _ _ _ _ _ _ _ _ _ _ _ _ _ _ _ _ _ _ _ _ _ _ _ y)
    · -- neither
      rw [show (dats m 0 c).leavesExact 0 t = owns (c : Thread nD τ) (ms0 t) fullShare ((dats m 0 c).after 0 t) from by
        unfold Dat.leavesExact; rw [live_in0 t], after_0]
      rw [show (dats m 0 c).leavesExact 1 t = owns (c : Thread nD τ) (ms1 t) fullShare ((dats m 0 c).after 1 t) from by
        unfold Dat.leavesExact; rw [live_in1 t], after_1]
      rw [show (dats m 0 c).leavesExact 2 t = owns (c : Thread nD τ) (ms2 t) fullShare ((dats m 0 c).after 2 t) from by
        unfold Dat.leavesExact; rw [live_in2 t], after_2]
      rw [show (dats m 0 c).leavesExact 3 t = owns (c : Thread nD τ) (ms3 t) fullShare ((dats m 0 c).after 3 t) from by
        unfold Dat.leavesExact; rw [live_in3 t], after_3]
      rw [show (dats m 0 c).leavesExact 4 t = owns (c : Thread nD τ) (ms4 t) fullShare ((dats m 0 c).after 4 t) from by
        unfold Dat.leavesExact; rw [live_in4 t], after_4]
      rw [Dat.leavesExact_idle (dats m 0 c) 5 t (idle_out5 t (fun h => h1 ((isLast_iff t).mp h))) (noflush_out5 t (fun h => h1 ((isLast_iff t).mp h)))]
      rw [Dat.leavesExact_idle (dats m 0 c) 6 t (idle_out6 t (fun h => h1 ((isLast_iff t).mp h))) (noflush_out6 t (fun h => h1 ((isLast_iff t).mp h)))]
      rw [outsAt0_mid m c t h0 h1]
      unfold accMid0 accMid1; (try dsimp only)
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((runMid c (grid0.coords t) _ _ _ _ _ _ _ _ _ _ _ _ _ _ _ _ _ _ (fun h => h0 ((isFirst_iff t).mp h)) (fun h => h1 ((isLast_iff t).mp h)) (iblk m c 0 t) (iblk m c 1 t) (iblk m c 2 t) (iblk m c 3 t) (iblk m c 4 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (fun y => coverMid0 c _ _ _ _ _ _ _ _ _ _ _ _ _ _ _ _ _ _ _ _ _ _ _ _ _ _ _ _ y)
            · unfold owns; iexists _; isplitr
              swap; · iexact HS1
              ipureintro; exact View.read_writes_of_cover _ _ _ _ _ (fun y => coverMid1 c _ _ _ _ _ _ _ _ _ _ _ _ _ _ _ _ _ _ _ _ _ _ _ _ _ _ _ _ y)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Frame

end
-- ==== Proof.KIdeal.Launch.lean ====
/-
  The run of @main on one device: one kernel region whose seven windows stand on five arrays, then nine host
  operations. The first argument is read through two windows, each holding half of it, and so is the second; the third
  argument and the two result arrays are held whole. At the region's entry each shared array's full share is cut into
  its two halves, one per window; at the exit the halves, which still hold what the region found (an input array is
  never written), are joined again. The two result arrays leave the region at what the write-backs have made of them,
  every other buffer as the launch left it; the host operations then take, of each result array, the elements
  `[b, 0, 0]` over the eight leading indices `b`, add them up from zero, and divide the first sum by the second.
-/
import proofs.«168659_j5179730559712_1_alg».proof.Proof.KIdeal.Blocks
import Idealize.ShloMosaic.Lib.Pipeline.RegionsLoop
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-! ## The buffers at the region's exit and at the return -/

/-- Core `c`'s buffers when the region is left: the two result arrays at what the write-backs have made of them,
    every other buffer as launched. -/
def Wexit (c : Dev nD) : Valuation τ sig (Elt F) :=
  Function.update (Function.update (V0 m c) (Proc.devRef .tc main_v0_0) ((dats 0 c).arrAt 5 cfg0.N))
    (Proc.devRef .tc main_v0_1) ((dats 0 c).arrAt 6 cfg0.N)

theorem Wexit_v0_0 (c : Dev nD) : Wexit m dats c (Proc.devRef .tc main_v0_0) = (dats 0 c).arrAt 5 cfg0.N := by
  unfold Wexit
  rw [Function.update_of_ne (StableHlo.devRef_ne_of_ne (by decide)), Function.update_self]
theorem Wexit_v0_1 (c : Dev nD) : Wexit m dats c (Proc.devRef .tc main_v0_1) = (dats 0 c).arrAt 6 cfg0.N := by
  unfold Wexit
  rw [Function.update_self]
/-- Off the two result arrays the exit contents are the launch's. -/
theorem Wexit_of_ne (c : Dev nD) (b : Ref sig .tc) (h0 : b ≠ main_v0_0) (h1 : b ≠ main_v0_1) :
    Wexit m dats c (Proc.devRef .tc b) = V0 m c (Proc.devRef .tc b) := by
  unfold Wexit
  rw [Function.update_of_ne (StableHlo.devRef_ne_of_ne h1), Function.update_of_ne (StableHlo.devRef_ne_of_ne h0)]

/-- Core `c`'s buffers at the return: the nine host operations run from the exit contents. -/
def Wfin (c : Dev nD) : Valuation τ sig (Elt F) := StableHlo.after hostOps1 (Wexit m dats c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the nine host operations compute of the two result arrays: of each, the elements `[b, 0, 0]` over the eight
    leading indices `b`, added up from zero; the first sum divided by the second. -/
def tailOf (X5 X6 : (⟨S8x1x128, .f32⟩ : BufTy).Contents (Elt F)) : (⟨S_, .f32⟩ : BufTy).Contents (Elt F) :=
  Host.divf
    (Host.reduceAdd (shapeCast S8 (extractStridedSlice S8x1x1 ![0, 0, 0] X5 slices_S8x1x128_S8x1x1_0_0_0) shapeCasts_S8x1x1_S8)
      (constant S_ .f32 0x00000000#32) reducesTo_S8_S_d0 h_S_)
    (Host.reduceAdd (shapeCast S8 (extractStridedSlice S8x1x1 ![0, 0, 0] X6 slices_S8x1x128_S8x1x1_0_0_0) shapeCasts_S8x1x1_S8)
      (constant S_ .f32 0x00000000#32) reducesTo_S8_S_d0 h_S_)

/-! ## The windows' arrays as a chain, each at its share -/

/-- Each window holds its array at the share dealt to it: a result window whole, an input window its own. -/
theorem share_eq (c : Dev nD) (hq : ∀ w, (dats 0 c).q w = inShare w) : ∀ w : Fin cfg0.W, (dats 0 c).share w = inShare w
  | ⟨0, _⟩ => hq _
  | ⟨1, _⟩ => hq _
  | ⟨2, _⟩ => hq _
  | ⟨3, _⟩ => hq _
  | ⟨4, _⟩ => hq _
  | ⟨5, _⟩ => rfl
  | ⟨6, _⟩ => rfl

/-- The windowed arrays at contents `G`, window by window: the two halves of the first array, the two halves of the
    second, and the third array and the two result arrays whole. -/
theorem arrays_chain (c : Dev nD) (hq : ∀ w, (dats 0 c).q w = inShare w)
    (G : (w : Fin cfg0.W) → Buf (Elt F) ((cfg0.win w).arr.view.loc (c : Thread nD τ))) :
    ((dats 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_arg2) ↦{fullShare} G 4)
          ∗ (((c : Thread nD τ).loc main_v0_0) ↦{fullShare} G 5) ∗ (((c : Thread nD τ).loc main_v0_1) ↦{fullShare} G 6)) := by
  unfold Dat.arrays
  rw [bigSep_W0]
  rw [share_eq dats c hq 0, share_eq dats c hq 1, share_eq dats c hq 2, share_eq dats c hq 3,
    share_eq dats c hq 4, share_eq dats c hq 5, share_eq dats c hq 6]
  -- windows 0 and 1 stand on one array, as do 2 and 3: one rewriting serves each pair
  rw [(arr_whole0 0).set_eq_univ, (arr_whole0 2).set_eq_univ, (arr_whole0 4).set_eq_univ, (arr_whole0 5).set_eq_univ,
    (arr_whole0 6).set_eq_univ]
  rfl

/-- The five distinct buffers behind the seven windows, each whole at contents `V'`. -/
theorem arrBufs_chain (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1)
          ∗ (((c : Thread nD τ).loc main_arg2) ↦{fullShare} V' main_arg2)
          ∗ (((c : Thread nD τ).loc main_v0_0) ↦{fullShare} V' main_v0_0) ∗ (((c : Thread nD τ).loc main_v0_1) ↦{fullShare} V' main_v0_1)) := by
  unfold Pipeline.arrBufs
  exact bigSep_eq_bigSepL_of_eq [main_arg0, main_arg1, main_arg2, main_v0_0, main_v0_1] (by decide) (by decide) _

/-- ENTRY: every unscoped buffer at the launch contents is the windows' arrays at their entry contents — the first
    array's full share cut into the halves its two windows hold, the second's likewise — and the unscoped rest. -/
theorem entry_split (c : Dev nD) (hA : ∀ w, (dats 0 c).A w = V m c (Pipeline.arrRef spec0 w))
    (hq : ∀ w, (dats 0 c).q w = inShare w) :
    (StableHlo.held (c : Thread nD τ) (Pipeline.ucRefs τ sig) (V0 m c) : sProp 𝕄)
      ⊢ iprop((dats 0 c).arrays ((dats 0 c).arrAt · 0)
          ∗ Pipeline.unscopedRest (Ix := Unit) (Name := ℕ) (U := UR sig nD τ) (Lvl := ℕ) spec0 c (V m c)) := by
  rw [← Pipeline.unscopedBufs_held c (V0 m c),
    Pipeline.unscopedBufs_split₀ cfgs 0 winFacts₀0.arr_unscoped c (V m c), arrBufs_chain,
    show ((dats 0 c).arrAt · 0) = fun w => V m c (Pipeline.arrRef spec0 w) from funext fun w => hA w,
    arrays_chain dats c hq]
  iintro ⟨⟨H0, H1, H2, H5, H6⟩, Hrest⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitr [Hrest]
  · isplitl [H0l]; · iexact H0l
    isplitl [H0r]; · iexact H0r
    isplitl [H1l]; · iexact H1l
    isplitl [H1r]; · iexact H1r
    isplitl [H2]; · iexact H2
    isplitl [H5]; · iexact H5
    iexact H6
  iexact Hrest

/-- Off the windows' arrays the exit contents are the launch's. -/
theorem unscopedRest_Wexit (c : Dev nD) :
    (Pipeline.unscopedRest (Ix := Unit) (Name := ℕ) (U := UR sig nD τ) (Lvl := ℕ) spec0 c (fun b => Wexit m dats c b) : sProp 𝕄)
      = Pipeline.unscopedRest (Ix := Unit) (Name := ℕ) (U := UR sig nD τ) (Lvl := ℕ) spec0 c (V m c) := by
  unfold Pipeline.unscopedRest
  refine bigSep_congr fun b hb => ?_
  have hb' := (Finset.mem_sdiff.mp hb).2
  beta_reduce
  rw [show (Wexit m dats c (Proc.devRef .tc b)) = V m c b from Wexit_of_ne m dats c b
    (fun e => hb' (Finset.mem_image.mpr ⟨5, Finset.mem_univ _, e.symm⟩))
    (fun e => hb' (Finset.mem_image.mpr ⟨6, Finset.mem_univ _, e.symm⟩))]

/-- EXIT: the windows' arrays at their exit contents and the unscoped rest are every unscoped buffer at the exit
    contents — an input array is never written, so the two halves of the first array hold what the region found and
    join to its full share, the second's likewise. -/
theorem exit_join (c : Dev nD) (hA : ∀ w, (dats 0 c).A w = V m c (Pipeline.arrRef spec0 w))
    (hq : ∀ w, (dats 0 c).q w = inShare w) :
    iprop((dats 0 c).arrays ((dats 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (Wexit m dats c) : sProp 𝕄) := by
  rw [← Pipeline.unscopedBufs_held c (Wexit m dats c),
    Pipeline.unscopedBufs_split₀ cfgs 0 winFacts₀0.arr_unscoped c (fun b => Wexit m dats c b), arrBufs_chain,
    unscopedRest_Wexit, arrays_chain dats c hq]
  rw [show (Wexit m dats c (Proc.devRef .tc main_arg0)) = V m c main_arg0 from Wexit_of_ne m dats c main_arg0 (by decide) (by decide),
    show (Wexit m dats c (Proc.devRef .tc main_arg1)) = V m c main_arg1 from Wexit_of_ne m dats c main_arg1 (by decide) (by decide),
    show (Wexit m dats c (Proc.devRef .tc main_arg2)) = V m c main_arg2 from Wexit_of_ne m dats c main_arg2 (by decide) (by decide),
    Wexit_v0_0, Wexit_v0_1]
  rw [show (dats 0 c).arrAt 0 cfg0.N = V m c main_arg0 from ((dats 0 c).arrAt_in 0 rfl _).trans (hA 0),
    show (dats 0 c).arrAt 1 cfg0.N = V m c main_arg0 from ((dats 0 c).arrAt_in 1 rfl _).trans (hA 1),
    show (dats 0 c).arrAt 2 cfg0.N = V m c main_arg1 from ((dats 0 c).arrAt_in 2 rfl _).trans (hA 2),
    show (dats 0 c).arrAt 3 cfg0.N = V m c main_arg1 from ((dats 0 c).arrAt_in 3 rfl _).trans (hA 3),
    show (dats 0 c).arrAt 4 cfg0.N = V m c main_arg2 from ((dats 0 c).arrAt_in 4 rfl _).trans (hA 4)]
  iintro ⟨⟨H0l, H0r, H1l, H1r, H2, H5, H6⟩, Hrest⟩
  isplitr [Hrest]
  · isplitl [H0l H0r]
    · iapply (pointsTo_share (PosShare.mem_left_op_right fullShare)).2
      isplitl [H0l] <;> iassumption
    isplitl [H1l H1r]
    · iapply (pointsTo_share (PosShare.mem_left_op_right fullShare)).2
      isplitl [H1l] <;> iassumption
    isplitl [H2]; · iexact H2
    isplitl [H5]; · iexact H5
    iexact H6
  iexact Hrest

/-! ## @main as two segments: the region, then the host operations -/

/-- No table is prefetched. -/
abbrev runAdm : (p : Fin 1) → (pcfgs (F := F) p).Adm := fun p => (cfgs p).toPCfg_adm
/-- No core owes another anything: no level is assigned. -/
abbrev runL : GSem nD τ sig → Finset Unit := fun _ => ∅
abbrev runLv : GSem nD τ sig → Unit → ℕ := fun _ _ => 0
/-- What rides beside the buffers through both segments: the generator register at some state, and nothing owed. -/
abbrev runR (c : Dev nD) : sProp 𝕄 := iprop((∃ r, prngReg c r) ∗ ∃ W, owes (c : Thread nD τ) (0 : CellTallies nD τ sig Unit) W)

/-- No host operation allocates a buffer. -/
theorem hostOps1_fresh : (hostOps1 : List (HloOp τ sig (Elt F))).Forall fun op => op.fresh = ∅ := by
  simp only [List.Forall]; repeat' constructor

/-- The nine host operations as a segment: from every unscoped buffer at the exit contents to the same at the
    return contents. -/
abbrev runHost : Pipeline.HostSeg (Name := ℕ) (U := UR sig nD τ) (pcfgs (F := F)) defs₀ Variants.none runL runLv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (Wexit m dats) runR

set_option backward.isDefEq.respectTransparency.types false in
/-- The region as a segment: entered from every unscoped buffer at the launch contents, left at the exit contents. Its
    arrays are cut out of the unscoped buffers at their shares (`entry_split`) and put back (`exit_join`); the generator
    register passes through the invariant; nothing is owed; the kernel has no semaphore of its own. -/
def runReg
    (hA : ∀ c w, (dats 0 c).A w = V m c (Pipeline.arrRef spec0 w))
    (hq : ∀ c w, (dats 0 c).q w = inShare w)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    Pipeline.RegionSeg (pcfgs (F := F)) runAdm dats () defs₀ Variants.none runL runLv 0 where
  win := winFacts₀0
  block_pos := block_pos0
  stage_whole := stage_whole0
  K := PEmpty
  osem k := k.elim
  ho := Pipeline.OwnSemFacts.none _
  hbody c := hbody c
  hwaits := Pipeline.hwaits_of_owed_zero _ _ _ _ runL runLv 0 howed
  pre c := iprop(StableHlo.held (c : Thread nD τ) (Pipeline.ucRefs τ sig) (V0 m c) ∗ (∃ r, prngReg c r)
    ∗ owes (c : Thread nD τ) (0 : CellTallies nD τ sig Unit) ∅)
  post c := iprop(StableHlo.held (c : Thread nD τ) (Pipeline.ucRefs τ sig) (Wexit m dats c) ∗ runR c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    iintro ⟨⟨Hub, Hp, HO⟩, -, -⟩
    ihave H := entry_split m dats c (hA c) (hq c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      iexists ∅; isplitr; · ipureintro; rw [Finset.coe_empty]; exact Set.empty_subset _
      iexact HO
    isplitl [Hp]; · iexact Hp
    iexact Hrest
  hin c := by
    refine BIBase.Entails.trans ?_ (hin c); unfold Pipeline.ΦA
    iintro ⟨Hp, -, Hr⟩
    isplitl [Hr]; · iexact Hr
    iexact Hp
  hout c := by
    rw [Pipeline.ownSems0_none]
    refine (hout c).trans ?_; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply exit_join m dats c (hA c) (hq c); isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
/-- THE RUN: from any memory with zero counters every weakly fair execution of @main on the TensorCore terminates,
    and every final memory holds, at each unscoped buffer, the return contents. -/
theorem run_main
    (hA : ∀ c w, (dats 0 c).A w = V m c (Pipeline.arrRef spec0 w))
    (hq : ∀ c w, (dats 0 c).q w = inShare w)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩
      (fun r => ∀ c : Dev nD, ∀ b ∈ Pipeline.ucRefs τ sig, r.2.mem (((c : Thread nD τ)).1, b) = Wfin m dats c b) :=
  Pipeline.θ_run_regions_kit (pcfgs (F := F)) runAdm dats () cellOf_inj emb₁ defs₀ Variants.none runL runLv m ρ main
    [.region (runReg m dats hA hq howed hbody hin hout), .host (runHost m dats)]
    (fun c Q => by rw [main_segs runAdm dats () Variants.none runL runLv (runHost m dats) (runReg m dats hA hq howed hbody hin hout) rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ (∃ r, prngReg c r)
      ∗ owes (c : Thread nD τ) (0 : CellTallies nD τ sig Unit) ∅))
    (Tₙ := fun c => iprop(StableHlo.held (c : Thread nD τ) (Pipeline.ucRefs τ sig) (Wfin m dats c) ∗ ∃ r, prngReg c r))
    (hch := ⟨fun _ => .rfl, fun _ => .rfl, fun c => by
      show iprop(StableHlo.held (c : Thread nD τ) (Pipeline.ucRefs τ sig) (StableHlo.after hostOps1 (Wexit m dats c)) ∗ runR c)
        ⊢ iprop(iprop(StableHlo.held (c : Thread nD τ) (Pipeline.ucRefs τ sig) (Wfin m dats c) ∗ ∃ r, prngReg c r)
          ∗ ∃ W, owes (c : Thread nD τ) (0 : CellTallies nD τ sig Unit) W)
      unfold Wfin
      iintro ⟨Hh, Hp, HO⟩
      isplitr [HO]
      · isplitl [Hh]; · iexact Hh
        iexact Hp
      iexact HO⟩)
    (hinit := by
      refine Pipeline.initEach runL runLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = Wfin m dats c b)
    (hfin := fun c s' => by
      iintro ⟨⟨Hh, -⟩, HSI⟩
      unfold StableHlo.held
      imodintro
      iapply (pointsTo_read_all (Pipeline.ucRefs τ sig) (fun b => (((c : Thread nD τ)).1, b)) (Wfin m dats c) s')
      isplitl [Hh] <;> iassumption)
    (hQ := fun s h => h)

/-! ## The return contents read: the arguments as launched, the result the quotient -/

/-- No host operation writes a reference off `main_v1` … `main_v7` and the two constants. -/
theorem Wfin_of_not_written (c : Dev nD) (b : Ref sig .tc)
    (h : b ∉ [main_v1, main_v2, main_cst, main_v3, main_v4, main_v5, main_cst_0, main_v6, main_v7]) :
    Wfin m dats c (Proc.devRef .tc b) = Wexit m dats c (Proc.devRef .tc b) := by
  unfold Wfin
  refine StableHlo.after_of_writes_sub (W := [main_v1, main_v2, main_cst, main_v3, main_v4, main_v5, main_cst_0, main_v6, main_v7])
    _ _ ?_ h
  simp only [hostOps1, List.Forall, StableHlo.nullary_writes, StableHlo.unary_writes, StableHlo.binary_writes, StableHlo.reshape_writes]
  repeat' apply And.intro
  all_goals decide

theorem Wfin_arg0 (c : Dev nD) : Wfin m dats c (Proc.devRef .tc main_arg0) = m ((c : Thread nD τ).loc main_arg0) :=
  (Wfin_of_not_written m dats c main_arg0 (by decide)).trans (Wexit_of_ne m dats c main_arg0 (by decide) (by decide))
theorem Wfin_arg1 (c : Dev nD) : Wfin m dats c (Proc.devRef .tc main_arg1) = m ((c : Thread nD τ).loc main_arg1) :=
  (Wfin_of_not_written m dats c main_arg1 (by decide)).trans (Wexit_of_ne m dats c main_arg1 (by decide) (by decide))
theorem Wfin_arg2 (c : Dev nD) : Wfin m dats c (Proc.devRef .tc main_arg2) = m ((c : Thread nD τ).loc main_arg2) :=
  (Wfin_of_not_written m dats c main_arg2 (by decide)).trans (Wexit_of_ne m dats c main_arg2 (by decide) (by decide))

open StableHlo in
theorem Wfin_v7 (c : Dev nD) :
    Wfin m dats c (Proc.devRef .tc main_v7) = tailOf ((dats 0 c).arrAt 5 cfg0.N) ((dats 0 c).arrAt 6 cfg0.N) := by
  unfold Wfin hostOps1
  after_results
  rw [Wexit_v0_0, Wexit_v0_1]
  rfl

end Cert.KernelIdeal.Frame

end
-- ==== Proof.KIdeal.Run.lean ====
/-
  The kernel program's run, for any float instance: from any memory with every semaphore at zero, every weakly fair
  execution of the whole program — the kernel region at its 128 grid points, then the nine host operations —
  terminates without a fault, and every unscoped buffer ends at what the host operations leave from the region's exit;
  in particular the three argument arrays end as they were launched.
-/
import proofs.«168659_j5179730559712_1_alg».proof.Proof.KIdeal.Obligation
import proofs.«168659_j5179730559712_1_alg».proof.Proof.KIdeal.Launch

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, with every unscoped buffer's final contents named. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Wfin m (dats m) c b) :=
  run_main m ρ (dats m) (A_eq m) (q_eq m) (fun _ _ => rfl) (fun c => (body_obligation m c).loose) (hin m) (hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (Wfin_arg0 m (dats m) c),
     (h c _ (mem_uc main_arg1 (by decide))).trans (Wfin_arg1 m (dats m) c),
     (h c _ (mem_uc main_arg2 (by decide))).trans (Wfin_arg2 m (dats m) c)⟩) (run_all m ρ)

/-- The result buffer ends at the host tail of the two result arrays the region leaves. -/
theorem run_result : θ_run defs (onTc (τ := τ) (main (F := F))) ⟨m, fun _ => 0, ρ⟩ (fun r => ∀ c : Dev nD,
      r.2.mem ((c.tc : Thread nD τ).loc main_v7) = tailOf ((dats m 0 c).arrAt 5 cfg0.N) ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v7 (by decide))).trans (Wfin_v7 m (dats m) c),
     (h c _ (mem_uc main_arg0 (by decide))).trans (Wfin_arg0 m (dats m) c),
     (h c _ (mem_uc main_arg1 (by decide))).trans (Wfin_arg1 m (dats m) c),
     (h c _ (mem_uc main_arg2 (by decide))).trans (Wfin_arg2 m (dats m) c)⟩) (run_all m ρ)

end Cert.KernelIdeal.Frame

end
-- ==== Proof.KIdeal.Steps.lean ====
/-
  What one tile adds. From the five input blocks of a grid point — the row points and the column points of each of
  the two clouds, and the weights — and an accumulator's old contents, `stepNum` is the first accumulator's new
  contents (the old ones plus, on every lane, the tile's sum of squared weighted distance differences) and `stepDen`
  the second's (the old ones plus the tile's sum of weights). Each case of the body leaves exactly these in the
  accumulators — at a batch's first tile over cleared accumulators — and at a batch's last tile copies them into the
  result windows.
-/
import proofs.«168659_j5179730559712_1_alg».proof.Proof.KIdeal.Carried
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first accumulator after a tile, from the tile's blocks and the accumulator's contents before it. -/
def stepNum (x0 x1 x2 x3 : Vec F S1x512x3 .f32) (x4 : Vec F S1x512x512 .f32) (s : Vec F S1x128 .f32) : Vec F S1x128 .f32 :=
  k0_pay17 (k0_pay8 x4) (k0_pay15 (k0_pay10 x0) (k0_pay11 x1) (k0_pay12 x0 x1) (k0_pay13 x1) (k0_pay14 x0))
    (k0_pay16 (k0_pay6 x2) (k0_pay7 x3)) (Scalar.ofBits .f32 0x00000000#32) s
/-- The second accumulator after a tile. -/
def stepDen (x4 : Vec F S1x512x512 .f32) (s : Vec F S1x128 .f32) : Vec F S1x128 .f32 :=
  k0_pay18 (k0_pay8 x4) s

theorem hzA : (![0, 0] : Fin S1x128.rank → Nat) = fun _ => 0 := by funext a; fin_cases a <;> rfl
theorem hzO : (![0, 0, 0] : Fin S1x1x128.rank → Nat) = fun _ => 0 := by funext a; fin_cases a <;> rfl

/-! ## A tile that is neither first nor last -/

theorem accMid0_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : ¬isLast i) (x0 x1 x2 x3 : Vec F S1x512x3 .f32) (x4 : Vec F S1x512x512 .f32) (s0 s1 : Vec F S1x128 .f32) :
    accMid0 c i arg3 harg3 arg4 harg4 arg5 harg5 arg6 harg6 arg7 harg7 arg8 harg8 arg9 harg9 arg10 harg10 arg11 harg11 hf hl x0 x1 x2 x3 x4 s0 s1 = stepNum x0 x1 x2 x3 x4 s0 := by
  unfold accMid0
  rw [View.read_writes_eq_canon _ _ _ (coverMid0 c i arg3 harg3 arg4 harg4 arg5 harg5 arg6 harg6 arg7 harg7 arg8 harg8 arg9 harg9 arg10 harg10 arg11 harg11 hf hl x0 x1 x2 x3 x4 s0 s1)]
  unfold runMid
  dsimp only
  sl_unfold_words
  rw [View.canon_unit_zero (S := S1x128) hzA]
  simp only [View.readAt_eq_ld, harg3.read_unread, harg4.read_unread, harg5.read_unread, harg6.read_unread, harg7.read_unread, harg10.read_unread, harg11.read_unread,
    View.ld_unit_zero (S := S1x512x3) hzO, View.ld_unit_zero (S := S1x512x512) hzO, View.ld_unit_zero (S := S1x128) hzA, View.ld_unit_zero (S := S1x1x128) hzO,
    View.readCov_unit_zero (S := S1x128) _ hzA]
  rfl

theorem accMid1_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : ¬isLast i) (x0 x1 x2 x3 : Vec F S1x512x3 .f32) (x4 : Vec F S1x512x512 .f32) (s0 s1 : Vec F S1x128 .f32) :
    accMid1 c i arg3 harg3 arg4 harg4 arg5 harg5 arg6 harg6 arg7 harg7 arg8 harg8 arg9 harg9 arg10 harg10 arg11 harg11 hf hl x0 x1 x2 x3 x4 s0 s1 = stepDen x4 s1 := by
  unfold accMid1
  rw [View.read_writes_eq_canon _ _ _ (coverMid1 c i arg3 harg3 arg4 harg4 arg5 harg5 arg6 harg6 arg7 harg7 arg8 harg8 arg9 harg9 arg10 harg10 arg11 harg11 hf hl x0 x1 x2 x3 x4 s0 s1)]
  unfold runMid
  dsimp only
  sl_unfold_words
  rw [View.canon_unit_zero (S := S1x128) hzA]
  simp only [View.readAt_eq_ld, harg3.read_unread, harg4.read_unread, harg5.read_unread, harg6.read_unread, harg7.read_unread, harg10.read_unread, harg11.read_unread,
    View.ld_unit_zero (S := S1x512x3) hzO, View.ld_unit_zero (S := S1x512x512) hzO, View.ld_unit_zero (S := S1x128) hzA, View.ld_unit_zero (S := S1x1x128) hzO,
    View.readCov_unit_zero (S := S1x128) _ hzA]
  rfl

/-! ## A batch's first tile: over cleared accumulators -/

theorem accFirst0_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : isFirst i) (hl : ¬isLast i) (x0 x1 x2 x3 : Vec F S1x512x3 .f32) (x4 : Vec F S1x512x512 .f32)  :
    accFirst0 c i arg3 harg3 arg4 harg4 arg5 harg5 arg6 harg6 arg7 harg7 arg8 harg8 arg9 harg9 arg10 harg10 arg11 harg11 hf hl x0 x1 x2 x3 x4 = stepNum x0 x1 x2 x3 x4 (k0_pay3 (F := F)) := by
  unfold accFirst0
  rw [View.read_writes_eq_canon _ _ _ (coverFirst0 c i arg3 harg3 arg4 harg4 arg5 harg5 arg6 harg6 arg7 harg7 arg8 harg8 arg9 harg9 arg10 harg10 arg11 harg11 hf hl x0 x1 x2 x3 x4)]
  unfold runFirst
  dsimp only
  sl_unfold_words
  rw [View.canon_cons_unit_zero (S := S1x128) hzA]
  simp only [View.readAt_eq_ld, harg3.read_unread, harg4.read_unread, harg5.read_unread, harg6.read_unread, harg7.read_unread, harg10.read_unread, harg11.read_unread,
    View.ld_unit_zero (S := S1x512x3) hzO, View.ld_unit_zero (S := S1x512x512) hzO, View.ld_unit_zero (S := S1x128) hzA, View.ld_unit_zero (S := S1x1x128) hzO,
    View.readCov_unit_zero (S := S1x128) _ hzA]
  rfl

theorem accFirst1_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : isFirst i) (hl : ¬isLast i) (x0 x1 x2 x3 : Vec F S1x512x3 .f32) (x4 : Vec F S1x512x512 .f32)  :
    accFirst1 c i arg3 harg3 arg4 harg4 arg5 harg5 arg6 harg6 arg7 harg7 arg8 harg8 arg9 harg9 arg10 harg10 arg11 harg11 hf hl x0 x1 x2 x3 x4 = stepDen x4 (k0_pay4 (F := F)) := by
  unfold accFirst1
  rw [View.read_writes_eq_canon _ _ _ (coverFirst1 c i arg3 harg3 arg4 harg4 arg5 harg5 arg6 harg6 arg7 harg7 arg8 harg8 arg9 harg9 arg10 harg10 arg11 harg11 hf hl x0 x1 x2 x3 x4)]
  unfold runFirst
  dsimp only
  sl_unfold_words
  rw [View.canon_cons_unit_zero (S := S1x128) hzA]
  simp only [View.readAt_eq_ld, harg3.read_unread, harg4.read_unread, harg5.read_unread, harg6.read_unread, harg7.read_unread, harg10.read_unread, harg11.read_unread,
    View.ld_unit_zero (S := S1x512x3) hzO, View.ld_unit_zero (S := S1x512x512) hzO, View.ld_unit_zero (S := S1x128) hzA, View.ld_unit_zero (S := S1x1x128) hzO,
    View.readCov_unit_zero (S := S1x128) _ hzA]
  rfl

/-! ## A batch's last tile: the accumulators, then the result windows -/

theorem accLast0_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) :
    accLast0 c i arg3 harg3 arg4 harg4 arg5 harg5 arg6 harg6 arg7 harg7 arg8 harg8 arg9 harg9 arg10 harg10 arg11 harg11 hf hl x0 x1 x2 x3 x4 s0 s1 = stepNum x0 x1 x2 x3 x4 s0 := by
  unfold accLast0
  rw [View.read_writes_eq_canon _ _ _ (coverLastA0 c i arg3 harg3 arg4 harg4 arg5 harg5 arg6 harg6 arg7 harg7 arg8 harg8 arg9 harg9 arg10 harg10 arg11 harg11 hf hl x0 x1 x2 x3 x4 s0 s1)]
  unfold runLast
  dsimp only
  sl_unfold_words
  rw [View.canon_unit_zero (S := S1x128) hzA]
  simp only [View.readAt_eq_ld, harg3.read_unread, harg4.read_unread, harg5.read_unread, harg6.read_unread, harg7.read_unread, harg10.read_unread, harg11.read_unread,
    View.ld_unit_zero (S := S1x512x3) hzO, View.ld_unit_zero (S := S1x512x512) hzO, View.ld_unit_zero (S := S1x128) hzA, View.ld_unit_zero (S := S1x1x128) hzO,
    View.readCov_unit_zero (S := S1x128) _ hzA]
  rfl

theorem accLast1_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) :
    accLast1 c i arg3 harg3 arg4 harg4 arg5 harg5 arg6 harg6 arg7 harg7 arg8 harg8 arg9 harg9 arg10 harg10 arg11 harg11 hf hl x0 x1 x2 x3 x4 s0 s1 = stepDen x4 s1 := by
  unfold accLast1
  rw [View.read_writes_eq_canon _ _ _ (coverLastA1 c i arg3 harg3 arg4 harg4 arg5 harg5 arg6 harg6 arg7 harg7 arg8 harg8 arg9 harg9 arg10 harg10 arg11 harg11 hf hl x0 x1 x2 x3 x4 s0 s1)]
  unfold runLast
  dsimp only
  sl_unfold_words
  rw [View.canon_unit_zero (S := S1x128) hzA]
  simp only [View.readAt_eq_ld, harg3.read_unread, harg4.read_unread, harg5.read_unread, harg6.read_unread, harg7.read_unread, harg10.read_unread, harg11.read_unread,
    View.ld_unit_zero (S := S1x512x3) hzO, View.ld_unit_zero (S := S1x512x512) hzO, View.ld_unit_zero (S := S1x128) hzA, View.ld_unit_zero (S := S1x1x128) hzO,
    View.readCov_unit_zero (S := S1x128) _ hzA]
  rfl

theorem outLast5_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) :
    outLast5 c i arg3 harg3 arg4 harg4 arg5 harg5 arg6 harg6 arg7 harg7 arg8 harg8 arg9 harg9 arg10 harg10 arg11 harg11 hf hl x0 x1 x2 x3 x4 s0 s1 = k0_pay1 (stepNum x0 x1 x2 x3 x4 s0) := by
  unfold outLast5
  rw [View.read_writes_eq_canon _ _ _ (coverLast5 c i arg3 harg3 arg4 harg4 arg5 harg5 arg6 harg6 arg7 harg7 arg8 harg8 arg9 harg9 arg10 harg10 arg11 harg11 hf hl x0 x1 x2 x3 x4 s0 s1)]
  unfold runLast
  dsimp only
  sl_unfold_words
  rw [View.canon_unit_zero (S := S1x1x128) hzO]
  simp only [View.readAt_eq_ld, harg3.read_unread, harg4.read_unread, harg5.read_unread, harg6.read_unread, harg7.read_unread, harg10.read_unread, harg11.read_unread,
    View.ld_unit_zero (S := S1x512x3) hzO, View.ld_unit_zero (S := S1x512x512) hzO, View.ld_unit_zero (S := S1x128) hzA, View.ld_unit_zero (S := S1x1x128) hzO,
    View.readCov_unit_zero (S := S1x128) _ hzA]
  rfl

theorem outLast6_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S1x512x512 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hf : ¬isFirst i) (hl : isLast i) (x0 x1 x2 x3 : Vec F S1x512x3 .f32) (x4 : Vec F S1x512x512 .f32) (s0 s1 : Vec F S1x128 .f32) :
    outLast6 c i arg3 harg3 arg4 harg4 arg5 harg5 arg6 harg6 arg7 harg7 arg8 harg8 arg9 harg9 arg10 harg10 arg11 harg11 hf hl x0 x1 x2 x3 x4 s0 s1 = k0_pay2 (stepDen x4 s1) := by
  unfold outLast6
  rw [View.read_writes_eq_canon _ _ _ (coverLast6 c i arg3 harg3 arg4 harg4 arg5 harg5 arg6 harg6 arg7 harg7 arg8 harg8 arg9 harg9 arg10 harg10 arg11 harg11 hf hl x0 x1 x2 x3 x4 s0 s1)]
  unfold runLast
  dsimp only
  sl_unfold_words
  rw [View.canon_unit_zero (S := S1x1x128) hzO]
  simp only [View.readAt_eq_ld, harg3.read_unread, harg4.read_unread, harg5.read_unread, harg6.read_unread, harg7.read_unread, harg10.read_unread, harg11.read_unread,
    View.ld_unit_zero (S := S1x512x3) hzO, View.ld_unit_zero (S := S1x512x512) hzO, View.ld_unit_zero (S := S1x128) hzA, View.ld_unit_zero (S := S1x1x128) hzO,
    View.readCov_unit_zero (S := S1x128) _ hzA]
  rfl

end Cert.KernelIdeal.Frame

end
-- ==== Proof.Spec.lean ====
/-
  The mathematics both programs compute, over the extended reals: for two point clouds `x`, `y` (8 batches of 2048
  points in three coordinates) and a weight array `a` (8 × 2048 × 2048), the sum over every batch `b` and pair
  `(n, m)` of `((dist x b n m - dist y b n m) · a b n m)²`, divided by the sum of the weights; `dist` is the
  Euclidean distance recovered from `|p|² + |q|² - 2 p·q`, clamped at zero, its root taken only where positive.
  The whole sums are also stated tile by tile (8 batches × 16 tiles of 512 × 512), the order in which a blocked
  evaluation visits them; the two agree because `+` on the extended reals is commutative and associative.
-/
import Idealize.ShloMosaic.PureOps.Ideal
import Idealize.ShloMosaic.Lib.ValueIdx

noncomputable section

namespace Cert.Spec

open Idealize.ShloMosaic Idealize.ShloMosaic.ValueIdx

/-- A point cloud: batch, point, coordinate. -/
abbrev Pts : Type := (⟨3, ![8, 2048, 3]⟩ : Shape).Idx → EReal
/-- A weight array: batch, row point, column point. -/
abbrev Adj : Type := (⟨3, ![8, 2048, 2048]⟩ : Shape).Idx → EReal

/-- The distance from a squared distance `s`: clamp at zero, and take the root only where the clamped value is
    positive (elsewhere the result is zero). -/
def root (s : EReal) : EReal :=
  Scalar.select (Ideal.cmp .ogt (max s (Ideal.ofBits .f32 0x00000000#32)) (Ideal.ofBits .f32 0x00000000#32))
    (Ideal.sqrt (Scalar.select (Ideal.cmp .ogt (max s (Ideal.ofBits .f32 0x00000000#32)) (Ideal.ofBits .f32 0x00000000#32))
      (max s (Ideal.ofBits .f32 0x00000000#32)) (Ideal.ofBits .f32 0x3F800000#32)))
    (Ideal.ofBits .f32 0x00000000#32)

/-- The squared norm of point `n` of batch `b`. -/
def sqn (x : Pts) (b : Fin 8) (n : Fin 2048) : EReal := ∑ d : Fin 3, x (ix3 b n d) * x (ix3 b n d)
/-- The inner product of points `n` and `m` of batch `b`. -/
def dot (x : Pts) (b : Fin 8) (n m : Fin 2048) : EReal := ∑ d : Fin 3, x (ix3 b n d) * x (ix3 b m d)
/-- The distance between points `n` and `m` of batch `b`. -/
def dist (x : Pts) (b : Fin 8) (n m : Fin 2048) : EReal :=
  root (sqn x b n + sqn x b m - Ideal.ofBits .f32 0x40000000#32 * dot x b n m)
/-- One summand of the numerator. -/
def term (x y : Pts) (a : Adj) (b : Fin 8) (n m : Fin 2048) : EReal :=
  (dist x b n m - dist y b n m) * a (ix3 b n m) * ((dist x b n m - dist y b n m) * a (ix3 b n m))

/-- The numerator: every batch, every pair. -/
def num (x y : Pts) (a : Adj) : EReal := ∑ b : Fin 8, ∑ n : Fin 2048, ∑ m : Fin 2048, term x y a b n m
/-- The denominator: the sum of the weights. -/
def den (a : Adj) : EReal := ∑ b : Fin 8, ∑ n : Fin 2048, ∑ m : Fin 2048, a (ix3 b n m)
/-- The result. -/
def result (x y : Pts) (a : Adj) : EReal := Ideal.div (num x y a) (den a)

/-! ## The same sums, tile by tile -/

/-- Row (or column) `r` of tile `i` along an axis of 2048 cut into four tiles of 512. -/
def at512 (i : Fin 4) (r : Fin 512) : Fin 2048 := ⟨i.val * 512 + r.val, by have := i.isLt; have := r.isLt; omega⟩
/-- The row tile of the `t`-th tile of a batch (tiles in row-major order, four to a row). -/
def tileRow (t : Fin 16) : Fin 4 := ⟨t.val / 4, by have := t.isLt; omega⟩
/-- Its column tile. -/
def tileCol (t : Fin 16) : Fin 4 := ⟨t.val % 4, by omega⟩

/-- The numerator's part on tile `(i, j)` of batch `b`: rows first, each row summed over its columns. -/
def tileNum (x y : Pts) (a : Adj) (b : Fin 8) (i j : Fin 4) : EReal :=
  ∑ r : Fin 512, ∑ c : Fin 512, term x y a b (at512 i r) (at512 j c)
/-- The denominator's part on that tile. -/
def tileDen (a : Adj) (b : Fin 8) (i j : Fin 4) : EReal :=
  ∑ r : Fin 512, ∑ c : Fin 512, a (ix3 b (at512 i r) (at512 j c))

/-- The numerator, batch by batch and within a batch tile by tile in row-major order. -/
def numTiled (x y : Pts) (a : Adj) : EReal := ∑ b : Fin 8, ∑ t : Fin 16, tileNum x y a b (tileRow t) (tileCol t)
/-- The denominator likewise. -/
def denTiled (a : Adj) : EReal := ∑ b : Fin 8, ∑ t : Fin 16, tileDen a b (tileRow t) (tileCol t)

/-- The sixteen tiles of a batch are the pairs (row tile, column tile). -/
private def tileEquiv : Fin 16 ≃ Fin 4 × Fin 4 where
  toFun t := (tileRow t, tileCol t)
  invFun p := ⟨p.1.val * 4 + p.2.val, by have := p.1.isLt; have := p.2.isLt; omega⟩
  left_inv t := by
    apply Fin.ext
    show t.val / 4 * 4 + t.val % 4 = t.val
    omega
  right_inv p := by
    obtain ⟨⟨i, hi⟩, ⟨j, hj⟩⟩ := p
    apply Prod.ext
    · apply Fin.ext
      show (i * 4 + j) / 4 = i
      omega
    · apply Fin.ext
      show (i * 4 + j) % 4 = j
      omega

/-- An axis of 2048 is four tiles of 512: position `n` is row `n % 512` of tile `n / 512`. -/
private def splitEquiv : Fin 4 × Fin 512 ≃ Fin 2048 where
  toFun p := at512 p.1 p.2
  invFun n := (⟨n.val / 512, by have := n.isLt; omega⟩, ⟨n.val % 512, by omega⟩)
  left_inv p := by
    obtain ⟨⟨i, hi⟩, ⟨r, hr⟩⟩ := p
    apply Prod.ext
    · apply Fin.ext
      show (i * 512 + r) / 512 = i
      omega
    · apply Fin.ext
      show (i * 512 + r) % 512 = r
      omega
  right_inv n := by
    apply Fin.ext
    show n.val / 512 * 512 + n.val % 512 = n.val
    omega

/-- A sum over the sixteen tiles is the double sum over row tiles and column tiles. -/
private theorem sum_tile16 (g : Fin 4 → Fin 4 → EReal) :
    ∑ t : Fin 16, g (tileRow t) (tileCol t) = ∑ i : Fin 4, ∑ j : Fin 4, g i j := by
  rw [← Fintype.sum_prod_type']
  exact Fintype.sum_equiv tileEquiv _ _ fun _ => rfl

/-- A sum over an axis of 2048 is the sum over its four tiles of the sums over each tile's 512 positions. -/
private theorem sum_split (h : Fin 2048 → EReal) :
    ∑ i : Fin 4, ∑ r : Fin 512, h (at512 i r) = ∑ n : Fin 2048, h n := by
  rw [← Fintype.sum_prod_type']
  exact Fintype.sum_equiv splitEquiv _ _ fun _ => rfl

/-- Summing tile by tile is summing everything: a sum over `Fin 2048` splits as four sums over `Fin 512`. -/
theorem sum_tiles (f : Fin 2048 → Fin 2048 → EReal) :
    ∑ t : Fin 16, ∑ r : Fin 512, ∑ c : Fin 512, f (at512 (tileRow t) r) (at512 (tileCol t) c)
      = ∑ n : Fin 2048, ∑ m : Fin 2048, f n m := by
  rw [sum_tile16 fun i j => ∑ r : Fin 512, ∑ c : Fin 512, f (at512 i r) (at512 j c)]
  rw [← sum_split fun n => ∑ m : Fin 2048, f n m]
  refine Finset.sum_congr rfl fun i _ => ?_
  rw [Finset.sum_comm]
  refine Finset.sum_congr rfl fun r _ => ?_
  exact sum_split fun m => f (at512 i r) m

theorem numTiled_eq (x y : Pts) (a : Adj) : numTiled x y a = num x y a := by
  unfold numTiled num tileNum
  exact Finset.sum_congr rfl fun b _ => sum_tiles fun n m => term x y a b n m

theorem denTiled_eq (a : Adj) : denTiled a = den a := by
  unfold denTiled den tileDen
  exact Finset.sum_congr rfl fun b _ => sum_tiles fun n m => a (ix3 b n m)

/-- An index of an 8 × 2048 × 2048 array is the triple of its coordinates. -/
private def idxEquiv3 : (⟨3, ![8, 2048, 2048]⟩ : Shape).Idx ≃ Fin 8 × Fin 2048 × Fin 2048 where
  toFun j := (j 0, j 1, j 2)
  invFun p := ix3 p.1 p.2.1 p.2.2
  left_inv j := (eq_ix3 j).symm
  right_inv _ := rfl

/-! ## The same quantities from two points' coordinates -/

/-- The squared norm of a point given by its three coordinates. -/
def sq3 (p : Fin 3 → EReal) : EReal := ∑ d : Fin 3, p d * p d
/-- The inner product of two points. -/
def dot3 (p q : Fin 3 → EReal) : EReal := ∑ d : Fin 3, p d * q d
/-- The distance between two points. -/
def dist3 (p q : Fin 3 → EReal) : EReal := root (sq3 p + sq3 q - Ideal.ofBits .f32 0x40000000#32 * dot3 p q)
/-- One summand of the numerator, from the two pairs of points and the weight. -/
def term3 (p q u v : Fin 3 → EReal) (w : EReal) : EReal := (dist3 p q - dist3 u v) * w * ((dist3 p q - dist3 u v) * w)

theorem dist_eq (x : Pts) (b : Fin 8) (n m : Fin 2048) :
    dist x b n m = dist3 (fun d => x (ix3 b n d)) (fun d => x (ix3 b m d)) := rfl
theorem term_eq (x y : Pts) (a : Adj) (b : Fin 8) (n m : Fin 2048) :
    term x y a b n m = term3 (fun d => x (ix3 b n d)) (fun d => x (ix3 b m d)) (fun d => y (ix3 b n d)) (fun d => y (ix3 b m d)) (a (ix3 b n m)) := rfl

/-- A sum over every index of an 8 × 2048 × 2048 array, coordinate by coordinate. -/
theorem sum_idx3 (f : (⟨3, ![8, 2048, 2048]⟩ : Shape).Idx → EReal) :
    ∑ j : (⟨3, ![8, 2048, 2048]⟩ : Shape).Idx, f j = ∑ b : Fin 8, ∑ n : Fin 2048, ∑ m : Fin 2048, f (ix3 b n m) := by
  rw [← Equiv.sum_comp idxEquiv3.symm f, Fintype.sum_prod_type]
  refine Finset.sum_congr rfl fun b _ => ?_
  rw [Fintype.sum_prod_type]
  rfl

end Cert.Spec

end
-- ==== Proof.KIdeal.DistValue.lean ====
/-
  The two distance payloads of a tile read at one element. For row point `r` and column point `c` of a tile, the
  first cloud's payload is the distance between the two points (squared norms as lane sums over the three
  coordinates, the inner product as the sum of three coordinate products, `|p|² + |q|² - 2 p·q`, clamped at zero and
  its root taken where positive); the second cloud's payload is the same squared distance before the clamp.
-/
import proofs.«168659_j5179730559712_1_alg».proof.Proof.KIdeal.Steps
import proofs.«168659_j5179730559712_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.StepValue

open Cert.KernelIdeal Cert.KernelIdeal.Gen Cert.KernelIdeal.Frame Idealize.ShloMosaic Idealize.ShloMosaic.ValueIdx

/-! ## Keepdims layouts read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The blocks as matrices -/

/-- The row block viewed `[512, 3]`: point `r`, coordinate `d`. -/
theorem pay5_apply (x : Vec Ideal S1x512x3 .f32) (r : Fin 512) (d : Fin 3) :
    k0_pay5 x (ix2 r d) = x (ix3 (0 : Fin 1) r d) := by
  unfold k0_pay5
  exact shapeCast_1ab_ab_apply x _ r d

/-- The second cloud's row block likewise. -/
theorem pay6_apply (x : Vec Ideal S1x512x3 .f32) (r : Fin 512) (d : Fin 3) :
    k0_pay6 x (ix2 r d) = x (ix3 (0 : Fin 1) r d) := by
  unfold k0_pay6
  exact shapeCast_1ab_ab_apply x _ r d

/-- The second cloud's column block likewise. -/
theorem pay7_apply (x : Vec Ideal S1x512x3 .f32) (r : Fin 512) (d : Fin 3) :
    k0_pay7 x (ix2 r d) = x (ix3 (0 : Fin 1) r d) := by
  unfold k0_pay7
  exact shapeCast_1ab_ab_apply x _ r d

/-- The column block transposed to `[3, 512]`: coordinate `d`, point `c`. -/
theorem pay9_apply (x : Vec Ideal S1x512x3 .f32) (d : Fin 3) (c : Fin 512) :
    k0_pay9 x (ix2 d c) = x (ix3 (0 : Fin 1) c d) := by
  unfold k0_pay9
  refine (transpose_ix2_apply _ _ d c).trans ?_
  exact shapeCast_1ab_ab_apply x _ c d

/-! ## The index a lane sum inserts -/

/-- Summing a `[512, 3]` matrix along its columns: the source index over row `r` at coordinate `d` is `(r, d)`. -/
theorem lift_rows (h : S512x3.Reduces [1] S512) (r : Fin 512) (d : Fin 3) : h.lift (ix1 r) d = ix2 r d := by
  funext a
  match a with
  | ⟨0, _⟩ => rfl
  | ⟨1, _⟩ => rfl

/-- Summing a `[3, 512]` matrix along its rows: the source index over column `c` at coordinate `d` is `(d, c)`. -/
theorem lift_cols (h : S3x512.Reduces [0] S512) (c : Fin 512) (d : Fin 3) : h.lift (ix1 c) d = ix2 d c := by
  funext a
  match a with
  | ⟨0, _⟩ => rfl
  | ⟨1, _⟩ => rfl

/-- The lane sum of a `[512, 3]` matrix along its columns, at row `r`: the sum of the row's three entries. -/
theorem sum_rows (v : FVec Ideal S512x3 .f32) (h : S512x3.Reduces [1] S512) (hφ : FKind.Formats .f32)
    (hacc : (0x00000000#32 : BitVec 32) = FKind.add.neutral .f32 hφ) (r : Fin 512) :
    multiReduction (F := Ideal) .add [1] S512 v 0x00000000#32 h hφ hacc (ix1 r) = ∑ d : Fin 3, v (ix2 r d) := by
  refine (Ideal.multiReduction_add_single v 0x00000000#32 h hφ hacc (ix1 r)).trans ?_
  exact Finset.sum_congr rfl fun d _ => congrArg v (lift_rows h r d)

/-- The lane sum of a `[3, 512]` matrix along its rows, at column `c`: the sum of the column's three entries. -/
theorem sum_cols (v : FVec Ideal S3x512 .f32) (h : S3x512.Reduces [0] S512) (hφ : FKind.Formats .f32)
    (hacc : (0x00000000#32 : BitVec 32) = FKind.add.neutral .f32 hφ) (c : Fin 512) :
    multiReduction (F := Ideal) .add [0] S512 v 0x00000000#32 h hφ hacc (ix1 c) = ∑ d : Fin 3, v (ix2 d c) := by
  refine (Ideal.multiReduction_add_single v 0x00000000#32 h hφ hacc (ix1 c)).trans ?_
  exact Finset.sum_congr rfl fun d _ => congrArg v (lift_cols h c d)

/-! ## Squared norms -/

/-- The row points' squared norms, a column `[512, 1]`. -/
theorem pay10_apply (x : Vec Ideal S1x512x3 .f32) (r : Fin 512) :
    k0_pay10 x (ix2 r (0 : Fin 1)) = Cert.Spec.sq3 (fun d => x (ix3 (0 : Fin 1) r d)) := by
  unfold k0_pay10
  refine (shapeCast_a_a1_apply _ _ r (0 : Fin 1)).trans ?_
  refine (sum_rows _ _ _ _ r).trans ?_
  unfold Cert.Spec.sq3
  refine Finset.sum_congr rfl fun d _ => ?_
  rw [mulf_apply, pay5_apply]

/-- The column points' squared norms, a row `[1, 512]`. -/
theorem pay11_apply (x : Vec Ideal S1x512x3 .f32) (c : Fin 512) :
    k0_pay11 x (ix2 (0 : Fin 1) c) = Cert.Spec.sq3 (fun d => x (ix3 (0 : Fin 1) c d)) := by
  unfold k0_pay11
  refine (shapeCast_a_1a_apply _ _ (0 : Fin 1) c).trans ?_
  refine (sum_cols _ _ _ _ c).trans ?_
  unfold Cert.Spec.sq3
  refine Finset.sum_congr rfl fun d _ => ?_
  rw [mulf_apply, pay9_apply]

/-! ## Coordinate products -/

/-- The first two coordinate products of the inner product of row point `r` and column point `c`. -/
theorem pay12_apply (x0 x1 : Vec Ideal S1x512x3 .f32) (r c : Fin 512) :
    k0_pay12 x0 x1 (ix2 r c)
      = x0 (ix3 (0 : Fin 1) r (0 : Fin 3)) * x1 (ix3 (0 : Fin 1) c (0 : Fin 3))
        + x0 (ix3 (0 : Fin 1) r (1 : Fin 3)) * x1 (ix3 (0 : Fin 1) c (1 : Fin 3)) := by
  unfold k0_pay12
  rw [addf_apply, mulf_apply, mulf_apply,
    broadcastTo_a1_ab_apply, broadcastTo_1b_ab_apply, broadcastTo_a1_ab_apply, broadcastTo_1b_ab_apply,
    slice2_axis1_apply 0 _ _ r (0 : Fin 1) (0 : Fin 3) rfl, slice2_axis0_apply 0 _ _ (0 : Fin 1) c (0 : Fin 3) rfl,
    slice2_axis1_apply 1 _ _ r (0 : Fin 1) (1 : Fin 3) rfl, slice2_axis0_apply 1 _ _ (0 : Fin 1) c (1 : Fin 3) rfl,
    pay5_apply, pay5_apply, pay9_apply, pay9_apply]

/-- The column points' third coordinate, a row `[1, 512]`. -/
theorem pay13_apply (x : Vec Ideal S1x512x3 .f32) (c : Fin 512) :
    k0_pay13 x (ix2 (0 : Fin 1) c) = x (ix3 (0 : Fin 1) c (2 : Fin 3)) := by
  unfold k0_pay13
  rw [slice2_axis0_apply 2 _ _ (0 : Fin 1) c (2 : Fin 3) rfl, pay9_apply]

/-- The row points' third coordinate, broadcast along the columns. -/
theorem pay14_apply (x : Vec Ideal S1x512x3 .f32) (r c : Fin 512) :
    k0_pay14 x (ix2 r c) = x (ix3 (0 : Fin 1) r (2 : Fin 3)) := by
  unfold k0_pay14
  rw [broadcastTo_a1_ab_apply, slice2_axis1_apply 2 _ _ r (0 : Fin 1) (2 : Fin 3) rfl, pay5_apply]

/-! ## The first cloud's distance -/

/-- A root at an index is the root of the element. -/
theorem sqrt_apply {s : Shape} {φ : FTy} (x : FVec Ideal s φ) (i : s.Idx) : sqrt x i = Ideal.sqrt (x i) := rfl

/-- The distance payload at `(r, c)` from its five operands: the guarded root of
    `sq_r + sq_c - 2 · (partial + z_r · z_c)`. -/
theorem pay15_at (v18 : FVec Ideal S512x1 .f32) (v21 : FVec Ideal S1x512 .f32) (v32 : FVec Ideal S512x512 .f32)
    (v34 : FVec Ideal S1x512 .f32) (v35 : FVec Ideal S512x512 .f32) (r c : Fin 512) :
    k0_pay15 v18 v21 v32 v34 v35 (ix2 r c)
      = Cert.Spec.root (v18 (ix2 r (0 : Fin 1)) + v21 (ix2 (0 : Fin 1) c)
          - Ideal.ofBits .f32 0x40000000#32 * (v32 (ix2 r c) + v35 (ix2 r c) * v34 (ix2 (0 : Fin 1) c))) := by
  unfold k0_pay15 Cert.Spec.root
  simp only [select_apply, cmpf_apply, sqrt_apply, maximumf_apply, subf_apply, addf_apply, mulf_apply, broadcast_apply,
    broadcastTo_a1_ab_apply, broadcastTo_1b_ab_apply]
  rfl

/-- The first cloud's payload at `(r, c)`: the distance between row point `r` and column point `c`. -/
theorem pay15_apply (x0 x1 : Vec Ideal S1x512x3 .f32) (r c : Fin 512) :
    k0_pay15 (k0_pay10 x0) (k0_pay11 x1) (k0_pay12 x0 x1) (k0_pay13 x1) (k0_pay14 x0) (ix2 r c)
      = Cert.Spec.dist3 (fun d => x0 (ix3 0 r d)) (fun d => x1 (ix3 0 c d)) := by
  rw [pay15_at, pay10_apply, pay11_apply, pay12_apply, pay13_apply, pay14_apply]
  unfold Cert.Spec.dist3 Cert.Spec.dot3
  rw [Fin.sum_univ_three]

/-! ## The second cloud's squared distance -/

/-- The squared-distance payload at `(r, c)` from its two matrices of points. -/
theorem pay16_at (v10 v12 : FVec Ideal S512x3 .f32) (r c : Fin 512) :
    k0_pay16 v10 v12 (ix2 r c)
      = Cert.Spec.sq3 (fun d => v10 (ix2 r d)) + Cert.Spec.sq3 (fun d => v12 (ix2 c d))
        - Ideal.ofBits .f32 0x40000000#32 * Cert.Spec.dot3 (fun d => v10 (ix2 r d)) (fun d => v12 (ix2 c d)) := by
  have hT : ∀ d : Fin 3, transpose S3x512 [1, 0] v12 transposes_S512x3_p1_0_S3x512 (ix2 d c) = v12 (ix2 c d) :=
    fun d => transpose_ix2_apply v12 _ d c
  have hR := sum_rows (mulf v10 v10) reduces_S512x3_S512 (.inl rfl) rfl r
  have hC := sum_cols (mulf (transpose S3x512 [1, 0] v12 transposes_S512x3_p1_0_S3x512)
    (transpose S3x512 [1, 0] v12 transposes_S512x3_p1_0_S3x512)) reduces_S3x512_S512 (.inl rfl) rfl c
  unfold k0_pay16 Cert.Spec.sq3 Cert.Spec.dot3
  simp only [subf_apply, addf_apply, mulf_apply, broadcast_apply, broadcastTo_a1_ab_apply, broadcastTo_1b_ab_apply,
    shapeCast_a_a1_apply, shapeCast_a_1a_apply,
    slice2_axis1_apply 0 _ _ r (0 : Fin 1) (0 : Fin 3) rfl, slice2_axis0_apply 0 _ _ (0 : Fin 1) c (0 : Fin 3) rfl,
    slice2_axis1_apply 1 _ _ r (0 : Fin 1) (1 : Fin 3) rfl, slice2_axis0_apply 1 _ _ (0 : Fin 1) c (1 : Fin 3) rfl,
    slice2_axis1_apply 2 _ _ r (0 : Fin 1) (2 : Fin 3) rfl, slice2_axis0_apply 2 _ _ (0 : Fin 1) c (2 : Fin 3) rfl]
  rw [hR, hC]
  simp only [mulf_apply, hT, Fin.sum_univ_three]
  rfl

/-- The second cloud's payload at `(r, c)`: `|p|² + |q|² - 2 p·q` for row point `p` and column point `q`, before the
    clamp and the root. -/
theorem pay16_apply (x2 x3 : Vec Ideal S1x512x3 .f32) (r c : Fin 512) :
    k0_pay16 (k0_pay6 x2) (k0_pay7 x3) (ix2 r c)
      = Cert.Spec.sq3 (fun d => x2 (ix3 0 r d)) + Cert.Spec.sq3 (fun d => x3 (ix3 0 c d))
        - Ideal.ofBits .f32 0x40000000#32 * Cert.Spec.dot3 (fun d => x2 (ix3 0 r d)) (fun d => x3 (ix3 0 c d)) := by
  rw [pay16_at]
  simp only [pay6_apply, pay7_apply]

end Cert.KernelIdeal.StepValue

end
-- ==== Proof.KIdeal.AccValue.lean ====
/-
  The kernel's accumulator updates, copies and block casts read at one index, over the extended reals.
  A tile's total is taken in two stages: each row is summed over its columns, the column of row sums is summed
  over the rows, and the one number so obtained is laid along the 128 lanes and added to the accumulator's old
  contents. Here each of these is read at an index given by its coordinates: the first accumulator's new value
  at a lane is the old value plus the sum over the tile's rows and columns of the squared weighted difference
  of the two distances, the second's the old value plus the sum of the weights; the cleared accumulators are
  zero on every lane; the copy into a result window and the casts of the loaded blocks read the same element
  with a unit coordinate added or dropped.
-/
import proofs.«168659_j5179730559712_1_alg».proof.Proof.KIdeal.Steps
import proofs.«168659_j5179730559712_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.AccStep

open Cert.KernelIdeal Cert.KernelIdeal.Gen Cert.KernelIdeal.Frame Idealize.ShloMosaic Idealize.ShloMosaic.ValueIdx

/-! ## Layout operations of the keepdims forms, read at coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A sum along one axis of a matrix, as the sum over that axis's coordinate -/

/-- Over a matrix summed along its columns, the source index above row `j` with column `k` inserted is `(j, k)`. -/
theorem lift_axis1 {a b : ℕ} (h : (⟨2, ![a, b]⟩ : Shape).Reduces [1] ⟨1, ![a]⟩) (j : Fin a) (k : Fin b) :
    h.lift (ix1 j) k = ix2 j k := by
  funext c
  match c with
  | ⟨0, _⟩ => exact Fin.ext rfl
  | ⟨1, _⟩ => exact Fin.ext rfl

/-- Over a matrix summed along its rows, the source index above column `j` with row `k` inserted is `(k, j)`. -/
theorem lift_axis0 {a b : ℕ} (h : (⟨2, ![a, b]⟩ : Shape).Reduces [0] ⟨1, ![b]⟩) (j : Fin b) (k : Fin a) :
    h.lift (ix1 j) k = ix2 k j := by
  funext c
  match c with
  | ⟨0, _⟩ => exact Fin.ext rfl
  | ⟨1, _⟩ => exact Fin.ext rfl

/-- A matrix summed along its columns reads, at row `j`, the sum of that row's entries. -/
theorem reduce_axis1_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (j : Fin a) :
    multiReduction (F := Ideal) .add [1] ⟨1, ![a]⟩ src acc h hφ hacc (ix1 j) = ∑ k : Fin b, src (ix2 j k) := by
  refine (Ideal.multiReduction_add_single src acc h hφ hacc (ix1 j)).trans ?_
  exact Finset.sum_congr rfl fun k _ => congrArg src (lift_axis1 h j k)

/-- A matrix summed along its rows reads, at column `j`, the sum of that column's entries. -/
theorem reduce_axis0_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ) (j : Fin b) :
    multiReduction (F := Ideal) .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (lift_axis0 h j k)

/-! ## A tile's total, laid along the lanes -/

/-- The two-stage total of a 512 × 512 array — rows summed over their columns, the row sums summed over the rows —
    laid along the 128 lanes reads, at every lane, the sum of the array over its rows and columns. -/
theorem total_apply (w : FVec Ideal S512x512 .f32) (hφ : FKind.Formats .f32)
    (hacc : (0x00000000#32 : BitVec 32) = FKind.add.neutral .f32 hφ) (l : Fin 128) :
    broadcastTo S1x128
        (shapeCast S1x1
          (shapeCast S1x1
            (multiReduction (F := Ideal) .add [0] S1
              (shapeCast S512x1 (multiReduction (F := Ideal) .add [1] S512 w 0x00000000#32 reduces_S512x512_S512 hφ hacc)
                shapeCasts_S512_S512x1)
              0x00000000#32 reduces_S512x1_S1 hφ hacc)
            shapeCasts_S1_S1x1)
          shapeCasts_S1x1_S1x1)
        broadcasts_S1x1_S1x128 (ix2 0 l)
      = ∑ r : Fin 512, ∑ c : Fin 512, w (ix2 r c) := by
  refine (broadcastTo_a1_ab_apply _ broadcasts_S1x1_S1x128 0 l).trans ?_
  rw [shapeCast_self]
  refine (shapeCast_a_a1_apply _ shapeCasts_S1_S1x1 0 0).trans ?_
  refine (reduce_axis0_apply _ _ reduces_S512x1_S1 hφ hacc 0).trans ?_
  refine Finset.sum_congr rfl fun r _ => ?_
  refine (shapeCast_a_a1_apply _ shapeCasts_S512_S512x1 r 0).trans ?_
  exact reduce_axis1_apply w _ reduces_S512x512_S512 hφ hacc r

/-! ## The two accumulators after a tile -/

/-- The second accumulator after a tile: on every lane the old value plus the sum of the tile's weights. -/
theorem pay18_apply (v14 : FVec Ideal S512x512 .f32) (s : Vec Ideal S1x128 .f32) (l : Fin 128) :
    k0_pay18 v14 s (ix2 0 l) = s (ix2 0 l) + ∑ r : Fin 512, ∑ c : Fin 512, v14 (ix2 r c) := by
  unfold k0_pay18
  rw [shapeCast_self]
  exact congrArg (s (ix2 0 l) + ·) (total_apply v14 _ _ l)

/-- The first accumulator after a tile: on every lane the old value plus the sum, over the tile's rows and columns, of
    the square of the weighted difference between the first distance and the root of the second squared distance. -/
theorem pay17_apply (v14 v55 v85 : FVec Ideal S512x512 .f32) (s : Vec Ideal S1x128 .f32) (l : Fin 128) :
    k0_pay17 v14 v55 v85 (Scalar.ofBits .f32 0x00000000#32) s (ix2 0 l)
      = s (ix2 0 l) + ∑ r : Fin 512, ∑ c : Fin 512,
          (v55 (ix2 r c) - Cert.Spec.root (v85 (ix2 r c))) * v14 (ix2 r c)
            * ((v55 (ix2 r c) - Cert.Spec.root (v85 (ix2 r c))) * v14 (ix2 r c)) := by
  unfold k0_pay17
  rw [shapeCast_self]
  refine (congrArg (s (ix2 0 l) + ·) (total_apply _ _ _ l)).trans ?_
  refine congrArg (s (ix2 0 l) + ·) ?_
  refine Finset.sum_congr rfl fun r _ => Finset.sum_congr rfl fun c _ => ?_
  unfold Cert.Spec.root
  rfl

/-! ## The cleared accumulators -/

/-- The first accumulator cleared: zero on every lane. -/
theorem pay3_apply (l : Fin 128) : k0_pay3 (F := Ideal) (ix2 0 l) = 0 := by
  unfold k0_pay3
  rw [shapeCast_self]
  exact Ideal.ofBits_zero_f32

/-- The second accumulator cleared: zero on every lane. -/
theorem pay4_apply (l : Fin 128) : k0_pay4 (F := Ideal) (ix2 0 l) = 0 := by
  unfold k0_pay4
  rw [shapeCast_self]
  exact Ideal.ofBits_zero_f32

/-! ## The copies into the result windows and the casts of the loaded blocks -/

/-- The first accumulator copied into its result window: lane `l` of the window's one row is lane `l`. -/
theorem pay1_apply (v : Vec Ideal S1x128 .f32) (l : Fin 128) : k0_pay1 v (ix3 0 0 l) = v (ix2 0 l) := by
  unfold k0_pay1
  exact shapeCast_ab_1ab_apply v shapeCasts_S1x128_S1x1x128 0 0 l

/-- The second accumulator copied into its result window likewise. -/
theorem pay2_apply (v : Vec Ideal S1x128 .f32) (l : Fin 128) : k0_pay2 v (ix3 0 0 l) = v (ix2 0 l) := by
  unfold k0_pay2
  exact shapeCast_ab_1ab_apply v shapeCasts_S1x128_S1x1x128 0 0 l

/-- A loaded block of points with its leading unit axis dropped: point `r`, coordinate `d`. -/
theorem pay6_apply (x : Vec Ideal S1x512x3 .f32) (r : Fin 512) (d : Fin 3) : k0_pay6 x (ix2 r d) = x (ix3 0 r d) := by
  unfold k0_pay6
  exact shapeCast_1ab_ab_apply x shapeCasts_S1x512x3_S512x3 r d

/-- The other cloud's block of column points likewise. -/
theorem pay7_apply (x : Vec Ideal S1x512x3 .f32) (r : Fin 512) (d : Fin 3) : k0_pay7 x (ix2 r d) = x (ix3 0 r d) := by
  unfold k0_pay7
  exact shapeCast_1ab_ab_apply x shapeCasts_S1x512x3_S512x3 r d

/-- The loaded block of weights with its leading unit axis dropped: row `r`, column `c`. -/
theorem pay8_apply (x4 : Vec Ideal S1x512x512 .f32) (r c : Fin 512) : k0_pay8 x4 (ix2 r c) = x4 (ix3 0 r c) := by
  unfold k0_pay8
  exact shapeCast_1ab_ab_apply x4 shapeCasts_S1x512x512_S512x512 r c

end Cert.KernelIdeal.AccStep

end
-- ==== Proof.KIdeal.BlockRead.lean ====
/-
  An entry of a window's block is the array's entry at the point's batch, tile and offset: at point `t` (batch
  `t / 16`, row tile `(t / 4) % 4`, column tile `t % 4`) row `r` of a point-cloud window's block is point
  `tile * 512 + r` of the batch, the tile being the row tile for the first window on each cloud and the column tile
  for the second; entry `(r, c')` of the weight window's block is entry `(row tile * 512 + r, column tile * 512 + c')`.
-/
import proofs.«168659_j5179730559712_1_alg».proof.Proof.KIdeal.Blocks
import proofs.«168659_j5179730559712_1_alg».proof.Proof.Spec
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## A point's batch and tiles -/

/-- The batch of a point. -/
def batchOf (t : Fin cfg0.N) : Fin 8 := ⟨t.val / 16, by have := t.isLt; have : cfg0.N = 128 := N_0; omega⟩
/-- Its row tile. -/
def rowTile (t : Fin cfg0.N) : Fin 4 := ⟨(t.val / 4) % 4, by omega⟩
/-- Its column tile. -/
def colTile (t : Fin cfg0.N) : Fin 4 := ⟨t.val % 4, by omega⟩

/-! ## The index maps, decided over the grid -/

/-- Window 0's block index: batch, row tile, 0. -/
theorem idx0 : ∀ t : Fin cfg0.N, win0_0.index t (0 : Fin 3) = t.val / 16 ∧ win0_0.index t (1 : Fin 3) = (t.val / 4) % 4
    ∧ win0_0.index t (2 : Fin 3) = 0 :=
  (by decide +kernel : ∀ t : Fin grid0.N, win0_0.index t (0 : Fin 3) = t.val / 16 ∧ win0_0.index t (1 : Fin 3) = (t.val / 4) % 4
    ∧ win0_0.index t (2 : Fin 3) = 0)

/-- Window 1's block index: batch, column tile, 0. -/
theorem idx1 : ∀ t : Fin cfg0.N, win0_1.index t (0 : Fin 3) = t.val / 16 ∧ win0_1.index t (1 : Fin 3) = t.val % 4
    ∧ win0_1.index t (2 : Fin 3) = 0 :=
  (by decide +kernel : ∀ t : Fin grid0.N, win0_1.index t (0 : Fin 3) = t.val / 16 ∧ win0_1.index t (1 : Fin 3) = t.val % 4
    ∧ win0_1.index t (2 : Fin 3) = 0)

/-- Window 2's block index: batch, row tile, 0. -/
theorem idx2 : ∀ t : Fin cfg0.N, win0_2.index t (0 : Fin 3) = t.val / 16 ∧ win0_2.index t (1 : Fin 3) = (t.val / 4) % 4
    ∧ win0_2.index t (2 : Fin 3) = 0 :=
  (by decide +kernel : ∀ t : Fin grid0.N, win0_2.index t (0 : Fin 3) = t.val / 16 ∧ win0_2.index t (1 : Fin 3) = (t.val / 4) % 4
    ∧ win0_2.index t (2 : Fin 3) = 0)

/-- Window 3's block index: batch, column tile, 0. -/
theorem idx3 : ∀ t : Fin cfg0.N, win0_3.index t (0 : Fin 3) = t.val / 16 ∧ win0_3.index t (1 : Fin 3) = t.val % 4
    ∧ win0_3.index t (2 : Fin 3) = 0 :=
  (by decide +kernel : ∀ t : Fin grid0.N, win0_3.index t (0 : Fin 3) = t.val / 16 ∧ win0_3.index t (1 : Fin 3) = t.val % 4
    ∧ win0_3.index t (2 : Fin 3) = 0)

/-- Window 4's block index: batch, row tile, column tile. -/
theorem idx4 : ∀ t : Fin cfg0.N, win0_4.index t (0 : Fin 3) = t.val / 16 ∧ win0_4.index t (1 : Fin 3) = (t.val / 4) % 4
    ∧ win0_4.index t (2 : Fin 3) = t.val % 4 :=
  (by decide +kernel : ∀ t : Fin grid0.N, win0_4.index t (0 : Fin 3) = t.val / 16 ∧ win0_4.index t (1 : Fin 3) = (t.val / 4) % 4
    ∧ win0_4.index t (2 : Fin 3) = t.val % 4)

/-! ## The blocks' entries

On each axis an entry of a block sits in the array at the block index times the block's extent plus its own
coordinate: the batch axis has extent 1, a tiled axis extent 512, and the coordinate axis of a point cloud is whole
(block index 0). -/

/-- Row `r`, coordinate `d` of window 0's block: point `r` of the row tile, in the first cloud. -/
theorem iblk_0 (c : Dev nD) (t : Fin cfg0.N) (r : Fin 512) (d : Fin 3) :
    iblk m c 0 t (ix3 0 r d) = m ((c : Thread nD τ).loc main_arg0) (ix3 (batchOf t) (Cert.Spec.at512 (rowTile t) r) d) := by
  obtain ⟨e0, e1, e2⟩ := idx0 t
  show V m c main_arg0 (((cfg0.win 0).blk t).view.emb (ix3 0 r d)) = _
  refine congrArg (m ((c : Thread nD τ).loc main_arg0)) ?_
  funext a; apply Fin.ext
  match a with
  | ⟨0, _⟩ => show win0_0.index t (0 : Fin 3) * 1 + 1 * (0 : Fin 1).val = t.val / 16; omega
  | ⟨1, _⟩ => show win0_0.index t (1 : Fin 3) * 512 + 1 * r.val = ((t.val / 4) % 4) * 512 + r.val; omega
  | ⟨2, _⟩ => show win0_0.index t (2 : Fin 3) * 3 + 1 * d.val = d.val; omega

/-- Row `r`, coordinate `d` of window 1's block: point `r` of the column tile, in the first cloud. -/
theorem iblk_1 (c : Dev nD) (t : Fin cfg0.N) (r : Fin 512) (d : Fin 3) :
    iblk m c 1 t (ix3 0 r d) = m ((c : Thread nD τ).loc main_arg0) (ix3 (batchOf t) (Cert.Spec.at512 (colTile t) r) d) := by
  obtain ⟨e0, e1, e2⟩ := idx1 t
  show V m c main_arg0 (((cfg0.win 1).blk t).view.emb (ix3 0 r d)) = _
  refine congrArg (m ((c : Thread nD τ).loc main_arg0)) ?_
  funext a; apply Fin.ext
  match a with
  | ⟨0, _⟩ => show win0_1.index t (0 : Fin 3) * 1 + 1 * (0 : Fin 1).val = t.val / 16; omega
  | ⟨1, _⟩ => show win0_1.index t (1 : Fin 3) * 512 + 1 * r.val = (t.val % 4) * 512 + r.val; omega
  | ⟨2, _⟩ => show win0_1.index t (2 : Fin 3) * 3 + 1 * d.val = d.val; omega

/-- Row `r`, coordinate `d` of window 2's block: point `r` of the row tile, in the second cloud. -/
theorem iblk_2 (c : Dev nD) (t : Fin cfg0.N) (r : Fin 512) (d : Fin 3) :
    iblk m c 2 t (ix3 0 r d) = m ((c : Thread nD τ).loc main_arg1) (ix3 (batchOf t) (Cert.Spec.at512 (rowTile t) r) d) := by
  obtain ⟨e0, e1, e2⟩ := idx2 t
  show V m c main_arg1 (((cfg0.win 2).blk t).view.emb (ix3 0 r d)) = _
  refine congrArg (m ((c : Thread nD τ).loc main_arg1)) ?_
  funext a; apply Fin.ext
  match a with
  | ⟨0, _⟩ => show win0_2.index t (0 : Fin 3) * 1 + 1 * (0 : Fin 1).val = t.val / 16; omega
  | ⟨1, _⟩ => show win0_2.index t (1 : Fin 3) * 512 + 1 * r.val = ((t.val / 4) % 4) * 512 + r.val; omega
  | ⟨2, _⟩ => show win0_2.index t (2 : Fin 3) * 3 + 1 * d.val = d.val; omega

/-- Row `r`, coordinate `d` of window 3's block: point `r` of the column tile, in the second cloud. -/
theorem iblk_3 (c : Dev nD) (t : Fin cfg0.N) (r : Fin 512) (d : Fin 3) :
    iblk m c 3 t (ix3 0 r d) = m ((c : Thread nD τ).loc main_arg1) (ix3 (batchOf t) (Cert.Spec.at512 (colTile t) r) d) := by
  obtain ⟨e0, e1, e2⟩ := idx3 t
  show V m c main_arg1 (((cfg0.win 3).blk t).view.emb (ix3 0 r d)) = _
  refine congrArg (m ((c : Thread nD τ).loc main_arg1)) ?_
  funext a; apply Fin.ext
  match a with
  | ⟨0, _⟩ => show win0_3.index t (0 : Fin 3) * 1 + 1 * (0 : Fin 1).val = t.val / 16; omega
  | ⟨1, _⟩ => show win0_3.index t (1 : Fin 3) * 512 + 1 * r.val = (t.val % 4) * 512 + r.val; omega
  | ⟨2, _⟩ => show win0_3.index t (2 : Fin 3) * 3 + 1 * d.val = d.val; omega

/-- Entry `(r, c')` of window 4's block: the weight of point `r` of the row tile and point `c'` of the column tile. -/
theorem iblk_4 (c : Dev nD) (t : Fin cfg0.N) (r c' : Fin 512) :
    iblk m c 4 t (ix3 0 r c') = m ((c : Thread nD τ).loc main_arg2)
      (ix3 (batchOf t) (Cert.Spec.at512 (rowTile t) r) (Cert.Spec.at512 (colTile t) c')) := by
  obtain ⟨e0, e1, e2⟩ := idx4 t
  show V m c main_arg2 (((cfg0.win 4).blk t).view.emb (ix3 0 r c')) = _
  refine congrArg (m ((c : Thread nD τ).loc main_arg2)) ?_
  funext a; apply Fin.ext
  match a with
  | ⟨0, _⟩ => show win0_4.index t (0 : Fin 3) * 1 + 1 * (0 : Fin 1).val = t.val / 16; omega
  | ⟨1, _⟩ => show win0_4.index t (1 : Fin 3) * 512 + 1 * r.val = ((t.val / 4) % 4) * 512 + r.val; omega
  | ⟨2, _⟩ => show win0_4.index t (2 : Fin 3) * 512 + 1 * c'.val = (t.val % 4) * 512 + c'.val; omega

end Cert.KernelIdeal.Frame

end
-- ==== Proof.KIdeal.Accumulate.lean ====
/-
  The accumulators as sums, at the exact instance. After point `n` each accumulator holds, on every lane, the sum of
  its tile addends over the tiles of the batch visited so far: the run of points from the batch's first tile `16·(n/16)`
  to `n`. At the batch's last tile that is the whole batch's sum, tile by tile, and it is what is copied into the result
  window. A tile's addend is its blocks' double sum, and the blocks' entries are the arrays' entries at the tile's rows
  and columns, so the addend is the specification's per-tile sum.
-/
import proofs.«168659_j5179730559712_1_alg».proof.Proof.KIdeal.Steps
import proofs.«168659_j5179730559712_1_alg».proof.Proof.KIdeal.DistValue
import proofs.«168659_j5179730559712_1_alg».proof.Proof.KIdeal.AccValue
import proofs.«168659_j5179730559712_1_alg».proof.Proof.KIdeal.BlockRead
import proofs.«168659_j5179730559712_1_alg».proof.Proof.Spec
import Idealize.ShloMosaic.Lib.Pipeline.Value
import Idealize.ShloMosaic.Lib.ValueIdx

set_option maxRecDepth 16384

noncomputable section

namespace Cert.KernelIdeal.Accumulate

open Cert.KernelIdeal Cert.KernelIdeal.Gen Cert.KernelIdeal.Frame Cert.KernelIdeal.StepValue Cert.KernelIdeal.AccStep
open Idealize.ShloMosaic Idealize.ShloMosaic.TcCoe Idealize.ShloMosaic.ValueIdx
open Idealize.SL.Sem

variable (m : (ℓ : Loc nD τ sig) → Buf (Elt Ideal) ℓ)

/-- The two point clouds and the weights, as the region finds them on core `c`. -/
abbrev ptsX (c : Dev nD) : Cert.Spec.Pts := m ((c : Thread nD τ).loc main_arg0)
abbrev ptsY (c : Dev nD) : Cert.Spec.Pts := m ((c : Thread nD τ).loc main_arg1)
abbrev wts (c : Dev nD) : Cert.Spec.Adj := m ((c : Thread nD τ).loc main_arg2)

/-! ## One tile's step, lane by lane -/

/-- The first accumulator's step: the old lane plus the tile's sum of squared weighted distance differences. -/
theorem stepNum_apply (x0 x1 x2 x3 : Vec Ideal S1x512x3 .f32) (x4 : Vec Ideal S1x512x512 .f32) (s : Vec Ideal S1x128 .f32) (l : Fin 128) :
    stepNum x0 x1 x2 x3 x4 s (ix2 0 l) = s (ix2 0 l) + ∑ r : Fin 512, ∑ c : Fin 512,
      Cert.Spec.term3 (fun d => x0 (ix3 0 r d)) (fun d => x1 (ix3 0 c d)) (fun d => x2 (ix3 0 r d)) (fun d => x3 (ix3 0 c d)) (x4 (ix3 0 r c)) := by
  unfold stepNum
  rw [pay17_apply]
  refine congrArg (s (ix2 0 l) + ·) (Finset.sum_congr rfl fun r _ => Finset.sum_congr rfl fun c _ => ?_)
  rw [pay15_apply, pay16_apply, pay8_apply]
  rfl

/-- The second accumulator's step: the old lane plus the tile's sum of weights. -/
theorem stepDen_apply (x4 : Vec Ideal S1x512x512 .f32) (s : Vec Ideal S1x128 .f32) (l : Fin 128) :
    stepDen x4 s (ix2 0 l) = s (ix2 0 l) + ∑ r : Fin 512, ∑ c : Fin 512, x4 (ix3 0 r c) := by
  unfold stepDen
  rw [pay18_apply]
  refine congrArg (s (ix2 0 l) + ·) (Finset.sum_congr rfl fun r _ => Finset.sum_congr rfl fun c _ => ?_)
  rw [pay8_apply]

/-- A lane index of an accumulator is `(0, l)`. -/
theorem lane_ex (i : S1x128.Idx) : ∃ l : Fin 128, i = ix2 0 l := by
  refine ⟨i 1, ?_⟩
  have h0 : (show Fin 1 from i 0) = 0 := Fin.fin_one_eq_zero _
  exact (eq_ix2 i).trans (congrArg (fun a : Fin 1 => ix2 a (show Fin 128 from i 1)) h0)

/-! ## A tile's addends are the specification's per-tile sums -/

/-- The numerator's addend at point `n` (zero past the grid, where it is never used). -/
def addNum (c : Dev nD) (n : ℕ) : EReal :=
  if h : n < cfg0.N then
    Cert.Spec.tileNum (ptsX m c) (ptsY m c) (wts m c) (batchOf ⟨n, h⟩) (rowTile ⟨n, h⟩) (colTile ⟨n, h⟩)
  else 0
/-- The denominator's. -/
def addDen (c : Dev nD) (n : ℕ) : EReal :=
  if h : n < cfg0.N then Cert.Spec.tileDen (wts m c) (batchOf ⟨n, h⟩) (rowTile ⟨n, h⟩) (colTile ⟨n, h⟩) else 0

theorem blocks_num (c : Dev nD) (t : Fin cfg0.N) :
    (∑ r : Fin 512, ∑ c' : Fin 512,
      Cert.Spec.term3 (fun d => iblk m c 0 t (ix3 0 r d)) (fun d => iblk m c 1 t (ix3 0 c' d)) (fun d => iblk m c 2 t (ix3 0 r d)) (fun d => iblk m c 3 t (ix3 0 c' d)) (iblk m c 4 t (ix3 0 r c')))
      = addNum m c t.val := by
  unfold addNum; rw [dif_pos t.isLt]
  unfold Cert.Spec.tileNum
  refine Finset.sum_congr rfl fun r _ => Finset.sum_congr rfl fun c' _ => ?_
  rw [Cert.Spec.term_eq]
  simp only [iblk_0, iblk_1, iblk_2, iblk_3, iblk_4]

/-- The weights' block at point `t`, at its literal type. -/
abbrev wblk (c : Dev nD) (t : Fin cfg0.N) : Vec Ideal S1x512x512 .f32 := iblk m c 4 t

theorem blocks_den (c : Dev nD) (t : Fin cfg0.N) :
    (∑ r : Fin 512, ∑ c' : Fin 512, wblk m c t (ix3 0 r c')) = addDen m c t.val := by
  unfold addDen; rw [dif_pos t.isLt]
  unfold Cert.Spec.tileDen
  refine Finset.sum_congr rfl fun r _ => Finset.sum_congr rfl fun c' _ => ?_
  exact iblk_4 m c t r c'

/-! ## The accumulators after each point -/

/-- The first accumulator after point `n`. -/
abbrev num (c : Dev nD) (n : ℕ) (h : n < cfg0.N) : S1x128.Idx → EReal := (outsAt0 m c n h).2.2.1
/-- The second. -/
abbrev den (c : Dev nD) (n : ℕ) (h : n < cfg0.N) : S1x128.Idx → EReal := (outsAt0 m c n h).2.2.2

/-- The blocks of point `⟨n, h⟩`, and the steps at them. -/
abbrev resetNum (c : Dev nD) (n : ℕ) (h : n < cfg0.N) : S1x128.Idx → EReal :=
  stepNum (iblk m c 0 ⟨n, h⟩) (iblk m c 1 ⟨n, h⟩) (iblk m c 2 ⟨n, h⟩) (iblk m c 3 ⟨n, h⟩) (iblk m c 4 ⟨n, h⟩) (k0_pay3 (F := Ideal))
abbrev goNum (c : Dev nD) (n : ℕ) (h : n < cfg0.N) (s : S1x128.Idx → EReal) : S1x128.Idx → EReal :=
  stepNum (iblk m c 0 ⟨n, h⟩) (iblk m c 1 ⟨n, h⟩) (iblk m c 2 ⟨n, h⟩) (iblk m c 3 ⟨n, h⟩) (iblk m c 4 ⟨n, h⟩) s
abbrev resetDen (c : Dev nD) (n : ℕ) (h : n < cfg0.N) : S1x128.Idx → EReal :=
  stepDen (iblk m c 4 ⟨n, h⟩) (k0_pay4 (F := Ideal))
abbrev goDen (c : Dev nD) (n : ℕ) (h : n < cfg0.N) (s : S1x128.Idx → EReal) : S1x128.Idx → EReal :=
  stepDen (iblk m c 4 ⟨n, h⟩) s

theorem num_reset (c : Dev nD) (n : ℕ) (h : n < cfg0.N) (h0 : n % 16 = 0) : num m c n h = resetNum m c n h := by
  have e := outsAt0_first m c ⟨n, h⟩ h0 (by dsimp only; omega)
  dsimp only at e
  unfold num; rw [e]; dsimp only
  exact accFirst0_eq c _ _ _ _ _ _ _ _ _ _ _ _ _ _ _ _ _ _ _ _ _ _ _ _ _ _

theorem den_reset (c : Dev nD) (n : ℕ) (h : n < cfg0.N) (h0 : n % 16 = 0) : den m c n h = resetDen m c n h := by
  have e := outsAt0_first m c ⟨n, h⟩ h0 (by dsimp only; omega)
  dsimp only at e
  unfold den; rw [e]; dsimp only
  exact accFirst1_eq c _ _ _ _ _ _ _ _ _ _ _ _ _ _ _ _ _ _ _ _ _ _ _ _ _ _

theorem num_step (c : Dev nD) (n : ℕ) (h : n + 1 < cfg0.N) (h0 : ¬(n + 1) % 16 = 0) :
    num m c (n + 1) h = goNum m c (n + 1) h (num m c n (Nat.lt_of_succ_lt h)) := by
  unfold num
  by_cases h1 : (n + 1) % 16 = 15
  · have e := outsAt0_last m c ⟨n + 1, h⟩ h0 h1
    dsimp only at e
    rw [e]; dsimp only
    exact accLast0_eq c _ _ _ _ _ _ _ _ _ _ _ _ _ _ _ _ _ _ _ _ _ _ _ _ _ _ _ _
  · have e := outsAt0_mid m c ⟨n + 1, h⟩ h0 h1
    dsimp only at e
    rw [e]; dsimp only
    exact accMid0_eq c _ _ _ _ _ _ _ _ _ _ _ _ _ _ _ _ _ _ _ _ _ _ _ _ _ _ _ _

theorem den_step (c : Dev nD) (n : ℕ) (h : n + 1 < cfg0.N) (h0 : ¬(n + 1) % 16 = 0) :
    den m c (n + 1) h = goDen m c (n + 1) h (den m c n (Nat.lt_of_succ_lt h)) := by
  unfold den
  by_cases h1 : (n + 1) % 16 = 15
  · have e := outsAt0_last m c ⟨n + 1, h⟩ h0 h1
    dsimp only at e
    rw [e]; dsimp only
    exact accLast1_eq c _ _ _ _ _ _ _ _ _ _ _ _ _ _ _ _ _ _ _ _ _ _ _ _ _ _ _ _
  · have e := outsAt0_mid m c ⟨n + 1, h⟩ h0 h1
    dsimp only at e
    rw [e]; dsimp only
    exact accMid1_eq c _ _ _ _ _ _ _ _ _ _ _ _ _ _ _ _ _ _ _ _ _ _ _ _ _ _ _ _

/-- The first accumulator after point `t`, on every lane: the addends of the batch's tiles up to `t`. -/
theorem num_eq (c : Dev nD) (t : ℕ) (ht : t < cfg0.N) (i : S1x128.Idx) :
    num m c t ht i = 0 + ∑ s ∈ Finset.range (t % 16 + 1), addNum m c (16 * (t / 16) + s) := by
  have hN : cfg0.N = 128 := N_0
  have h' : 16 * (t / 16) + t % 16 < cfg0.N := by omega
  rw [Pipeline.eq_accAt_of_mod (num m c) 16 (resetNum m c) (goNum m c) (num_reset m c) (num_step m c) (by decide) t ht h']
  refine Pipeline.accAt_add_apply (resetNum m c) (goNum m c) (fun _ => (0 : EReal)) (fun n _ => addNum m c n) (16 * (t / 16)) 15 ?_ ?_ (t % 16) (by omega) h' i
  · intro h i
    obtain ⟨l, rfl⟩ := lane_ex i
    show stepNum (F := Ideal) _ _ _ _ _ _ (ix2 0 l) = _
    rw [stepNum_apply, pay3_apply]
    exact congrArg (0 + ·) (blocks_num m c ⟨_, h⟩)
  · intro n h acc i _ _
    obtain ⟨l, rfl⟩ := lane_ex i
    show stepNum (F := Ideal) _ _ _ _ _ acc (ix2 0 l) = _
    rw [stepNum_apply]
    exact congrArg (acc (ix2 0 l) + ·) (blocks_num m c ⟨n, h⟩)

/-- The second accumulator likewise. -/
theorem den_eq (c : Dev nD) (t : ℕ) (ht : t < cfg0.N) (i : S1x128.Idx) :
    den m c t ht i = 0 + ∑ s ∈ Finset.range (t % 16 + 1), addDen m c (16 * (t / 16) + s) := by
  have hN : cfg0.N = 128 := N_0
  have h' : 16 * (t / 16) + t % 16 < cfg0.N := by omega
  rw [Pipeline.eq_accAt_of_mod (den m c) 16 (resetDen m c) (goDen m c) (den_reset m c) (den_step m c) (by decide) t ht h']
  refine Pipeline.accAt_add_apply (resetDen m c) (goDen m c) (fun _ => (0 : EReal)) (fun n _ => addDen m c n) (16 * (t / 16)) 15 ?_ ?_ (t % 16) (by omega) h' i
  · intro h i
    obtain ⟨l, rfl⟩ := lane_ex i
    show stepDen (F := Ideal) _ _ (ix2 0 l) = _
    rw [stepDen_apply, pay4_apply]
    exact congrArg (0 + ·) (blocks_den m c ⟨_, h⟩)
  · intro n h acc i _ _
    obtain ⟨l, rfl⟩ := lane_ex i
    show stepDen (F := Ideal) _ acc (ix2 0 l) = _
    rw [stepDen_apply]
    exact congrArg (acc (ix2 0 l) + ·) (blocks_den m c ⟨n, h⟩)

/-! ## At a batch's last tile: the whole batch -/

/-- The last point of batch `b`. -/
def lastPt (b : Fin 8) : Fin cfg0.N := ⟨16 * b.val + 15, by have := b.isLt; have : cfg0.N = 128 := N_0; omega⟩

/-- The tile addends of a batch, in the order visited, are the specification's tiles in row-major order. -/
theorem addNum_tile (c : Dev nD) (b : Fin 8) (u : Fin 16) :
    addNum m c (16 * b.val + u.val) = Cert.Spec.tileNum (ptsX m c) (ptsY m c) (wts m c) b (Cert.Spec.tileRow u) (Cert.Spec.tileCol u) := by
  have hN : cfg0.N = 128 := N_0
  have hb := b.isLt; have hu := u.isLt
  unfold addNum; rw [dif_pos (by omega)]
  congr 1
  · exact Fin.ext (by show (16 * b.val + u.val) / 16 = b.val; omega)
  · exact Fin.ext (by show ((16 * b.val + u.val) / 4) % 4 = u.val / 4; omega)
  · exact Fin.ext (by show (16 * b.val + u.val) % 4 = u.val % 4; omega)

theorem addDen_tile (c : Dev nD) (b : Fin 8) (u : Fin 16) :
    addDen m c (16 * b.val + u.val) = Cert.Spec.tileDen (wts m c) b (Cert.Spec.tileRow u) (Cert.Spec.tileCol u) := by
  have hN : cfg0.N = 128 := N_0
  have hb := b.isLt; have hu := u.isLt
  unfold addDen; rw [dif_pos (by omega)]
  congr 1
  · exact Fin.ext (by show (16 * b.val + u.val) / 16 = b.val; omega)
  · exact Fin.ext (by show ((16 * b.val + u.val) / 4) % 4 = u.val / 4; omega)
  · exact Fin.ext (by show (16 * b.val + u.val) % 4 = u.val % 4; omega)

/-- After a batch's last tile the first accumulator holds, on every lane, the batch's numerator tile by tile. -/
theorem num_last (c : Dev nD) (b : Fin 8) (i : S1x128.Idx) :
    num m c (lastPt b).val (lastPt b).isLt i
      = ∑ u : Fin 16, Cert.Spec.tileNum (ptsX m c) (ptsY m c) (wts m c) b (Cert.Spec.tileRow u) (Cert.Spec.tileCol u) := by
  have hb := b.isLt
  rw [num_eq, zero_add]
  have e1 : (lastPt b).val % 16 + 1 = 16 := by show (16 * b.val + 15) % 16 + 1 = 16; omega
  have e2 : 16 * ((lastPt b).val / 16) = 16 * b.val := by show 16 * ((16 * b.val + 15) / 16) = 16 * b.val; omega
  rw [e1, e2, Finset.sum_range]
  exact Finset.sum_congr rfl fun u _ => addNum_tile m c b u

theorem den_last (c : Dev nD) (b : Fin 8) (i : S1x128.Idx) :
    den m c (lastPt b).val (lastPt b).isLt i
      = ∑ u : Fin 16, Cert.Spec.tileDen (wts m c) b (Cert.Spec.tileRow u) (Cert.Spec.tileCol u) := by
  have hb := b.isLt
  rw [den_eq, zero_add]
  have e1 : (lastPt b).val % 16 + 1 = 16 := by show (16 * b.val + 15) % 16 + 1 = 16; omega
  have e2 : 16 * ((lastPt b).val / 16) = 16 * b.val := by show 16 * ((16 * b.val + 15) / 16) = 16 * b.val; omega
  rw [e1, e2, Finset.sum_range]
  exact Finset.sum_congr rfl fun u _ => addDen_tile m c b u

/-- What the batch's last tile copies into the first result window: the first accumulator, lane by lane. -/
theorem out5_last (c : Dev nD) (b : Fin 8) (l : Fin 128) :
    (outsAt0 m c (lastPt b).val (lastPt b).isLt).1 (ix3 0 0 l) = num m c (lastPt b).val (lastPt b).isLt (ix2 0 l) := by
  have hb := b.isLt
  have h0 : ¬(lastPt b).val % 16 = 0 := by show ¬(16 * b.val + 15) % 16 = 0; omega
  have h1 : (lastPt b).val % 16 = 15 := by show (16 * b.val + 15) % 16 = 15; omega
  unfold num
  rw [outsAt0_last m c (lastPt b) h0 h1]; dsimp only
  rw [outLast5_eq, accLast0_eq, pay1_apply]

theorem out6_last (c : Dev nD) (b : Fin 8) (l : Fin 128) :
    (outsAt0 m c (lastPt b).val (lastPt b).isLt).2.1 (ix3 0 0 l) = den m c (lastPt b).val (lastPt b).isLt (ix2 0 l) := by
  have hb := b.isLt
  have h0 : ¬(lastPt b).val % 16 = 0 := by show ¬(16 * b.val + 15) % 16 = 0; omega
  have h1 : (lastPt b).val % 16 = 15 := by show (16 * b.val + 15) % 16 = 15; omega
  unfold den
  rw [outsAt0_last m c (lastPt b) h0 h1]; dsimp only
  rw [outLast6_eq, accLast1_eq, pay2_apply]

end Cert.KernelIdeal.Accumulate

end
-- ==== Proof.KIdeal.ResultArrays.lean ====
/-
  The two result arrays after the kernel's run, entry by entry, for any float instance; and the host tail that follows
  the kernel, read at the ideal values.
-/
import proofs.«168659_j5179730559712_1_alg».proof.Proof.KIdeal.Carried
import proofs.«168659_j5179730559712_1_alg».proof.Proof.KIdeal.Launch
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The two result arrays after the run, entry by entry

Each result window's block is one batch's row: block index `(t / 16, 0, 0)` at point `t`. The window is written back
only at a batch's last point, `t % 16 = 15`; two such points lie in different batches, so their blocks share no index,
and the eight of them tile the array. Entry `(b, 0, l)` of the array therefore ends at entry `(0, 0, l)` of what the
last point of batch `b` left in the window's staging buffer. -/

/-- the last point of batch b -/
def lastOf (b : Fin 8) : Fin cfg0.N := ⟨16 * b.val + 15, by have := b.isLt; have : cfg0.N = 128 := N_0; omega⟩

/-- The result windows' block index at point `t`, axis by axis: the batch `t / 16`, then zeros (decided over the grid). -/
theorem idx5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)
theorem idx6 : ∀ t : Fin cfg0.N, win0_6.index t 0 = t.val / 16 ∧ win0_6.index t 1 = 0 ∧ win0_6.index t 2 = 0 :=
  (by decide +kernel : ∀ t : Fin grid0.N, win0_6.index t 0 = t.val / 16 ∧ win0_6.index t 1 = 0 ∧ win0_6.index t 2 = 0)

/-- Two distinct points that write a result window back are the last points of two different batches: their blocks
    share no index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (by
    have h0 : win0_5.index t 0 = win0_5.index t' 0 := congrFun h 0
    rw [(idx5 t).1, (idx5 t').1] at h0
    have h1 := (flush0_5 t).mp hf
    have h2 := (flush0_5 t').mp hf'
    apply Fin.ext; omega)
theorem disjoint6 : ∀ t t' : Fin cfg0.N, (cfg0.win 6).flush t = true → (cfg0.win 6).flush t' = true → t ≠ t' →
    Disjoint ((cfg0.win 6).blk t).view.set ((cfg0.win 6).blk t').view.set :=
  fun t t' hf hf' hne => (cfg0.win 6).disjoint_blk fun h => hne (by
    have h0 : win0_6.index t 0 = win0_6.index t' 0 := congrFun h 0
    rw [(idx6 t).1, (idx6 t').1] at h0
    have h1 := (flush0_6 t).mp hf
    have h2 := (flush0_6 t').mp hf'
    apply Fin.ext; omega)

/-- The last point of a batch writes the result windows back. -/
theorem flush5_lastOf (b : Fin 8) : (cfg0.win 5).flush (lastOf b) = true :=
  (flush0_5 _).mpr (by show (16 * b.val + 15) % 16 = 15; omega)
theorem flush6_lastOf (b : Fin 8) : (cfg0.win 6).flush (lastOf b) = true :=
  (flush0_6 _).mpr (by show (16 * b.val + 15) % 16 = 15; omega)

/-- Entry `(0, 0, l)` of the block at the last point of batch `b` sits in the array at `(b, 0, l)`. -/
theorem emb5_lastOf (b : Fin 8) (l : Fin 128) :
    ((cfg0.win 5).blk (lastOf b)).view.emb (ix3 (0 : Fin 1) (0 : Fin 1) l) = ix3 b (0 : Fin 1) l := by
  funext a; apply Fin.ext
  match a with
  | ⟨0, _⟩ => show win0_5.index (lastOf b) (0 : Fin 3) * 1 + 1 * 0 = b.val; rw [(idx5 (lastOf b)).1]; show (16 * b.val + 15) / 16 * 1 + 1 * 0 = b.val; omega
  | ⟨1, _⟩ => show win0_5.index (lastOf b) (1 : Fin 3) * 1 + 1 * 0 = 0; rw [(idx5 (lastOf b)).2.1]
  | ⟨2, _⟩ => show win0_5.index (lastOf b) (2 : Fin 3) * 128 + 1 * l.val = l.val; rw [(idx5 (lastOf b)).2.2]; omega
theorem emb6_lastOf (b : Fin 8) (l : Fin 128) :
    ((cfg0.win 6).blk (lastOf b)).view.emb (ix3 (0 : Fin 1) (0 : Fin 1) l) = ix3 b (0 : Fin 1) l := by
  funext a; apply Fin.ext
  match a with
  | ⟨0, _⟩ => show win0_6.index (lastOf b) (0 : Fin 3) * 1 + 1 * 0 = b.val; rw [(idx6 (lastOf b)).1]; show (16 * b.val + 15) / 16 * 1 + 1 * 0 = b.val; omega
  | ⟨1, _⟩ => show win0_6.index (lastOf b) (1 : Fin 3) * 1 + 1 * 0 = 0; rw [(idx6 (lastOf b)).2.1]
  | ⟨2, _⟩ => show win0_6.index (lastOf b) (2 : Fin 3) * 128 + 1 * l.val = l.val; rw [(idx6 (lastOf b)).2.2]; omega

/-- The first result array after the run: entry `(b, 0, l)` is entry `(0, 0, l)` of what batch `b`'s last point left
    in the window's staging buffer. -/
theorem arrAt5_apply (c : Dev nD) (b : Fin 8) (l : Fin 128) :
    (dats m 0 c).arrAt 5 cfg0.N (ix3 b 0 l) = (outsAt0 m c (lastOf b).val (lastOf b).isLt).1 (ix3 0 0 l) := by
  have h := (dats m 0 c).arrAt_emb_eq_flushed 5 disjoint5 (lastOf b) (flush5_lastOf b) (ix3 0 0 l)
  rw [emb5_lastOf] at h
  rw [h, cast_eq]
  show (dats m 0 c).after 5 (lastOf b) (ix3 0 0 l) = _
  rw [after_5]

/-- The second result array likewise. -/
theorem arrAt6_apply (c : Dev nD) (b : Fin 8) (l : Fin 128) :
    (dats m 0 c).arrAt 6 cfg0.N (ix3 b 0 l) = (outsAt0 m c (lastOf b).val (lastOf b).isLt).2.1 (ix3 0 0 l) := by
  have h := (dats m 0 c).arrAt_emb_eq_flushed 6 disjoint6 (lastOf b) (flush6_lastOf b) (ix3 0 0 l)
  rw [emb6_lastOf] at h
  rw [h, cast_eq]
  show (dats m 0 c).after 6 (lastOf b) (ix3 0 0 l) = _
  rw [after_6]

end Cert.KernelIdeal.Frame

namespace Cert.KernelIdeal.TailValue

open Cert.KernelIdeal Cert.KernelIdeal.Gen
open Idealize.ShloMosaic Idealize.ShloMosaic.ValueIdx
open scoped BigOperators

/-! ## The host tail at the ideal values

After the kernel the host takes, of each result array, the eight entries `(b, 0, 0)`, adds them up from zero, and
divides the first sum by the second. -/

/-- The slice `[0:8, 0:1, 0:1]` of a result array viewed as a vector of eight reads entry `(b, 0, 0)` at `b`. -/
theorem column_apply (X : (⟨S8x1x128, .f32⟩ : BufTy).Contents (Elt Ideal)) (b : Fin 8) :
    shapeCast S8 (extractStridedSlice S8x1x1 ![0, 0, 0] X slices_S8x1x128_S8x1x1_0_0_0) shapeCasts_S8x1x1_S8 (ix1 b)
      = X (ix3 b 0 0) := by
  refine (shapeCast_apply _ shapeCasts_S8x1x1_S8 (ix1 b) (ix3 b (0 : Fin 1) (0 : Fin 1)) ?_).trans ?_
  · rw [Shape.rowMajor_val_three, Shape.rowMajor_val_one]
    show (b.val * 1 + 0) * 1 + 0 = b.val
    omega
  · exact extractStridedSlice_apply _ X slices_S8x1x128_S8x1x1_0_0_0 (ix3 b (0 : Fin 1) (0 : Fin 1)) (ix3 b (0 : Fin 1) (0 : Fin 128)) fun a =>
      match a with
      | ⟨0, _⟩ => by show b.val = 0 + b.val; omega
      | ⟨1, _⟩ => by show 0 = 0 + 0; rfl
      | ⟨2, _⟩ => by show 0 = 0 + 0; rfl

/-- One sum of the tail: the eight entries `(b, 0, 0)` added up. -/
theorem colSum_apply (X : (⟨S8x1x128, .f32⟩ : BufTy).Contents (Elt Ideal)) (i : S_.Idx) :
    Host.reduceAdd (shapeCast S8 (extractStridedSlice S8x1x1 ![0, 0, 0] X slices_S8x1x128_S8x1x1_0_0_0) shapeCasts_S8x1x1_S8)
      (constant (F := Ideal) S_ .f32 0x00000000#32) reducesTo_S8_S_d0 h_S_ i = ∑ b : Fin 8, X (ix3 b 0 0) := by
  simp only [Host.reduceAdd, Ideal.hostReduceAdd_def]
  rw [Ideal.hostReduceAdd_total reducesTo_S8_S_d0 (fun b => b.elim0)]
  rw [constant_apply, Ideal.ofBits_zero_f32, zero_add]
  rw [← Equiv.sum_comp (idxEquiv1 (n := 8)).symm]
  exact Finset.sum_congr rfl fun b _ => column_apply X b

/-- The host tail at the scalar index: the first array's column sum divided by the second's. -/
theorem tailOf_apply (X5 X6 : (⟨S8x1x128, .f32⟩ : BufTy).Contents (Elt Ideal)) (i : S_.Idx) :
    Cert.KernelIdeal.Frame.tailOf (F := Ideal) X5 X6 i = Ideal.div (∑ b : Fin 8, X5 (ix3 b 0 0)) (∑ b : Fin 8, X6 (ix3 b 0 0)) := by
  unfold Cert.KernelIdeal.Frame.tailOf
  show FloatOps.hostDivf _ _ = _
  rw [Ideal.hostDivf_def, colSum_apply, colSum_apply]

end Cert.KernelIdeal.TailValue

end
-- ==== Proof.KIdeal.Result.lean ====
/-
  The kernel program's result at the exact instance: the host tail divides the sum over the eight batches of the first
  result array's lane 0 by the same sum of the second's; each batch's entry is what its last tile copied out of the
  accumulator, the batch's sum tile by tile; summed over the batches these are the specification's numerator and
  denominator taken tile by tile, which are the whole sums.
-/
import proofs.«168659_j5179730559712_1_alg».proof.Proof.KIdeal.Run
import proofs.«168659_j5179730559712_1_alg».proof.Proof.KIdeal.Accumulate
import proofs.«168659_j5179730559712_1_alg».proof.Proof.KIdeal.ResultArrays

set_option maxRecDepth 16384

noncomputable section

namespace Cert.KernelIdeal.Result

open Cert.KernelIdeal Cert.KernelIdeal.Gen Cert.KernelIdeal.Frame Cert.KernelIdeal.Accumulate Cert.KernelIdeal.TailValue
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The first result array's lane 0 of batch `b` after the run: the batch's numerator, tile by tile. -/
theorem arr5_batch (c : Dev nD) (b : Fin 8) :
    (dats m 0 c).arrAt 5 cfg0.N (ix3 b 0 0)
      = ∑ u : Fin 16, Cert.Spec.tileNum (ptsX m c) (ptsY m c) (wts m c) b (Cert.Spec.tileRow u) (Cert.Spec.tileCol u) := by
  rw [arrAt5_apply]
  exact (out5_last m c b 0).trans (num_last m c b _)

theorem arr6_batch (c : Dev nD) (b : Fin 8) :
    (dats m 0 c).arrAt 6 cfg0.N (ix3 b 0 0)
      = ∑ u : Fin 16, Cert.Spec.tileDen (wts m c) b (Cert.Spec.tileRow u) (Cert.Spec.tileCol u) := by
  rw [arrAt6_apply]
  exact (out6_last m c b 0).trans (den_last m c b _)

/-- The host tail of the two result arrays is the specification's result. -/
theorem tail_eq (c : Dev nD) (i : S_.Idx) :
    tailOf (F := Ideal) ((dats m 0 c).arrAt 5 cfg0.N) ((dats m 0 c).arrAt 6 cfg0.N) i
      = Cert.Spec.result (ptsX m c) (ptsY m c) (wts m c) := by
  rw [tailOf_apply]
  unfold Cert.Spec.result
  rw [← Cert.Spec.numTiled_eq, ← Cert.Spec.denTiled_eq]
  unfold Cert.Spec.numTiled Cert.Spec.denTiled
  simp only [arr5_batch, arr6_batch]

/-- The kernel program at the exact instance ends with the specification's result in its result buffer, and its
    arguments unchanged. -/
theorem run_value : θ_run defs (onTc (τ := τ) (main (F := Ideal))) ⟨m, fun _ => 0, ρ⟩ (fun r => ∀ c : Dev nD,
      r.2.mem ((c.tc : Thread nD τ).loc main_v7) = (fun _ => Cert.Spec.result (ptsX m c) (ptsY m c) (wts m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (funext fun i => tail_eq m c i), (h c).2⟩) (run_result m ρ)

end Cert.KernelIdeal.Result

end
-- ==== Proof.RefValue.lean ====
/-
  The reference program's result, read at the extended reals, is the specification's `result`: stage by stage,
  the squared norms and inner products of the points are the finite sums over the three coordinates, the distance
  is the clamped root of `|p|² + |q|² - 2 p·q`, each summand of the numerator is the squared weighted difference of
  the two distances, the two total sums run over every batch and pair, and the result is their quotient.
-/
import proofs.«168659_j5179730559712_1_alg».proof.Proof.Gen.ReferenceIdeal.Read
import proofs.«168659_j5179730559712_1_alg».proof.Proof.Spec
import Idealize.ShloMosaic.PureOps.Ideal.Laws
import Idealize.ShloMosaic.Lib.ValueIdx

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

/-- A point cloud as the reference program receives it. -/
abbrev PtsArg : Type := (⟨S8x2048x3, .f32⟩ : BufTy).Contents (Elt Ideal)
/-- A weight array as the reference program receives it. -/
abbrev AdjArg : Type := (⟨S8x2048x2048, .f32⟩ : BufTy).Contents (Elt Ideal)

/-! ## The first point cloud -/

/-- The row sums of the squares are the squared norms. -/
theorem v1_eq (x0 : PtsArg) (b : Fin 8) (n : Fin 2048) :
    val_main_v1 (F := Ideal) x0 (ix2 b n) = Cert.Spec.sqn x0 b n := by
  have e : ∀ k : Fin 3, idx_main_v1 (ix2 b n) k = ix3 b n k := fun k =>
    funext fun a => Fin.ext (by match a with | ⟨0, _⟩ => rfl | ⟨1, _⟩ => rfl | ⟨2, _⟩ => rfl)
  rw [val_main_v1_apply, val_main_cst_apply, Ideal.ofBits_def, Ideal.ofBits_zero_f32, zero_add]
  unfold Cert.Spec.sqn
  refine Finset.sum_congr rfl fun k _ => ?_
  rw [val_main_v0_apply, e k, Ideal.mulf_def]

/-- The batched product of the cloud with itself is the inner products. -/
theorem v7_eq (x0 : PtsArg) (b : Fin 8) (n m : Fin 2048) :
    val_main_v7 (F := Ideal) x0 (ix3 b n m) = Cert.Spec.dot x0 b n m := by
  have el : ∀ k : Fin 3, lidx_main_v7 (ix3 b n m) k = ix3 b n k := fun k =>
    funext fun a => Fin.ext (by match a with | ⟨0, _⟩ => rfl | ⟨1, _⟩ => rfl | ⟨2, _⟩ => rfl)
  have er : ∀ k : Fin 3, ridx_main_v7 (ix3 b n m) k = ix3 b m k := fun k =>
    funext fun a => Fin.ext (by match a with | ⟨0, _⟩ => rfl | ⟨1, _⟩ => rfl | ⟨2, _⟩ => rfl)
  rw [val_main_v7_apply]
  unfold Cert.Spec.dot
  refine Finset.sum_congr rfl fun k _ => ?_
  rw [el k, er k]

/-- Before the clamp: `|p|² + |q|² - 2 p·q`, the two squared norms spread along rows and along columns. -/
theorem v10_eq (x0 : PtsArg) (b : Fin 8) (n m : Fin 2048) :
    val_main_v10 (F := Ideal) x0 (ix3 b n m)
      = Cert.Spec.sqn x0 b n + Cert.Spec.sqn x0 b m - Ideal.ofBits .f32 0x40000000#32 * Cert.Spec.dot x0 b n m := by
  have e4 : idx_main_v2 (idx_main_v4 (ix3 b n m)) = ix2 b n :=
    funext fun a => Fin.ext (by match a with | ⟨0, _⟩ => rfl | ⟨1, _⟩ => rfl)
  have e5 : idx_main_v3 (idx_main_v5 (ix3 b n m)) = ix2 b m :=
    funext fun a => Fin.ext (by match a with | ⟨0, _⟩ => rfl | ⟨1, _⟩ => rfl)
  rw [val_main_v10_apply, val_main_v6_apply, val_main_v4_apply, val_main_v2_apply, val_main_v5_apply,
    val_main_v3_apply, val_main_v9_apply, val_main_v8_apply, val_main_cst_0_apply, e4, e5, v1_eq, v1_eq, v7_eq,
    Ideal.ofBits_def, Ideal.mulf_def, Ideal.addf_def, Ideal.subf_def]

/-- The distances of the first cloud: the clamp at zero, and the root taken only where the clamped value is
    positive. -/
theorem v19_eq (x0 : PtsArg) (b : Fin 8) (n m : Fin 2048) :
    val_main_v19 (F := Ideal) x0 (ix3 b n m) = Cert.Spec.dist x0 b n m := by
  rw [val_main_v19_apply, val_main_v14_apply, val_main_v18_apply, val_main_v17_apply, val_main_v16_apply,
    val_main_v12_apply, val_main_v13_apply, val_main_v15_apply, val_main_v11_apply, val_main_call0_v1_apply,
    val_main_call1_v1_apply, val_main_call0_v0_apply, val_main_call1_v0_apply, val_main_cst_1_apply,
    val_main_cst_2_apply, val_main_cst_3_apply, val_main_cst_4_apply, val_main_cst_5_apply, v10_eq]
  unfold Cert.Spec.dist Cert.Spec.root
  simp only [Ideal.cmpf_def, Ideal.maximumf_def, Ideal.hostUnary_sqrt_def, Ideal.ofBits_def]

/-! ## The second point cloud: the same stages under their own names -/

/-- The row sums of the squares are the squared norms. -/
theorem v21_eq (x1 : PtsArg) (b : Fin 8) (n : Fin 2048) :
    val_main_v21 (F := Ideal) x1 (ix2 b n) = Cert.Spec.sqn x1 b n := by
  have e : ∀ k : Fin 3, idx_main_v21 (ix2 b n) k = ix3 b n k := fun k =>
    funext fun a => Fin.ext (by match a with | ⟨0, _⟩ => rfl | ⟨1, _⟩ => rfl | ⟨2, _⟩ => rfl)
  rw [val_main_v21_apply, val_main_cst_6_apply, Ideal.ofBits_def, Ideal.ofBits_zero_f32, zero_add]
  unfold Cert.Spec.sqn
  refine Finset.sum_congr rfl fun k _ => ?_
  rw [val_main_v20_apply, e k, Ideal.mulf_def]

/-- The batched product of the cloud with itself is the inner products. -/
theorem v27_eq (x1 : PtsArg) (b : Fin 8) (n m : Fin 2048) :
    val_main_v27 (F := Ideal) x1 (ix3 b n m) = Cert.Spec.dot x1 b n m := by
  have el : ∀ k : Fin 3, lidx_main_v27 (ix3 b n m) k = ix3 b n k := fun k =>
    funext fun a => Fin.ext (by match a with | ⟨0, _⟩ => rfl | ⟨1, _⟩ => rfl | ⟨2, _⟩ => rfl)
  have er : ∀ k : Fin 3, ridx_main_v27 (ix3 b n m) k = ix3 b m k := fun k =>
    funext fun a => Fin.ext (by match a with | ⟨0, _⟩ => rfl | ⟨1, _⟩ => rfl | ⟨2, _⟩ => rfl)
  rw [val_main_v27_apply]
  unfold Cert.Spec.dot
  refine Finset.sum_congr rfl fun k _ => ?_
  rw [el k, er k]

/-- Before the clamp: `|p|² + |q|² - 2 p·q`. -/
theorem v30_eq (x1 : PtsArg) (b : Fin 8) (n m : Fin 2048) :
    val_main_v30 (F := Ideal) x1 (ix3 b n m)
      = Cert.Spec.sqn x1 b n + Cert.Spec.sqn x1 b m - Ideal.ofBits .f32 0x40000000#32 * Cert.Spec.dot x1 b n m := by
  have e4 : idx_main_v22 (idx_main_v24 (ix3 b n m)) = ix2 b n :=
    funext fun a => Fin.ext (by match a with | ⟨0, _⟩ => rfl | ⟨1, _⟩ => rfl)
  have e5 : idx_main_v23 (idx_main_v25 (ix3 b n m)) = ix2 b m :=
    funext fun a => Fin.ext (by match a with | ⟨0, _⟩ => rfl | ⟨1, _⟩ => rfl)
  rw [val_main_v30_apply, val_main_v26_apply, val_main_v24_apply, val_main_v22_apply, val_main_v25_apply,
    val_main_v23_apply, val_main_v29_apply, val_main_v28_apply, val_main_cst_7_apply, e4, e5, v21_eq, v21_eq, v27_eq,
    Ideal.ofBits_def, Ideal.mulf_def, Ideal.addf_def, Ideal.subf_def]

/-- The distances of the second cloud. -/
theorem v39_eq (x1 : PtsArg) (b : Fin 8) (n m : Fin 2048) :
    val_main_v39 (F := Ideal) x1 (ix3 b n m) = Cert.Spec.dist x1 b n m := by
  rw [val_main_v39_apply, val_main_v34_apply, val_main_v38_apply, val_main_v37_apply, val_main_v36_apply,
    val_main_v32_apply, val_main_v33_apply, val_main_v35_apply, val_main_v31_apply, val_main_call2_v1_apply,
    val_main_call3_v1_apply, val_main_call2_v0_apply, val_main_call3_v0_apply, val_main_cst_8_apply,
    val_main_cst_9_apply, val_main_cst_10_apply, val_main_cst_11_apply, val_main_cst_12_apply, v30_eq]
  unfold Cert.Spec.dist Cert.Spec.root
  simp only [Ideal.cmpf_def, Ideal.maximumf_def, Ideal.hostUnary_sqrt_def, Ideal.ofBits_def]

/-! ## The summands, the two sums, the quotient -/

/-- One summand of the numerator: the difference of the two distances, weighted, squared. -/
theorem v42_eq (x0 x1 : PtsArg) (x2 : AdjArg) (b : Fin 8) (n m : Fin 2048) :
    val_main_v42 (F := Ideal) x0 x1 x2 (ix3 b n m) = Cert.Spec.term x0 x1 x2 b n m := by
  rw [val_main_v42_apply, val_main_v41_apply, val_main_v40_apply, v19_eq, v39_eq, Ideal.subf_def, Ideal.mulf_def,
    Ideal.mulf_def]
  rfl

/-- The numerator: the sum of the summands over every batch and pair. -/
theorem v43_eq (x0 x1 : PtsArg) (x2 : AdjArg) (i : S_.Idx) :
    val_main_v43 (F := Ideal) x0 x1 x2 i = Cert.Spec.num x0 x1 x2 := by
  rw [val_main_v43_apply, val_main_cst_13_apply, Ideal.ofBits_def, Ideal.ofBits_zero_f32, zero_add,
    Cert.Spec.sum_idx3]
  unfold Cert.Spec.num
  exact Finset.sum_congr rfl fun b _ => Finset.sum_congr rfl fun n _ => Finset.sum_congr rfl fun m _ =>
    v42_eq x0 x1 x2 b n m

/-- The denominator: the sum of the weights. -/
theorem v44_eq (x2 : AdjArg) (i : S_.Idx) :
    val_main_v44 (F := Ideal) x2 i = Cert.Spec.den x2 := by
  rw [val_main_v44_apply, val_main_cst_14_apply, Ideal.ofBits_def, Ideal.ofBits_zero_f32, zero_add,
    Cert.Spec.sum_idx3]
  rfl

/-- The reference program's result is the specification's. -/
theorem result_eq (x0 x1 : (⟨Cert.ReferenceIdeal.S8x2048x3, .f32⟩ : BufTy).Contents (Elt Ideal))
    (x2 : (⟨Cert.ReferenceIdeal.S8x2048x2048, .f32⟩ : BufTy).Contents (Elt Ideal)) (i : Cert.ReferenceIdeal.S_.Idx) :
    Cert.ReferenceIdeal.Read.val_main_v45 (F := Ideal) x0 x1 x2 i = Cert.Spec.result x0 x1 x2 := by
  rw [val_main_v45_apply, v43_eq, v44_eq, Ideal.hostDivf_def]
  rfl

end Cert.ReferenceIdeal.RefValue

end
-- ==== Proof.lean ====
/-
  The certificate. Both programs compute, from two clouds of 2048 points in eight batches and a weight array, the sum
  over every batch and every pair of points of the squared weighted difference of the pair's distances in the two
  clouds, divided by the sum of the weights. The kernel program does it tile by tile — 512 × 512 pairs at a grid
  point, accumulated over the sixteen tiles of a batch in two scratch accumulators that are cleared at the batch's
  first tile and written out at its last — and the host operations after it add the eight batches and divide; the
  reference does it in whole-array operations. Over the extended reals the two agree because addition is commutative
  and associative: no finiteness of the inputs is needed. The word-level kernel program and its exact reading run,
  terminate and leave their arguments unchanged: the region's launch (two of its input windows share each point cloud,
  each holding half of it), the body at every grid point by its three cases, and the host operations after the region.
  The reference program's run is the composition of its host operations. Nothing in the kernel program was rewritten
  for its exact reading, so that reading is its sanctioned one with nothing to show.
-/
import proofs.«168659_j5179730559712_1_alg».proof.Defs
import proofs.«168659_j5179730559712_1_alg».proof.Proof.Gen.Kernel
import proofs.«168659_j5179730559712_1_alg».proof.Proof.Gen.Kernel.Skeleton
import proofs.«168659_j5179730559712_1_alg».proof.Proof.Gen.Kernel.Launch
import proofs.«168659_j5179730559712_1_alg».proof.Proof.Gen.Kernel.Points
import proofs.«168659_j5179730559712_1_alg».proof.Proof.Gen.KernelIdeal
import proofs.«168659_j5179730559712_1_alg».proof.Proof.Gen.KernelIdeal.Skeleton
import proofs.«168659_j5179730559712_1_alg».proof.Proof.Gen.KernelIdeal.Launch
import proofs.«168659_j5179730559712_1_alg».proof.Proof.Gen.KernelIdeal.Points
import proofs.«168659_j5179730559712_1_alg».proof.Proof.Gen.ReferenceIdeal
import proofs.«168659_j5179730559712_1_alg».proof.Proof.Gen.Pre_finite_inputs
import proofs.«168659_j5179730559712_1_alg».proof.Proof.Gen.ReferenceIdeal.Run
import proofs.«168659_j5179730559712_1_alg».proof.Proof.Gen.ReferenceIdeal.Read
import proofs.«168659_j5179730559712_1_alg».proof.Proof.KBits.Run
import proofs.«168659_j5179730559712_1_alg».proof.Proof.KIdeal.Result
import proofs.«168659_j5179730559712_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Frame.frame m ρ

/-- So does its exact reading. -/
theorem frame_kernelIdeal : Cert.frame_KernelIdeal := fun m ρ _ => Cert.KernelIdeal.Frame.frame m ρ

/-- The reference program's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The exact reading rewrote nothing. -/
theorem preserves : Cert.preserves_Kernel_KernelIdeal := trivial

/-- From memories that agree on the arguments both programs end with the specification's result of those arguments:
    the kernel program by its tile-by-tile sums, the reference by its whole-array operations read one at a time. -/
theorem algebraic : Cert.algebraic_KernelIdeal_ReferenceIdeal := by
  intro m ρ m' ρ' _ hagree
  refine ⟨fun c => (fun _ => Cert.Spec.result (Cert.KernelIdeal.Accumulate.ptsX m c) (Cert.KernelIdeal.Accumulate.ptsY m c) (Cert.KernelIdeal.Accumulate.wts m c)),
    Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2]
  exact funext fun i => Cert.ReferenceIdeal.RefValue.result_eq _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
